-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8x1024 : Shape := ⟨3, ![64, 8, 1024]⟩
abbrev S64x4096x256 : Shape := ⟨3, ![64, 4096, 256]⟩
abbrev S1024x256 : Shape := ⟨2, ![1024, 256]⟩
abbrev S256 : Shape := ⟨1, ![256]⟩
abbrev S512 : Shape := ⟨1, ![512]⟩
abbrev S512x512 : Shape := ⟨2, ![512, 512]⟩
abbrev S512x1 : Shape := ⟨2, ![512, 1]⟩
abbrev S1 : Shape := ⟨1, ![1]⟩
abbrev S256x1024 : Shape := ⟨2, ![256, 1024]⟩
abbrev S1024 : Shape := ⟨1, ![1024]⟩
abbrev S_ : Shape := ⟨0, ![]⟩

class Facts : Prop where
  bcast_S_S64x8x1024 : S_.BroadcastsInDim S64x8x1024 (![] : Fin 0 → Fin S64x8x1024.rank)
  reducesTo_S64x8x1024_S_d0_1_2 : S64x8x1024.ReducesTo [0, 1, 2] S_
  h_S_ : 0 < S_.numel
  bcast_S_S64x4096x256 : S_.BroadcastsInDim S64x4096x256 (![] : Fin 0 → Fin S64x4096x256.rank)
  reducesTo_S64x4096x256_S_d0_1_2 : S64x4096x256.ReducesTo [0, 1, 2] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v48 : IVec S_ 1) (main_v49 : FVec F S256x1024 .f32) (main_v50 : FVec F S256x1024 .f32) : IVec S_ 1 :=
  let main_v51 : IVec S256x1024 1 := cmpf .olt main_v49 main_v50
  let main_c_19 : IVec S_ 1 := constantI S_ 1 1#1
  let main_v52 : IVec S_ 1 := (fun x v => Host.reduce IntOp.andi x v reducesTo_S256x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S512 .f32) (main_arg8 : FVec F S512x1 .f32) (main_arg9 : FVec F S1 .f32) (main_arg10 : FVec F S256x1024 .f32) (main_arg11 : FVec F S1024 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x1 .f32 := Host.absf main_arg8
  let main_cst_14 : FVec F S_ .f32 := constant S_ .f32 0x7F800000#32
  let main_v40 : FVec F S512x1 .f32 := broadcastInDim S512x1 ![] bcast_S_S512x1 main_cst_14
  let main_v41 : IVec S512x1 1 := cmpf .olt main_v39 main_v40
  let main_c_15 : IVec S_ 1 := constantI S_ 1 1#1
  let main_v42 : IVec S_ 1 := (fun x v => Host.reduce IntOp.andi x v reducesTo_S512x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S256x1024 .f32 := Host.absf main_arg10
  let main_cst_18 : FVec F S_ .f32 := constant S_ .f32 0x7F800000#32
  let main_v50 : FVec F S256x1024 .f32 := broadcastInDim S256x1024 ![] bcast_S_S256x1024 main_cst_18
  fn_part3 (F := F) main_arg11 main_v48 main_v49 main_v50

def fn_part1 {F : FTy → Type} [FloatOps F] (main_arg4 : FVec F S512 .f32) (main_arg5 : FVec F S512 .f32) (main_arg6 : FVec F S512x512 .f32) (main_arg7 : FVec F S512 .f32) (main_arg8 : FVec F S512x1 .f32) (main_arg9 : FVec F S1 .f32) (main_arg10 : FVec F S256x1024 .f32) (main_arg11 : FVec F S1024 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S64x8x1024 .f32) (main_arg1 : FVec F S64x4096x256 .f32) (main_arg2 : FVec F S1024x256 .f32) (main_arg3 : FVec F S256 .f32) (main_arg4 : FVec F S512 .f32) (main_arg5 : FVec F S512 .f32) (main_arg6 : FVec F S512x512 .f32) (main_arg7 : FVec F S512 .f32) (main_arg8 : FVec F S512x1 .f32) (main_arg9 : FVec F S1 .f32) (main_arg10 : FVec F S256x1024 .f32) (main_arg11 : FVec F S1024 .f32) : IVec S_ 1 :=
  let main_v0 : FVec F S64x8x1024 .f32 := Host.absf main_arg0
  let main_cst : FVec F S_ .f32 := constant S_ .f32 0x7F800000#32
  let main_v1 : FVec F S64x8x1024 .f32 := broadcastInDim S64x8x1024 ![] bcast_S_S64x8x1024 main_cst
  let main_v2 : IVec S64x8x1024 1 := cmpf .olt main_v0 main_v1
  let main_c : IVec S_ 1 := constantI S_ 1 1#1
  let main_v3 : IVec S_ 1 := (fun x v => Host.reduce IntOp.andi x v reducesTo_S64x8x1024_S_d0_1_2 h_S_) main_v2 main_c
  let main_v4 : FVec F S64x4096x256 .f32 := Host.absf main_arg1
  let main_cst_0 : FVec F S_ .f32 := constant S_ .f32 0x7F800000#32
  let main_v5 : FVec F S64x4096x256 .f32 := broadcastInDim S64x4096x256 ![] bcast_S_S64x4096x256 main_cst_0
  let main_v6 : IVec S64x4096x256 1 := cmpf .olt main_v4 main_v5
  let main_c_1 : IVec S_ 1 := constantI S_ 1 1#1
  let main_v7 : IVec S_ 1 := (fun x v => Host.reduce IntOp.andi x v reducesTo_S64x4096x256_S_d0_1_2 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S64x8x1024 : Shape := ⟨3, ![64, 8, 1024]⟩
abbrev S64x4096x256 : Shape := ⟨3, ![64, 4096, 256]⟩
abbrev S1024x256 : Shape := ⟨2, ![1024, 256]⟩
abbrev S256 : Shape := ⟨1, ![256]⟩
abbrev S512 : Shape := ⟨1, ![512]⟩
abbrev S512x512 : Shape := ⟨2, ![512, 512]⟩
abbrev S512x1 : Shape := ⟨2, ![512, 1]⟩
abbrev S1 : Shape := ⟨1, ![1]⟩
abbrev S256x1024 : Shape := ⟨2, ![256, 1024]⟩
abbrev S1024 : Shape := ⟨1, ![1024]⟩
abbrev S512x1024 : Shape := ⟨2, ![512, 1024]⟩
abbrev S1x256 : Shape := ⟨2, ![1, 256]⟩
abbrev S1x512 : Shape := ⟨2, ![1, 512]⟩
abbrev S1x1 : Shape := ⟨2, ![1, 1]⟩
abbrev S1x1024 : Shape := ⟨2, ![1, 1024]⟩
abbrev S512x256 : Shape := ⟨2, ![512, 256]⟩
abbrev S64x8x256 : Shape := ⟨3, ![64, 8, 256]⟩
abbrev S4x8x256 : Shape := ⟨3, ![4, 8, 256]⟩
abbrev S4x4096x256 : Shape := ⟨3, ![4, 4096, 256]⟩
abbrev S1x8x256 : Shape := ⟨3, ![1, 8, 256]⟩
abbrev S8x256 : Shape := ⟨2, ![8, 256]⟩
abbrev S1x4096x256 : Shape := ⟨3, ![1, 4096, 256]⟩
abbrev S4096x256 : Shape := ⟨2, ![4096, 256]⟩
abbrev S8x4096 : Shape := ⟨2, ![8, 4096]⟩
abbrev S8 : Shape := ⟨1, ![8]⟩
abbrev S8x1 : Shape := ⟨2, ![8, 1]⟩

abbrev nBuf : Space → Nat
  | .hbm => 26
  | .vmem => 22
  | .smem => 0
  | _ => 0

abbrev bufTy : (tb : Table) → Fin (tcTables nBuf tb) → BufTy
  | .hbm, ⟨0, _⟩ => ⟨S64x8x1024, .f32⟩
  | .hbm, ⟨1, _⟩ => ⟨S64x4096x256, .f32⟩
  | .hbm, ⟨2, _⟩ => ⟨S1024x256, .f32⟩
  | .hbm, ⟨3, _⟩ => ⟨S256, .f32⟩
  | .hbm, ⟨4, _⟩ => ⟨S512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x1, .f32⟩
  | .hbm, ⟨9, _⟩ => ⟨S1, .f32⟩
  | .hbm, ⟨10, _⟩ => ⟨S256x1024, .f32⟩
  | .hbm, ⟨11, _⟩ => ⟨S1024, .f32⟩
  | .hbm, ⟨12, _⟩ => ⟨S512x1024, .f32⟩
  | .hbm, ⟨13, _⟩ => ⟨S1x256, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x1, .f32⟩
  | .hbm, ⟨19, _⟩ => ⟨S1x1024, .f32⟩
  | .hbm, ⟨20, _⟩ => ⟨S512x256, .f32⟩
  | .hbm, ⟨21, _⟩ => ⟨S64x8x256, .f32⟩
  | .hbm, ⟨22, _⟩ => ⟨S64x8x256, .f32⟩
  | .hbm, ⟨23, _⟩ => ⟨S512x256, .f32⟩
  | .hbm, ⟨24, _⟩ => ⟨S512x1024, .f32⟩
  | .hbm, ⟨25, _⟩ => ⟨S64x8x1024, .f32⟩
  | .local _ .vmem, ⟨0, _⟩ => ⟨S512x1024, .f32⟩
  | .local _ .vmem, ⟨1, _⟩ => ⟨S1024x256, .f32⟩
  | .local _ .vmem, ⟨2, _⟩ => ⟨S1x256, .f32⟩
  | .local _ .vmem, ⟨3, _⟩ => ⟨S512x256, .f32⟩
  | .local _ .vmem, ⟨4, _⟩ => ⟨S4x8x256, .f32⟩
  | .local _ .vmem, ⟨5, _⟩ => ⟨S4x8x256, .f32⟩
  | .local _ .vmem, ⟨6, _⟩ => ⟨S4x4096x256, .f32⟩
  | .local _ .vmem, ⟨7, _⟩ => ⟨S4x4096x256, .f32⟩
  | .local _ .vmem, ⟨8, _⟩ => ⟨S4x8x256, .f32⟩
  | .local _ .vmem, ⟨9, _⟩ => ⟨S4x8x256, .f32⟩
  | .local _ .vmem, ⟨10, _⟩ => ⟨S512x1024, .f32⟩
  | .local _ .vmem, ⟨11, _⟩ => ⟨S512x256, .f32⟩
  | .local _ .vmem, ⟨12, _⟩ => ⟨S512x256, .f32⟩
  | .local _ .vmem, ⟨13, _⟩ => ⟨S1x512, .f32⟩
  | .local _ .vmem, ⟨14, _⟩ => ⟨S1x512, .f32⟩
  | .local _ .vmem, ⟨15, _⟩ => ⟨S512x512, .f32⟩
  | .local _ .vmem, ⟨16, _⟩ => ⟨S1x512, .f32⟩
  | .local _ .vmem, ⟨17, _⟩ => ⟨S1x512, .f32⟩
  | .local _ .vmem, ⟨18, _⟩ => ⟨S1x1, .f32⟩
  | .local _ .vmem, ⟨19, _⟩ => ⟨S256x1024, .f32⟩
  | .local _ .vmem, ⟨20, _⟩ => ⟨S1x1024, .f32⟩
  | .local _ .vmem, ⟨21, _⟩ => ⟨S512x1024, .f32⟩
  | _, _ => ⟨S64x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.vmem, 16, rfl⟩
abbrev cc2_stg7_0 : Ref sig .tc := ⟨.vmem, 17, rfl⟩
abbrev cc2_stg8_0 : Ref sig .tc := ⟨.vmem, 18, rfl⟩
abbrev cc2_stg9_0 : Ref sig .tc := ⟨.vmem, 19, rfl⟩
abbrev cc2_stg10_0 : Ref sig .tc := ⟨.vmem, 20, rfl⟩
abbrev cc2_stg11_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem7_0 : DmaSem sig := 17
abbrev cc2_sem8_0 : DmaSem sig := 18
abbrev cc2_sem9_0 : DmaSem sig := 19
abbrev cc2_sem10_0 : DmaSem sig := 20
abbrev cc2_sem11_0 : DmaSem sig := 21

abbrev nD : Nat := 1
abbrev τ : Topo := Topo.v7x

variable {F : FTy → Type} [FloatOps F]

abbrev grid0 : Pipeline.Grid := .none

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x8x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x8x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := .none

abbrev stage2_0 : Fin 1 → Memref sig .tc .vmem S512x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S512x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S512x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S512x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S1x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S256x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S1x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S512x1024 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))

class Facts₀ : Prop where
  shapeCasts_S64x8x1024_S512x1024 : S64x8x1024.ShapeCasts S512x1024
  shapeCasts_S256_S1x256 : S256.ShapeCasts S1x256
  shapeCasts_S512_S1x512 : S512.ShapeCasts S1x512
  shapeCasts_S512x1_S1x512 : S512x1.ShapeCasts S1x512
  shapeCasts_S1_S1x1 : S1.ShapeCasts S1x1
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S512x256_S64x8x256 : S512x256.ShapeCasts S64x8x256
  inb_S4x8x256_S1x8x256_0_0_0 : ∀ a, (![0, 0, 0] : Fin 3 → Nat) a + S1x8x256.size a ≤ S4x8x256.size a
  h_S1x8x256 : 0 < S1x8x256.numel
  shapeCasts_S1x8x256_S8x256 : S1x8x256.ShapeCasts S8x256
  inb_S4x4096x256_S1x4096x256_0_0_0 : ∀ a, (![0, 0, 0] : Fin 3 → Nat) a + S1x4096x256.size a ≤ S4x4096x256.size a
  h_S1x4096x256 : 0 < S1x4096x256.numel
  shapeCasts_S1x4096x256_S4096x256 : S1x4096x256.ShapeCasts S4096x256
  reduces_S8x4096_S8 : S8x4096.Reduces [1] S8
  shapeCasts_S8_S8x1 : S8.ShapeCasts S8x1
  broadcasts_S8x1_S8x256 : S8x1.Broadcasts S8x256
  shapeCasts_S8x256_S1x8x256 : S8x256.ShapeCasts S1x8x256
  inb_S4x8x256_S1x8x256_1_0_0 : ∀ a, (![1, 0, 0] : Fin 3 → Nat) a + S1x8x256.size a ≤ S4x8x256.size a
  inb_S4x4096x256_S1x4096x256_1_0_0 : ∀ a, (![1, 0, 0] : Fin 3 → Nat) a + S1x4096x256.size a ≤ S4x4096x256.size a
  inb_S4x8x256_S1x8x256_2_0_0 : ∀ a, (![2, 0, 0] : Fin 3 → Nat) a + S1x8x256.size a ≤ S4x8x256.size a
  inb_S4x4096x256_S1x4096x256_2_0_0 : ∀ a, (![2, 0, 0] : Fin 3 → Nat) a + S1x4096x256.size a ≤ S4x4096x256.size a
  inb_S4x8x256_S1x8x256_3_0_0 : ∀ a, (![3, 0, 0] : Fin 3 → Nat) a + S1x8x256.size a ≤ S4x8x256.size a
  inb_S4x4096x256_S1x4096x256_3_0_0 : ∀ a, (![3, 0, 0] : Fin 3 → Nat) a + S1x4096x256.size a ≤ S4x4096x256.size a
  shapeCasts_S64x8x256_S512x256 : S64x8x256.ShapeCasts S512x256
  shapeCasts_S512x256_S512x256 : S512x256.ShapeCasts S512x256
  concatenates_S512x256_S512x256_S512x512_d1 : Shape.Concatenates [S512x256, S512x256] S512x512 1
  reduces_S512x512_S512 : S512x512.Reduces [1] S512
  shapeCasts_S512_S512x1 : S512.ShapeCasts S512x1
  broadcasts_S512x1_S512x512 : S512x1.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  natLt_1_32 : 1 < 32
  inb_S256x1024_S256x1024_0_0 : ∀ a, (![0, 0] : Fin 2 → Nat) a + S256x1024.size a ≤ S256x1024.size a
  h_S256x1024 : 0 < S256x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  broadcasts_S512x1_S512x1024 : S512x1.Broadcasts S512x1024
  shapeCasts_S512x1024_S64x8x1024 : S512x1024.ShapeCasts S64x8x1024
  dot_S512x1024_S1024x256_S512x256_1_0_0_1_n_n_wf : DotDims.WF S512x1024 S1024x256 S512x256 [1] [0] [0] [1] [] []
  dot_S8x256_S4096x256_S8x4096_1_1_0_0_n_n_wf : DotDims.WF S8x256 S4096x256 S8x4096 [1] [1] [0] [0] [] []
  dot_S8x4096_S4096x256_S8x256_1_0_0_1_n_n_wf : DotDims.WF S8x4096 S4096x256 S8x256 [1] [0] [0] [1] [] []
  dot_S512x512_S512x512_S512x512_1_0_0_1_n_n_wf : DotDims.WF S512x512 S512x512 S512x512 [1] [0] [0] [1] [] []
  dot_S512x256_S256x1024_S512x1024_1_0_0_1_n_n_wf : DotDims.WF S512x256 S256x1024 S512x1024 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x8x256.size a ≤ S64x8x256.size a
  hwx1_0 : ∀ i : grid1.Coords, EltTy.bits .f32 = 32 ∨ (Rect.block (s := S64x8x256) S4x8x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x4096x256.size a ≤ S64x4096x256.size a
  hwx1_1 : ∀ i : grid1.Coords, EltTy.bits .f32 = 32 ∨ (Rect.block (s := S64x4096x256) S4x4096x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x8x256.size a ≤ S64x8x256.size a
  hwx1_2 : ∀ i : grid1.Coords, EltTy.bits .f32 = 32 ∨ (Rect.block (s := S64x8x256) S4x8x256.size (cc1_transform_2 i) (hinb1_2 i)).WholeWords (EltTy.packing .f32)
  hstage2_0 : ∀ j, (stage2_0 j).IsWhole
  hstage2_1 : ∀ j, (stage2_1 j).IsWhole
  hstage2_2 : ∀ j, (stage2_2 j).IsWhole
  hstage2_3 : ∀ j, (stage2_3 j).IsWhole
  hstage2_4 : ∀ j, (stage2_4 j).IsWhole
  hstage2_5 : ∀ j, (stage2_5 j).IsWhole
  hstage2_6 : ∀ j, (stage2_6 j).IsWhole
  hstage2_7 : ∀ j, (stage2_7 j).IsWhole
  hstage2_8 : ∀ j, (stage2_8 j).IsWhole
  hstage2_9 : ∀ j, (stage2_9 j).IsWhole
  hstage2_10 : ∀ j, (stage2_10 j).IsWhole
  hstage2_11 : ∀ j, (stage2_11 j).IsWhole

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S8x256_S4096x256_S8x4096_1_1_0_0_n_n : DotDims S8x256 S4096x256 S8x4096 where
  lhsContracting := [1]
  rhsContracting := [1]
  lhsNonContracting := [0]
  rhsNonContracting := [0]
  lhsBatch := []
  rhsBatch := []
  wf := dot_S8x256_S4096x256_S8x4096_1_1_0_0_n_n_wf
def dot_S8x4096_S4096x256_S8x256_1_0_0_1_n_n : DotDims S8x4096 S4096x256 S8x256 where
  lhsContracting := [1]
  rhsContracting := [0]
  lhsNonContracting := [0]
  rhsNonContracting := [1]
  lhsBatch := []
  rhsBatch := []
  wf := dot_S8x4096_S4096x256_S8x256_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.whole (Memref.whole main_v0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v1) false false (stage0_2 0) (sem0_2 0) (Memref.isWhole_whole _) (hstage0_2 0)

abbrev win0_3 : Pipeline.Window sig grid0 :=
  Pipeline.Window.whole (Memref.whole main_v8) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S4x8x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4x4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S4x8x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.whole (Memref.whole main_v0) false false (stage2_0 0) (sem2_0 0) (Memref.isWhole_whole _) (hstage2_0 0)

abbrev win2_1 : Pipeline.Window sig grid2 :=
  Pipeline.Window.whole (Memref.whole main_v8) false false (stage2_1 0) (sem2_1 0) (Memref.isWhole_whole _) (hstage2_1 0)

abbrev win2_2 : Pipeline.Window sig grid2 :=
  Pipeline.Window.whole (Memref.whole main_v11) false false (stage2_2 0) (sem2_2 0) (Memref.isWhole_whole _) (hstage2_2 0)

abbrev win2_3 : Pipeline.Window sig grid2 :=
  Pipeline.Window.whole (Memref.whole main_v2) false false (stage2_3 0) (sem2_3 0) (Memref.isWhole_whole _) (hstage2_3 0)

abbrev win2_4 : Pipeline.Window sig grid2 :=
  Pipeline.Window.whole (Memref.whole main_v3) false false (stage2_4 0) (sem2_4 0) (Memref.isWhole_whole _) (hstage2_4 0)

abbrev win2_5 : Pipeline.Window sig grid2 :=
  Pipeline.Window.whole (Memref.whole main_arg6) false false (stage2_5 0) (sem2_5 0) (Memref.isWhole_whole _) (hstage2_5 0)

abbrev win2_6 : Pipeline.Window sig grid2 :=
  Pipeline.Window.whole (Memref.whole main_v4) false false (stage2_6 0) (sem2_6 0) (Memref.isWhole_whole _) (hstage2_6 0)

abbrev win2_7 : Pipeline.Window sig grid2 :=
  Pipeline.Window.whole (Memref.whole main_v5) false false (stage2_7 0) (sem2_7 0) (Memref.isWhole_whole _) (hstage2_7 0)

abbrev win2_8 : Pipeline.Window sig grid2 :=
  Pipeline.Window.whole (Memref.whole main_v6) false false (stage2_8 0) (sem2_8 0) (Memref.isWhole_whole _) (hstage2_8 0)

abbrev win2_9 : Pipeline.Window sig grid2 :=
  Pipeline.Window.whole (Memref.whole main_arg10) false false (stage2_9 0) (sem2_9 0) (Memref.isWhole_whole _) (hstage2_9 0)

abbrev win2_10 : Pipeline.Window sig grid2 :=
  Pipeline.Window.whole (Memref.whole main_v7) false false (stage2_10 0) (sem2_10 0) (Memref.isWhole_whole _) (hstage2_10 0)

abbrev win2_11 : Pipeline.Window sig grid2 :=
  Pipeline.Window.whole (Memref.whole main_v12) true false (stage2_11 0) (sem2_11 0) (Memref.isWhole_whole _) (hstage2_11 0)

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S64x8x1024 : Shape := ⟨3, ![64, 8, 1024]⟩
abbrev S64x4096x256 : Shape := ⟨3, ![64, 4096, 256]⟩
abbrev S1024x256 : Shape := ⟨2, ![1024, 256]⟩
abbrev S256 : Shape := ⟨1, ![256]⟩
abbrev S512 : Shape := ⟨1, ![512]⟩
abbrev S512x512 : Shape := ⟨2, ![512, 512]⟩
abbrev S512x1 : Shape := ⟨2, ![512, 1]⟩
abbrev S1 : Shape := ⟨1, ![1]⟩
abbrev S256x1024 : Shape := ⟨2, ![256, 1024]⟩
abbrev S1024 : Shape := ⟨1, ![1024]⟩
abbrev S64x8x256 : Shape := ⟨3, ![64, 8, 256]⟩
abbrev S1x1x256 : Shape := ⟨3, ![1, 1, 256]⟩
abbrev S64x8x4096 : Shape := ⟨3, ![64, 8, 4096]⟩
abbrev S_ : Shape := ⟨0, ![]⟩
abbrev S64x8 : Shape := ⟨2, ![64, 8]⟩
abbrev S64x8x1 : Shape := ⟨3, ![64, 8, 1]⟩
abbrev S64x8x512 : Shape := ⟨3, ![64, 8, 512]⟩
abbrev S1x1x512 : Shape := ⟨3, ![1, 1, 512]⟩
abbrev S1x1x1 : Shape := ⟨3, ![1, 1, 1]⟩
abbrev S1x1x1024 : Shape := ⟨3, ![1, 1, 1024]⟩

abbrev nBuf : Space → Nat
  | .hbm => 124
  | .vmem => 0
  | .smem => 0
  | _ => 0

abbrev bufTy : (tb : Table) → Fin (tcTables nBuf tb) → BufTy
  | .hbm, ⟨0, _⟩ => ⟨S64x8x1024, .f32⟩
  | .hbm, ⟨1, _⟩ => ⟨S64x4096x256, .f32⟩
  | .hbm, ⟨2, _⟩ => ⟨S1024x256, .f32⟩
  | .hbm, ⟨3, _⟩ => ⟨S256, .f32⟩
  | .hbm, ⟨4, _⟩ => ⟨S512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x1, .f32⟩
  | .hbm, ⟨9, _⟩ => ⟨S1, .f32⟩
  | .hbm, ⟨10, _⟩ => ⟨S256x1024, .f32⟩
  | .hbm, ⟨11, _⟩ => ⟨S1024, .f32⟩
  | .hbm, ⟨12, _⟩ => ⟨S64x8x256, .f32⟩
  | .hbm, ⟨13, _⟩ => ⟨S1x1x256, .f32⟩
  | .hbm, ⟨14, _⟩ => ⟨S64x8x256, .f32⟩
  | .hbm, ⟨15, _⟩ => ⟨S64x8x256, .f32⟩
  | .hbm, ⟨16, _⟩ => ⟨S64x8x4096, .f32⟩
  | .hbm, ⟨17, _⟩ => ⟨S_, .f32⟩
  | .hbm, ⟨18, _⟩ => ⟨S64x8x4096, .f32⟩
  | .hbm, ⟨19, _⟩ => ⟨S64x8x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S64x8x4096, .f32⟩
  | .hbm, ⟨24, _⟩ => ⟨S64x8x4096, .f32⟩
  | .hbm, ⟨25, _⟩ => ⟨S_, .f32⟩
  | .hbm, ⟨26, _⟩ => ⟨S64x8x4096, .f32⟩
  | .hbm, ⟨27, _⟩ => ⟨S64x8x4096, .f32⟩
  | .hbm, ⟨28, _⟩ => ⟨S_, .f32⟩
  | .hbm, ⟨29, _⟩ => ⟨S64x8, .f32⟩
  | .hbm, ⟨30, _⟩ => ⟨S_, .f32⟩
  | .hbm, ⟨31, _⟩ => ⟨S64x8, .f32⟩
  | .hbm, ⟨32, _⟩ => ⟨S64x8, .f32⟩
  | .hbm, ⟨33, _⟩ => ⟨S64x8x1, .f32⟩
  | .hbm, ⟨34, _⟩ => ⟨S64x8x4096, .f32⟩
  | .hbm, ⟨35, _⟩ => ⟨S64x8x4096, .f32⟩
  | .hbm, ⟨36, _⟩ => ⟨S64x8x4096, .f32⟩
  | .hbm, ⟨37, _⟩ => ⟨S_, .f32⟩
  | .hbm, ⟨38, _⟩ => ⟨S64x8, .f32⟩
  | .hbm, ⟨39, _⟩ => ⟨S64x8x1, .f32⟩
  | .hbm, ⟨40, _⟩ => ⟨S64x8x4096, .f32⟩
  | .hbm, ⟨41, _⟩ => ⟨S64x8x4096, .f32⟩
  | .hbm, ⟨42, _⟩ => ⟨S64x8x256, .f32⟩
  | .hbm, ⟨43, _⟩ => ⟨S64x8x512, .f32⟩
  | .hbm, ⟨44, _⟩ => ⟨S_, .f32⟩
  | .hbm, ⟨45, _⟩ => ⟨S64x8, .f32⟩
  | .hbm, ⟨46, _⟩ => ⟨S64x8x1, .f32⟩
  | .hbm, ⟨47, _⟩ => ⟨S_, .f32⟩
  | .hbm, ⟨48, _⟩ => ⟨S64x8x1, .f32⟩
  | .hbm, ⟨49, _⟩ => ⟨S64x8x1, .f32⟩
  | .hbm, ⟨50, _⟩ => ⟨S_, .i32⟩
  | .hbm, ⟨51, _⟩ => ⟨S_, .f32⟩
  | .hbm, ⟨52, _⟩ => ⟨S64x8, .f32⟩
  | .hbm, ⟨53, _⟩ => ⟨S64x8x1, .f32⟩
  | .hbm, ⟨54, _⟩ => ⟨S_, .f32⟩
  | .hbm, ⟨55, _⟩ => ⟨S64x8x1, .f32⟩
  | .hbm, ⟨56, _⟩ => ⟨S64x8x1, .f32⟩
  | .hbm, ⟨57, _⟩ => ⟨S64x8x512, .f32⟩
  | .hbm, ⟨58, _⟩ => ⟨S64x8x512, .f32⟩
  | .hbm, ⟨59, _⟩ => ⟨S64x8x512, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S64x8, .f32⟩
  | .hbm, ⟨65, _⟩ => ⟨S64x8x1, .f32⟩
  | .hbm, ⟨66, _⟩ => ⟨S64x8x1, .f32⟩
  | .hbm, ⟨67, _⟩ => ⟨S64x8x1, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S64x8x1, .f32⟩
  | .hbm, ⟨73, _⟩ => ⟨S64x8x1, .f32⟩
  | .hbm, ⟨74, _⟩ => ⟨S64x8x512, .f32⟩
  | .hbm, ⟨75, _⟩ => ⟨S64x8x512, .f32⟩
  | .hbm, ⟨76, _⟩ => ⟨S1x1x512, .f32⟩
  | .hbm, ⟨77, _⟩ => ⟨S64x8x512, .f32⟩
  | .hbm, ⟨78, _⟩ => ⟨S64x8x512, .f32⟩
  | .hbm, ⟨79, _⟩ => ⟨S_, .f32⟩
  | .hbm, ⟨80, _⟩ => ⟨S64x8x1, .f32⟩
  | .hbm, ⟨81, _⟩ => ⟨S64x8x1, .f32⟩
  | .hbm, ⟨82, _⟩ => ⟨S64x8x1, .f32⟩
  | .hbm, ⟨83, _⟩ => ⟨S64x8x512, .f32⟩
  | .hbm, ⟨84, _⟩ => ⟨S64x8x512, .f32⟩
  | .hbm, ⟨85, _⟩ => ⟨S1x1x512, .f32⟩
  | .hbm, ⟨86, _⟩ => ⟨S64x8x512, .f32⟩
  | .hbm, ⟨87, _⟩ => ⟨S64x8x512, .f32⟩
  | .hbm, ⟨88, _⟩ => ⟨S64x8x512, .f32⟩
  | .hbm, ⟨89, _⟩ => ⟨S1x1x512, .f32⟩
  | .hbm, ⟨90, _⟩ => ⟨S64x8x512, .f32⟩
  | .hbm, ⟨91, _⟩ => ⟨S64x8x512, .f32⟩
  | .hbm, ⟨92, _⟩ => ⟨S64x8x512, .f32⟩
  | .hbm, ⟨93, _⟩ => ⟨S64x8x512, .f32⟩
  | .hbm, ⟨94, _⟩ => ⟨S_, .f32⟩
  | .hbm, ⟨95, _⟩ => ⟨S64x8x512, .f32⟩
  | .hbm, ⟨96, _⟩ => ⟨S64x8x512, .f32⟩
  | .hbm, ⟨97, _⟩ => ⟨S_, .f32⟩
  | .hbm, ⟨98, _⟩ => ⟨S64x8x512, .f32⟩
  | .hbm, ⟨99, _⟩ => ⟨S64x8x512, .f32⟩
  | .hbm, ⟨100, _⟩ => ⟨S64x8x512, .f32⟩
  | .hbm, ⟨101, _⟩ => ⟨S64x8x1, .f32⟩
  | .hbm, ⟨102, _⟩ => ⟨S1x1x1, .f32⟩
  | .hbm, ⟨103, _⟩ => ⟨S64x8x1, .f32⟩
  | .hbm, ⟨104, _⟩ => ⟨S64x8x1, .f32⟩
  | .hbm, ⟨105, _⟩ => ⟨S64x8x1, .f32⟩
  | .hbm, ⟨106, _⟩ => ⟨S64x8x1, .f32⟩
  | .hbm, ⟨107, _⟩ => ⟨S_, .f32⟩
  | .hbm, ⟨108, _⟩ => ⟨S64x8x1, .f32⟩
  | .hbm, ⟨109, _⟩ => ⟨S64x8x1, .f32⟩
  | .hbm, ⟨110, _⟩ => ⟨S_, .f32⟩
  | .hbm, ⟨111, _⟩ => ⟨S64x8x1, .f32⟩
  | .hbm, ⟨112, _⟩ => ⟨S64x8x1, .f32⟩
  | .hbm, ⟨113, _⟩ => ⟨S_, .f32⟩
  | .hbm, ⟨114, _⟩ => ⟨S64x8x1, .f32⟩
  | .hbm, ⟨115, _⟩ => ⟨S64x8x1, .i1⟩
  | .hbm, ⟨116, _⟩ => ⟨S64x8x1, .f32⟩
  | .hbm, ⟨117, _⟩ => ⟨S64x8x1024, .f32⟩
  | .hbm, ⟨118, _⟩ => ⟨S1x1x1024, .f32⟩
  | .hbm, ⟨119, _⟩ => ⟨S64x8x1024, .f32⟩
  | .hbm, ⟨120, _⟩ => ⟨S64x8x1024, .f32⟩
  | .hbm, ⟨121, _⟩ => ⟨S64x8x1024, .f32⟩
  | .hbm, ⟨122, _⟩ => ⟨S64x8x1024, .f32⟩
  | .hbm, ⟨123, _⟩ => ⟨S64x8x1024, .f32⟩
  | _, _ => ⟨S64x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v7 : Ref sig .tc := ⟨.hbm, 27, rfl⟩
abbrev main_cst_2 : Ref sig .tc := ⟨.hbm, 28, rfl⟩
abbrev main_v8 : Ref sig .tc := ⟨.hbm, 29, rfl⟩
abbrev main_cst_3 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_5 : Ref sig .tc := ⟨.hbm, 44, rfl⟩
abbrev main_v21 : Ref sig .tc := ⟨.hbm, 45, rfl⟩
abbrev main_v22 : Ref sig .tc := ⟨.hbm, 46, rfl⟩
abbrev main_cst_6 : Ref sig .tc := ⟨.hbm, 47, rfl⟩
abbrev main_v23 : Ref sig .tc := ⟨.hbm, 48, rfl⟩
abbrev main_v24 : Ref sig .tc := ⟨.hbm, 49, rfl⟩
abbrev main_c : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_cst_1 : Ref sig .tc := ⟨.hbm, 61, rfl⟩
abbrev main_call1_v8 : Ref sig .tc := ⟨.hbm, 62, rfl⟩
abbrev main_call1_cst_2 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_cst_3 : Ref sig .tc := ⟨.hbm, 68, rfl⟩
abbrev main_call1_v13 : Ref sig .tc := ⟨.hbm, 69, rfl⟩
abbrev main_call1_cst_4 : Ref sig .tc := ⟨.hbm, 70, rfl⟩
abbrev main_call1_call0_v0 : Ref sig .tc := ⟨.hbm, 71, rfl⟩
abbrev main_call1_call0_v1 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_cst_7 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_cst_8 : Ref sig .tc := ⟨.hbm, 94, rfl⟩
abbrev main_v45 : Ref sig .tc := ⟨.hbm, 95, rfl⟩
abbrev main_v46 : Ref sig .tc := ⟨.hbm, 96, rfl⟩
abbrev main_cst_9 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_cst_10 : Ref sig .tc := ⟨.hbm, 107, rfl⟩
abbrev main_v56 : Ref sig .tc := ⟨.hbm, 108, rfl⟩
abbrev main_v57 : Ref sig .tc := ⟨.hbm, 109, rfl⟩
abbrev main_cst_11 : Ref sig .tc := ⟨.hbm, 110, rfl⟩
abbrev main_v58 : Ref sig .tc := ⟨.hbm, 111, rfl⟩
abbrev main_v59 : Ref sig .tc := ⟨.hbm, 112, rfl⟩
abbrev main_cst_12 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S64x8x256_0_1_2 : S1x1x256.BroadcastsInDim S64x8x256 (![0, 1, 2] : Fin 3 → Fin S64x8x256.rank)
  bcast_S_S64x8x4096 : S_.BroadcastsInDim S64x8x4096 (![] : Fin 0 → Fin S64x8x4096.rank)
  reducesTo_S64x8x4096_S64x8_d2 : S64x8x4096.ReducesTo [2] S64x8
  h_S_ : 0 < S_.numel
  bcast_S_S64x8 : S_.BroadcastsInDim S64x8 (![] : Fin 0 → Fin S64x8.rank)
  bcast_S64x8_S64x8x1_0_1 : S64x8.BroadcastsInDim S64x8x1 (![0, 1] : Fin 2 → Fin S64x8x1.rank)
  bcast_S64x8x1_S64x8x4096_0_1_2 : S64x8x1.BroadcastsInDim S64x8x4096 (![0, 1, 2] : Fin 3 → Fin S64x8x4096.rank)
  concatenates_S64x8x256_S64x8x256_S64x8x512_d2 : Shape.Concatenates [S64x8x256, S64x8x256] S64x8x512 2
  reducesTo_S64x8x512_S64x8_d2 : S64x8x512.ReducesTo [2] S64x8
  bcast_S_S64x8x1 : S_.BroadcastsInDim S64x8x1 (![] : Fin 0 → Fin S64x8x1.rank)
  bcast_S64x8x1_S64x8x512_0_1_2 : S64x8x1.BroadcastsInDim S64x8x512 (![0, 1, 2] : Fin 3 → Fin S64x8x512.rank)
  bcast_S512_S1x1x512_2 : S512.BroadcastsInDim S1x1x512 (![2] : Fin 1 → Fin S1x1x512.rank)
  bcast_S1x1x512_S64x8x512_0_1_2 : S1x1x512.BroadcastsInDim S64x8x512 (![0, 1, 2] : Fin 3 → Fin S64x8x512.rank)
  bcast_S_S64x8x512 : S_.BroadcastsInDim S64x8x512 (![] : Fin 0 → Fin S64x8x512.rank)
  bcast_S1_S1x1x1_2 : S1.BroadcastsInDim S1x1x1 (![2] : Fin 1 → Fin S1x1x1.rank)
  bcast_S1x1x1_S64x8x1_0_1_2 : S1x1x1.BroadcastsInDim S64x8x1 (![0, 1, 2] : Fin 3 → Fin S64x8x1.rank)
  bcast_S1024_S1x1x1024_2 : S1024.BroadcastsInDim S1x1x1024 (![2] : Fin 1 → Fin S1x1x1024.rank)
  bcast_S1x1x1024_S64x8x1024_0_1_2 : S1x1x1024.BroadcastsInDim S64x8x1024 (![0, 1, 2] : Fin 3 → Fin S64x8x1024.rank)
  bcast_S64x8x1_S64x8x1024_0_1_2 : S64x8x1.BroadcastsInDim S64x8x1024 (![0, 1, 2] : Fin 3 → Fin S64x8x1024.rank)
  dot_S64x8x1024_S1024x256_S64x8x256_2_0_01_1_n_n_wf : DotDims.WF S64x8x1024 S1024x256 S64x8x256 [2] [0] [0, 1] [1] [] []
  dot_S64x8x256_S64x4096x256_S64x8x4096_2_2_1_1_0_0_wf : DotDims.WF S64x8x256 S64x4096x256 S64x8x4096 [2] [2] [1] [1] [0] [0]
  dot_S64x8x4096_S64x4096x256_S64x8x256_2_1_1_2_0_0_wf : DotDims.WF S64x8x4096 S64x4096x256 S64x8x256 [2] [1] [1] [2] [0] [0]
  dot_S64x8x512_S512x512_S64x8x512_2_0_01_1_n_n_wf : DotDims.WF S64x8x512 S512x512 S64x8x512 [2] [0] [0, 1] [1] [] []
  dot_S64x8x512_S512x1_S64x8x1_2_0_01_1_n_n_wf : DotDims.WF S64x8x512 S512x1 S64x8x1 [2] [0] [0, 1] [1] [] []
  dot_S64x8x256_S256x1024_S64x8x1024_2_0_01_1_n_n_wf : DotDims.WF S64x8x256 S256x1024 S64x8x1024 [2] [0] [0, 1] [1] [] []

variable [Facts₀]

def dot_S64x8x1024_S1024x256_S64x8x256_2_0_01_1_n_n : DotDims S64x8x1024 S1024x256 S64x8x256 where
  lhsContracting := [2]
  rhsContracting := [0]
  lhsNonContracting := [0, 1]
  rhsNonContracting := [1]
  lhsBatch := []
  rhsBatch := []
  wf := dot_S64x8x1024_S1024x256_S64x8x256_2_0_01_1_n_n_wf
def dot_S64x8x256_S64x4096x256_S64x8x4096_2_2_1_1_0_0 : DotDims S64x8x256 S64x4096x256 S64x8x4096 where
  lhsContracting := [2]
  rhsContracting := [2]
  lhsNonContracting := [1]
  rhsNonContracting := [1]
  lhsBatch := [0]
  rhsBatch := [0]
  wf := dot_S64x8x256_S64x4096x256_S64x8x4096_2_2_1_1_0_0_wf
def dot_S64x8x4096_S64x4096x256_S64x8x256_2_1_1_2_0_0 : DotDims S64x8x4096 S64x4096x256 S64x8x256 where
  lhsContracting := [2]
  rhsContracting := [1]
  lhsNonContracting := [1]
  rhsNonContracting := [2]
  lhsBatch := [0]
  rhsBatch := [0]
  wf := dot_S64x8x4096_S64x4096x256_S64x8x256_2_1_1_2_0_0_wf
def dot_S64x8x512_S512x512_S64x8x512_2_0_01_1_n_n : DotDims S64x8x512 S512x512 S64x8x512 where
  lhsContracting := [2]
  rhsContracting := [0]
  lhsNonContracting := [0, 1]
  rhsNonContracting := [1]
  lhsBatch := []
  rhsBatch := []
  wf := dot_S64x8x512_S512x512_S64x8x512_2_0_01_1_n_n_wf
def dot_S64x8x512_S512x1_S64x8x1_2_0_01_1_n_n : DotDims S64x8x512 S512x1 S64x8x1 where
  lhsContracting := [2]
  rhsContracting := [0]
  lhsNonContracting := [0, 1]
  rhsNonContracting := [1]
  lhsBatch := []
  rhsBatch := []
  wf := dot_S64x8x512_S512x1_S64x8x1_2_0_01_1_n_n_wf
def dot_S64x8x256_S256x1024_S64x8x1024_2_0_01_1_n_n : DotDims S64x8x256 S256x1024 S64x8x1024 where
  lhsContracting := [2]
  rhsContracting := [0]
  lhsNonContracting := [0, 1]
  rhsNonContracting := [1]
  lhsBatch := []
  rhsBatch := []
  wf := dot_S64x8x256_S256x1024_S64x8x1024_2_0_01_1_n_n_wf

class Facts : Prop extends Facts₀ where

variable [Facts]
-- ==== Proof.Spec.lean ====
/-
  The mathematics of one token row, over the extended reals, in the two arrangements the two programs compute it in.

  A row `x` of the input is projected to the cache width, `q = x · W_to + b_to`. Against the cache slice `C` of its
  batch the scores `q · C m` are scaled by 1/16 and clipped to [-20, 20]; the attention context is the
  exp-weighted mean of the cache rows. One arrangement takes `(∑ e^{a m} · C m) / ∑ e^{a m}` (the weights normalised
  after the product); the other subtracts the row maximum first and normalises each weight before the product
  (a softmax). They agree wherever the cache entries are real numbers, because the clipped exponents are bounded.

  The row `[q | ctx]` is layer-normalised, passed through a linear layer and x·σ(x), and reduced to one logit `l`;
  the row of the result is `x + [l > 0] · (ctx · W_from + b_from)`, where the second arrangement tests
  `σ(l) > 1/2` instead, the same condition on every extended real.
-/
import Idealize.ShloMosaic.PureOps.Ideal
import Idealize.ShloMosaic.Lib.ValueIdx

noncomputable section

open scoped BigOperators

namespace Cert.Spec

open Idealize.ShloMosaic Idealize.ShloMosaic.ValueIdx

/-- The extended real an f32 word denotes. -/
abbrev lit (w : BitVec 32) : EReal := Ideal.ofBits .f32 w

/-! ## The projection and the attention row -/

/-- `q j = (∑ d, x d · W_to d j) + b_to j`. -/
def proj (x : Fin 1024 → EReal) (Wt : Fin 1024 → Fin 256 → EReal) (bt : Fin 256 → EReal) (j : Fin 256) : EReal :=
  (∑ d : Fin 1024, x d * Wt d j) + bt j

/-- The score of cache row `m`: `∑ c, q c · C m c`. -/
def score (q : Fin 256 → EReal) (C : Fin 4096 → Fin 256 → EReal) (m : Fin 4096) : EReal :=
  ∑ c : Fin 256, q c * C m c

/-- Clipping to [-20, 20] (the two words are -20.0 and 20.0). -/
def clip (z : EReal) : EReal := min (lit 0x41A00000#32) (max (lit 0xC1A00000#32) z)

/-- The clipped exponent, the score TIMES the word 0.0625. -/
def expoK (q : Fin 256 → EReal) (C : Fin 4096 → Fin 256 → EReal) (m : Fin 4096) : EReal :=
  clip (score q C m * lit 0x3D800000#32)

/-- The clipped exponent, the score DIVIDED BY the word 16.0. -/
def expoR (q : Fin 256 → EReal) (C : Fin 4096 → Fin 256 → EReal) (m : Fin 4096) : EReal :=
  clip (Ideal.div (score q C m) (lit 0x41800000#32))

/-- The context, weights normalised after the product. -/
def attnK (q : Fin 256 → EReal) (C : Fin 4096 → Fin 256 → EReal) (j : Fin 256) : EReal :=
  Ideal.div (∑ m : Fin 4096, Ideal.exp (expoK q C m) * C m j) (∑ m : Fin 4096, Ideal.exp (expoK q C m))

/-- The row maximum as a fold from -∞ (the word 0xFF800000), once more against -∞. -/
def rowMax (a : Fin 4096 → EReal) : EReal :=
  max (lit 0xFF800000#32) ((Finset.univ : Finset (Fin 4096)).fold max (lit 0xFF800000#32) a)

/-- The context as a softmax: each weight `e^{a m - M} / ∑ e^{a k - M}` normalised before the product. -/
def attnR (q : Fin 256 → EReal) (C : Fin 4096 → Fin 256 → EReal) (j : Fin 256) : EReal :=
  ∑ m : Fin 4096,
    Ideal.div (Ideal.exp (expoR q C m - rowMax (expoR q C)))
      (∑ k : Fin 4096, Ideal.exp (expoR q C k - rowMax (expoR q C))) * C m j

/-! ## The gate and the fused row -/

/-- The row `[q | ctx]`. -/
def comb (q ctx : Fin 256 → EReal) (k : Fin 512) : EReal :=
  if h : k.val < 256 then q ⟨k.val, h⟩ else ctx ⟨k.val - 256, by omega⟩

/-- The mean of a 512-row (the word is 512.0). -/
def mean (v : Fin 512 → EReal) : EReal := Ideal.div (∑ k : Fin 512, v k) (lit 0x44000000#32)

/-- The centred row. -/
def cen (v : Fin 512 → EReal) (k : Fin 512) : EReal := v k - mean v

/-- The variance, the sum of squares over the word 512.0. -/
def varK (v : Fin 512 → EReal) : EReal := Ideal.div (∑ k : Fin 512, cen v k * cen v k) (lit 0x44000000#32)

/-- The variance as the library routine spells it: the divisor `512 - ddof` with `ddof` the integer 0 converted,
    and the quotient kept only where that divisor is positive (else the NaN word). -/
def varR (v : Fin 512 → EReal) : EReal :=
  if Ideal.cmp .ogt (lit 0x44000000#32 - (((0#32 : BitVec 32).toInt : ℝ) : EReal)) (lit 0x00000000#32) = 1#1
  then Ideal.div (∑ k : Fin 512, cen v k * cen v k) (lit 0x44000000#32 - (((0#32 : BitVec 32).toInt : ℝ) : EReal))
  else lit 0x7FC00000#32

/-- Layer normalisation with scale `g`, shift `bl` and the epsilon word. -/
def lnorm (varF : (Fin 512 → EReal) → EReal) (g bl : Fin 512 → EReal) (v : Fin 512 → EReal) (k : Fin 512) : EReal :=
  Ideal.div (g k * cen v k) (Ideal.sqrt (varF v + lit 0x3727C5AC#32)) + bl k

/-- The hidden layer before its nonlinearity. -/
def hid (W1 : Fin 512 → Fin 512 → EReal) (b1 : Fin 512 → EReal) (u : Fin 512 → EReal) (n : Fin 512) : EReal :=
  (∑ k : Fin 512, u k * W1 k n) + b1 n

/-- `z · σ(z)` with σ the one operation. -/
def siluK (z : EReal) : EReal := z * Ideal.logistic z

/-- `z · (1 / (1 + e^{-z}))` spelt out over the word 1.0. -/
def siluR (z : EReal) : EReal := z * Ideal.div (lit 0x3F800000#32) (lit 0x3F800000#32 + Ideal.exp (-z))

/-- The gate logit. -/
def logit (W2 : Fin 512 → EReal) (b2 : EReal) (hs : Fin 512 → EReal) : EReal := (∑ n : Fin 512, hs n * W2 n) + b2

/-- The hard gate on the logit's sign (against the zero word). -/
def gateK (l : EReal) : EReal := if lit 0x00000000#32 < l then 1 else 0

/-- The hard gate on `σ(l) > 1/2`, σ spelt out over the words 1.0 and 0.5. -/
def gateR (l : EReal) : EReal :=
  if lit 0x3F000000#32 < Ideal.div (lit 0x3F800000#32) (lit 0x3F800000#32 + Ideal.exp (-l)) then 1 else 0

/-- One row of the result from the input row `x`, its projection `q` and its context `ctx`. -/
def outRow (varF : (Fin 512 → EReal) → EReal) (siluF gateF : EReal → EReal)
    (x : Fin 1024 → EReal) (q ctx : Fin 256 → EReal) (g bl : Fin 512 → EReal)
    (W1 : Fin 512 → Fin 512 → EReal) (b1 : Fin 512 → EReal) (W2 : Fin 512 → EReal) (b2 : EReal)
    (Wf : Fin 256 → Fin 1024 → EReal) (bf : Fin 1024 → EReal) (d : Fin 1024) : EReal :=
  x d + gateF (logit W2 b2 fun n => siluF (hid W1 b1 (lnorm varF g bl (comb q ctx)) n))
        * ((∑ j : Fin 256, ctx j * Wf j d) + bf d)

/-! ## The twelve arguments by coordinates, and the two whole results -/

/-- The argument arrays read by coordinates. -/
structure Args where
  X : Fin 64 → Fin 8 → Fin 1024 → EReal
  C : Fin 64 → Fin 4096 → Fin 256 → EReal
  Wt : Fin 1024 → Fin 256 → EReal
  bt : Fin 256 → EReal
  g : Fin 512 → EReal
  bl : Fin 512 → EReal
  W1 : Fin 512 → Fin 512 → EReal
  b1 : Fin 512 → EReal
  W2 : Fin 512 → EReal
  b2 : EReal
  Wf : Fin 256 → Fin 1024 → EReal
  bf : Fin 1024 → EReal

/-- The arguments of either program, as arrays, read by coordinates. -/
def argsOf (a0 : (⟨3, ![64, 8, 1024]⟩ : Shape).Idx → EReal) (a1 : (⟨3, ![64, 4096, 256]⟩ : Shape).Idx → EReal)
    (a2 : (⟨2, ![1024, 256]⟩ : Shape).Idx → EReal) (a3 : (⟨1, ![256]⟩ : Shape).Idx → EReal)
    (a4 a5 : (⟨1, ![512]⟩ : Shape).Idx → EReal) (a6 : (⟨2, ![512, 512]⟩ : Shape).Idx → EReal)
    (a7 : (⟨1, ![512]⟩ : Shape).Idx → EReal) (a8 : (⟨2, ![512, 1]⟩ : Shape).Idx → EReal)
    (a9 : (⟨1, ![1]⟩ : Shape).Idx → EReal) (a10 : (⟨2, ![256, 1024]⟩ : Shape).Idx → EReal)
    (a11 : (⟨1, ![1024]⟩ : Shape).Idx → EReal) : Args where
  X b s d := a0 (ix3 b s d)
  C b m c := a1 (ix3 b m c)
  Wt d j := a2 (ix2 d j)
  bt j := a3 (ix1 j)
  g k := a4 (ix1 k)
  bl k := a5 (ix1 k)
  W1 k n := a6 (ix2 k n)
  b1 n := a7 (ix1 n)
  W2 n := a8 (ix2 n (0 : Fin 1))
  b2 := a9 (ix1 (0 : Fin 1))
  Wf j d := a10 (ix2 j d)
  bf d := a11 (ix1 d)

/-- The result, first arrangement. -/
def outK (A : Args) (b : Fin 64) (s : Fin 8) (d : Fin 1024) : EReal :=
  outRow varK siluK gateK (A.X b s) (proj (A.X b s) A.Wt A.bt) (attnK (proj (A.X b s) A.Wt A.bt) (A.C b))
    A.g A.bl A.W1 A.b1 A.W2 A.b2 A.Wf A.bf d

/-- The result, second arrangement. -/
def outR (A : Args) (b : Fin 64) (s : Fin 8) (d : Fin 1024) : EReal :=
  outRow varR siluR gateR (A.X b s) (proj (A.X b s) A.Wt A.bt) (attnR (proj (A.X b s) A.Wt A.bt) (A.C b))
    A.g A.bl A.W1 A.b1 A.W2 A.b2 A.Wf A.bf d

end Cert.Spec

end
-- ==== Proof.SpecLaws.lean ====
import proofs.«164254_g8143257993987_cont_9to1c4b_560_10_alg».proof.Proof.Spec
import Mathlib.Data.EReal.Basic
import Mathlib.Data.EReal.Operations
import Mathlib.Data.EReal.Inv
import Mathlib.Data.Finset.Fold
import Mathlib.Analysis.SpecialFunctions.Exp
import Mathlib.Algebra.BigOperators.Field

noncomputable section

open scoped BigOperators

namespace Cert.Spec

open Idealize.ShloMosaic

/-! ## The words as extended reals -/

/-- The word of all zero bits denotes 0. -/
private theorem lit_zero : lit 0x00000000#32 = 0 := by
  simp [lit, Ideal.ofBits, Ideal.ieee]

/-- The word 0x3F800000 denotes 1. -/
private theorem lit_one : lit 0x3F800000#32 = 1 := by
  simp [lit, Ideal.ofBits, Ideal.ieee, -EReal.coe_mul]; norm_num

/-- The word 0x3F000000 denotes 1/2. -/
private theorem lit_half : lit 0x3F000000#32 = ((1 / 2 : ℝ) : EReal) := by
  simp [lit, Ideal.ofBits, Ideal.ieee, -EReal.coe_mul]; norm_num

/-- The word 0x44000000 denotes 512. -/
private theorem lit_512 : lit 0x44000000#32 = ((512 : ℝ) : EReal) := by
  simp [lit, Ideal.ofBits, Ideal.ieee, -EReal.coe_mul]; norm_num

/-- The word 0x41800000 denotes 16. -/
private theorem lit_16 : lit 0x41800000#32 = ((16 : ℝ) : EReal) := by
  simp [lit, Ideal.ofBits, Ideal.ieee, -EReal.coe_mul]; norm_num

/-- The word 0x3D800000 denotes 1/16. -/
private theorem lit_sixteenth : lit 0x3D800000#32 = ((1 / 16 : ℝ) : EReal) := by
  simp [lit, Ideal.ofBits, Ideal.ieee, -EReal.coe_mul]; norm_num

/-- The word 0x41A00000 denotes 20. -/
private theorem lit_20 : lit 0x41A00000#32 = ((20 : ℝ) : EReal) := by
  simp [lit, Ideal.ofBits, Ideal.ieee, -EReal.coe_mul]; norm_num

/-- The word 0xC1A00000 denotes -20. -/
private theorem lit_neg20 : lit 0xC1A00000#32 = ((-20 : ℝ) : EReal) := by
  simp [lit, Ideal.ofBits, Ideal.ieee, -EReal.coe_mul]; norm_num

/-- The word 0xFF800000 denotes -∞. -/
private theorem lit_bot : lit 0xFF800000#32 = ⊥ := by
  simp [lit, Ideal.ofBits, Ideal.ieee]

/-! ## The small laws -/

/-- The variance's `ddof` guard is taken and its divisor is 512. -/
theorem varK_eq_varR : varK = varR := by
  funext v
  have h0 : (((0#32 : BitVec 32).toInt : ℝ) : EReal) = 0 := by simp
  have hc : Ideal.cmp .ogt (lit 0x44000000#32 - 0) (lit 0x00000000#32) = 1#1 := by
    rw [sub_zero, lit_512, lit_zero]
    have : (0 : EReal) < ((512 : ℝ) : EReal) := by exact_mod_cast (by norm_num : (0 : ℝ) < 512)
    simp [Ideal.cmp, this]
  unfold varK varR
  rw [h0, if_pos hc, sub_zero]

/-- σ spelt out over the word 1.0 is the one operation. -/
theorem siluK_eq_siluR : siluK = siluR := by
  funext z
  unfold siluK siluR
  rw [lit_one]
  rfl

/-- For a real `r`, `1/2 < 1 / (1 + e^{-r})` exactly when `0 < r`. -/
private theorem half_lt_inv_iff (r : ℝ) : (1 / 2 : ℝ) < (1 + Real.exp (-r))⁻¹ ↔ 0 < r := by
  have hpos : (0 : ℝ) < 1 + Real.exp (-r) := by positivity
  rw [one_div, inv_lt_inv₀ (by norm_num) hpos]
  constructor
  · intro h
    have h1 : Real.exp (-r) < 1 := by linarith
    have := Real.exp_lt_one_iff.mp h1
    linarith
  · intro h
    have h1 : Real.exp (-r) < 1 := Real.exp_lt_one_iff.mpr (by linarith)
    linarith

/-- On every extended real `l > 0` exactly when `1 / (1 + e^{-l}) > 1/2`. -/
theorem gateK_eq_gateR : gateK = gateR := by
  funext l
  unfold gateK gateR
  rw [lit_zero, lit_one, lit_half]
  change (if (0 : EReal) < l then (1 : EReal) else 0) = if ((1 / 2 : ℝ) : EReal) < Ideal.logistic l then 1 else 0
  induction l using EReal.rec with
  | bot =>
    rw [Ideal.logistic_bot]
    have h1 : ¬ ((0 : EReal) < ⊥) := not_lt_bot
    have h2 : ¬ (((1 / 2 : ℝ) : EReal) < 0) := by
      have : ¬ ((1 / 2 : ℝ) < 0) := by norm_num
      exact_mod_cast this
    rw [if_neg h1, if_neg h2]
  | coe r =>
    rw [Ideal.logistic_coe]
    have e1 : ((0 : EReal) < (r : EReal)) ↔ 0 < r := by exact_mod_cast Iff.rfl
    have e2 : (((1 / 2 : ℝ) : EReal) < (((1 + Real.exp (-r))⁻¹ : ℝ) : EReal)) ↔ (1 / 2 : ℝ) < (1 + Real.exp (-r))⁻¹ :=
      EReal.coe_lt_coe_iff
    by_cases h : 0 < r
    · rw [if_pos (e1.mpr h), if_pos (e2.mpr ((half_lt_inv_iff r).mpr h))]
    · rw [if_neg (fun hh => h (e1.mp hh)), if_neg (fun hh => h ((half_lt_inv_iff r).mp (e2.mp hh)))]
  | top =>
    rw [Ideal.logistic_top]
    have h1 : (0 : EReal) < ⊤ := EReal.zero_lt_top
    have h2 : ((1 / 2 : ℝ) : EReal) < 1 := by
      have : (1 / 2 : ℝ) < 1 := by norm_num
      exact_mod_cast this
    rw [if_pos h1, if_pos h2]

/-- Times 1/16 is over 16 on every extended real. -/
theorem expoK_eq_expoR (q : Fin 256 → EReal) (C : Fin 4096 → Fin 256 → EReal) : expoK q C = expoR q C := by
  funext m
  unfold expoK expoR
  rw [lit_sixteenth, lit_16, Ideal.div_coe (by norm_num : (16 : ℝ) ≠ 0)]

/-! ## The attention row -/

/-- A clipped value lies between -20 and 20. -/
private theorem clip_bounds (z : EReal) : ((-20 : ℝ) : EReal) ≤ clip z ∧ clip z ≤ ((20 : ℝ) : EReal) := by
  unfold clip
  rw [lit_20, lit_neg20]
  refine ⟨le_min ?_ (le_max_left _ _), min_le_left _ _⟩
  exact_mod_cast (by norm_num : (-20 : ℝ) ≤ 20)

/-- An extended real between two reals is a real. -/
private theorem exists_real_of_bounds {x : EReal} {lo hi : ℝ} (h1 : (lo : EReal) ≤ x) (h2 : x ≤ (hi : EReal)) :
    ∃ r : ℝ, x = (r : EReal) := by
  have hb : x ≠ ⊥ := fun h => by rw [h] at h1; exact absurd h1 (not_le.mpr (EReal.bot_lt_coe lo))
  have ht : x ≠ ⊤ := fun h => by rw [h] at h2; exact absurd h2 (not_le.mpr (EReal.coe_lt_top hi))
  exact ⟨x.toReal, (EReal.coe_toReal ht hb).symm⟩

/-- The row maximum of values between -20 and 20 lies between -20 and 20. -/
private theorem rowMax_bounds (a : Fin 4096 → EReal)
    (ha : ∀ m, ((-20 : ℝ) : EReal) ≤ a m ∧ a m ≤ ((20 : ℝ) : EReal)) :
    ((-20 : ℝ) : EReal) ≤ rowMax a ∧ rowMax a ≤ ((20 : ℝ) : EReal) := by
  unfold rowMax
  rw [lit_bot, max_eq_right bot_le]
  constructor
  · exact (Finset.le_fold_max _).mpr (Or.inr ⟨0, Finset.mem_univ _, (ha 0).1⟩)
  · exact (Finset.fold_max_le _).mpr ⟨bot_le, fun m _ => (ha m).2⟩

/-- The coercion of a finite sum of reals is the sum of the coercions. -/
private theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The quotient of two reals with nonzero divisor is the real quotient. -/
private theorem div_coe_coe (x : ℝ) {y : ℝ} (hy : y ≠ 0) :
    Ideal.div (x : EReal) (y : EReal) = ((x / y : ℝ) : EReal) := by
  rw [Ideal.div_coe hy, ← EReal.coe_mul, mul_one_div]

/-- In the reals the softmax form of the weighted mean is the plain quotient: the common factor `e^{-μ}` cancels. -/
private theorem real_softmax (α : Fin 4096 → ℝ) (μ : ℝ) (γ : Fin 4096 → ℝ) :
    (∑ m, Real.exp (α m) * γ m) / (∑ m, Real.exp (α m))
      = ∑ m, Real.exp (α m - μ) / (∑ k, Real.exp (α k - μ)) * γ m := by
  have he : Real.exp (-μ) ≠ 0 := (Real.exp_pos _).ne'
  have hk : ∀ k, Real.exp (α k - μ) = Real.exp (α k) * Real.exp (-μ) := fun k => by
    rw [sub_eq_add_neg, Real.exp_add]
  have hS : (∑ k, Real.exp (α k - μ)) = (∑ k, Real.exp (α k)) * Real.exp (-μ) := by
    rw [Finset.sum_mul]; exact Finset.sum_congr rfl fun k _ => hk k
  rw [hS, Finset.sum_div]
  refine Finset.sum_congr rfl fun m _ => ?_
  rw [hk m, mul_div_mul_right _ _ he, div_mul_eq_mul_div]

/-- The two arrangements of the attention row agree where the cache entries are real numbers. -/
theorem attnK_eq_attnR (q : Fin 256 → EReal) (C : Fin 4096 → Fin 256 → EReal)
    (hC : ∀ m c, ∃ r : ℝ, C m c = (r : EReal)) : attnK q C = attnR q C := by
  funext j
  unfold attnK attnR
  rw [expoK_eq_expoR]
  have hab : ∀ m, ((-20 : ℝ) : EReal) ≤ expoR q C m ∧ expoR q C m ≤ ((20 : ℝ) : EReal) := fun m => by
    unfold expoR; exact clip_bounds _
  obtain ⟨α, hα⟩ : ∃ α : Fin 4096 → ℝ, ∀ m, expoR q C m = (α m : EReal) :=
    Classical.axiomOfChoice (fun m => exists_real_of_bounds (hab m).1 (hab m).2)
  obtain ⟨μ, hμ⟩ : ∃ μ : ℝ, rowMax (expoR q C) = (μ : EReal) :=
    exists_real_of_bounds (rowMax_bounds _ hab).1 (rowMax_bounds _ hab).2
  obtain ⟨γ, hγ⟩ : ∃ γ : Fin 4096 → ℝ, ∀ m, C m j = (γ m : EReal) :=
    Classical.axiomOfChoice (fun m => hC m j)
  rw [hμ]
  simp only [hα, hγ]
  have hpos : (0 : ℝ) < ∑ m : Fin 4096, Real.exp (α m) :=
    Finset.sum_pos (fun m _ => Real.exp_pos _) Finset.univ_nonempty
  have hpos' : (0 : ℝ) < ∑ k : Fin 4096, Real.exp (α k - μ) :=
    Finset.sum_pos (fun m _ => Real.exp_pos _) Finset.univ_nonempty
  have hnum : (∑ m : Fin 4096, Ideal.exp (α m : EReal) * (γ m : EReal))
      = ((∑ m : Fin 4096, Real.exp (α m) * γ m : ℝ) : EReal) := by
    rw [coe_sum]; exact Finset.sum_congr rfl fun m _ => by rw [Ideal.exp_coe, EReal.coe_mul]
  have hden : (∑ m : Fin 4096, Ideal.exp (α m : EReal)) = ((∑ m : Fin 4096, Real.exp (α m) : ℝ) : EReal) := by
    rw [coe_sum]; exact Finset.sum_congr rfl fun m _ => by rw [Ideal.exp_coe]
  have hden' : (∑ k : Fin 4096, Ideal.exp ((α k : EReal) - (μ : EReal)))
      = ((∑ k : Fin 4096, Real.exp (α k - μ) : ℝ) : EReal) := by
    rw [coe_sum]; exact Finset.sum_congr rfl fun k _ => by rw [← EReal.coe_sub, Ideal.exp_coe]
  rw [hnum, hden, hden', div_coe_coe _ hpos.ne', real_softmax α μ γ, coe_sum]
  refine Finset.sum_congr rfl fun m _ => ?_
  rw [← EReal.coe_sub, Ideal.exp_coe, div_coe_coe _ hpos'.ne', EReal.coe_mul]

/-- The two arrangements of the whole result agree where the cache entries are real numbers. -/
theorem outK_eq_outR (A : Args) (hC : ∀ b m c, ∃ r : ℝ, A.C b m c = (r : EReal)) : outK A = outR A := by
  funext b s d
  unfold outK outR
  rw [varK_eq_varR, siluK_eq_siluR, gateK_eq_gateR, attnK_eq_attnR _ _ (hC b)]

end Cert.Spec

end
-- ==== Proof.KVal0.lean ====
import proofs.«164254_g8143257993987_cont_9to1c4b_560_10_alg».proof.Proof.Gen.KernelIdeal.Frame
import proofs.«164254_g8143257993987_cont_9to1c4b_560_10_alg».proof.Proof.Spec
import Idealize.ShloMosaic.Lib.Pipeline.Value
import Idealize.ShloMosaic.PureOps.Ideal.Laws

noncomputable section

open scoped BigOperators

namespace Cert.KernelIdeal.KVal

open Cert.KernelIdeal Cert.KernelIdeal.Gen Idealize.ShloMosaic Idealize.ShloMosaic.TcCoe Idealize.ShloMosaic.ValueIdx Idealize.SL.Sem

namespace KVal0Aux

/-- The origin of a rank-2 buffer is the zero offset. -/
theorem origin2 : (![0, 0] : Fin 2 → Nat) = fun _ => 0 := funext fun a => by fin_cases a <;> rfl

/-- The left factor's row coordinate is the result's row. -/
theorem lhs_row (i : S512x256.Idx) (k : dot_S512x1024_S1024x256_S512x256_1_0_0_1_n_n.contr.Idx) :
    (dot_S512x1024_S1024x256_S512x256_1_0_0_1_n_n.lhsIdx i k 0).val = (i 0).val := by
  simp [DotDims.lhsIdx, dot_S512x1024_S1024x256_S512x256_1_0_0_1_n_n]; rfl

/-- The left factor's column coordinate is the summation coordinate. -/
theorem lhs_col (i : S512x256.Idx) (k : dot_S512x1024_S1024x256_S512x256_1_0_0_1_n_n.contr.Idx) :
    (dot_S512x1024_S1024x256_S512x256_1_0_0_1_n_n.lhsIdx i k 1).val = (k ⟨0, Nat.one_pos⟩).val :=
  dot_S512x1024_S1024x256_S512x256_1_0_0_1_n_n.lhsIdx_val_of_single rfl i k

/-- The right factor's row coordinate is the summation coordinate. -/
theorem rhs_row (i : S512x256.Idx) (k : dot_S512x1024_S1024x256_S512x256_1_0_0_1_n_n.contr.Idx) :
    (dot_S512x1024_S1024x256_S512x256_1_0_0_1_n_n.rhsIdx i k 0).val = (k ⟨0, Nat.one_pos⟩).val :=
  dot_S512x1024_S1024x256_S512x256_1_0_0_1_n_n.rhsIdx_val_of_single rfl i k

/-- The right factor's column coordinate is the result's column. -/
theorem rhs_col (i : S512x256.Idx) (k : dot_S512x1024_S1024x256_S512x256_1_0_0_1_n_n.contr.Idx) :
    (dot_S512x1024_S1024x256_S512x256_1_0_0_1_n_n.rhsIdx i k 1).val = (i 1).val := by
  simp [DotDims.rhsIdx, dot_S512x1024_S1024x256_S512x256_1_0_0_1_n_n]; rfl

/-- The product of a 512×1024 block and a 1024×256 block accumulated into zero, at row `r` and column `j`:
    the sum over the 1024 shared coordinates of the entries' products. -/
theorem product_apply (A : FVec Ideal S512x1024 .f32) (B : FVec Ideal S1024x256 .f32) (r : Fin 512) (j : Fin 256) :
    matmul dot_S512x1024_S1024x256_S512x256_1_0_0_1_n_n none A B (constant (F := Ideal) S512x256 .f32 0x00000000#32) (ix2 r j)
      = ∑ d : Fin 1024, A (ix2 r d) * B (ix2 d j) := by
  show FloatOps.matmul dot_S512x1024_S1024x256_S512x256_1_0_0_1_n_n none A B (constant (F := Ideal) S512x256 .f32 0x00000000#32) (ix2 r j) = _
  rw [Ideal.matmul_constant_zero_apply,
    ← Equiv.sum_comp (contrEquiv1 dot_S512x1024_S1024x256_S512x256_1_0_0_1_n_n 1024 rfl rfl).symm]
  refine Finset.sum_congr rfl fun d _ => ?_
  have hd := contrEquiv1_symm_val dot_S512x1024_S1024x256_S512x256_1_0_0_1_n_n 1024 rfl rfl d
  have hl : dot_S512x1024_S1024x256_S512x256_1_0_0_1_n_n.lhsIdx (ix2 r j)
      ((contrEquiv1 dot_S512x1024_S1024x256_S512x256_1_0_0_1_n_n 1024 rfl rfl).symm d) = ix2 r d := by
    funext a; apply Fin.ext
    match a with
    | ⟨0, _⟩ => exact lhs_row _ _
    | ⟨1, _⟩ => exact (lhs_col _ _).trans hd
  have hr : dot_S512x1024_S1024x256_S512x256_1_0_0_1_n_n.rhsIdx (ix2 r j)
      ((contrEquiv1 dot_S512x1024_S1024x256_S512x256_1_0_0_1_n_n 1024 rfl rfl).symm d) = ix2 d j := by
    funext a; apply Fin.ext
    match a with
    | ⟨0, _⟩ => exact (rhs_row _ _).trans hd
    | ⟨1, _⟩ => exact rhs_col _ _
  rw [hl, hr]

/-- A one-row block spread over 512 rows reads, at row `r` and column `j`, the row's entry `j`. -/
theorem spread_apply (b : FVec Ideal S1x256 .f32) (r : Fin 512) (j : Fin 256) :
    broadcastTo S512x256 b broadcasts_S1x256_S512x256 (ix2 r j) = b (ix2 (0 : Fin 1) j) := by
  refine broadcastTo_apply b _ (ix2 r j) (ix2 (0 : Fin 1) j) fun a => ?_
  match a with
  | ⟨0, _⟩ => rfl
  | ⟨1, _⟩ => rfl

/-- The stored value of the projection at row `r`, column `j`: the row's product with the weights plus the bias. -/
theorem pay_apply (x0 : Vec Ideal S512x1024 .f32) (x1 : Vec Ideal S1024x256 .f32) (x2 : Vec Ideal S1x256 .f32)
    (r : Fin 512) (j : Fin 256) :
    k0_pay1 (F := Ideal) x0 x1 x2 (ix2 r j)
      = Cert.Spec.proj (fun d => x0 (ix2 r d)) (fun d j' => x1 (ix2 d j')) (fun j' => x2 (ix2 (0 : Fin 1) j')) j := by
  unfold k0_pay1
  refine (addf_apply _ _ _).trans ?_
  rw [shapeCast_self, shapeCast_self]
  refine (congrArg₂ (· + ·) (product_apply x0 x1 r j) (spread_apply x2 r j)).trans ?_
  rfl

end KVal0Aux

/-- The projection kernel's output block at row `r`, column `j`. -/
theorem out0_3_apply (x0 : Vec Ideal S512x1024 .f32) (x1 : Vec Ideal S1024x256 .f32) (x2 : Vec Ideal S1x256 .f32)
    (r : Fin 512) (j : Fin 256) :
    out0_3 (F := Ideal) x0 x1 x2 (ix2 r j)
      = Cert.Spec.proj (fun d => x0 (ix2 r d)) (fun d j' => x1 (ix2 d j')) (fun j' => x2 (ix2 (0 : Fin 1) j')) j := by
  unfold out0_3
  rw [View.canon_unit_zero KVal0Aux.origin2]
  simp only [View.ld_unit_zero (S := S512x1024) KVal0Aux.origin2, View.ld_unit_zero (S := S1024x256) KVal0Aux.origin2,
    View.ld_unit_zero (S := S1x256) KVal0Aux.origin2]
  exact KVal0Aux.pay_apply x0 x1 x2 r j

end Cert.KernelIdeal.KVal

end
-- ==== Proof.KArr0.lean ====
import proofs.«164254_g8143257993987_cont_9to1c4b_560_10_alg».proof.Proof.KVal0
import Idealize.ShloMosaic.Lib.Pipeline.Value

noncomputable section

open scoped BigOperators

namespace Cert.KernelIdeal.KArr

open Cert.KernelIdeal Cert.KernelIdeal.Gen Idealize.ShloMosaic Idealize.ShloMosaic.TcCoe Idealize.ShloMosaic.ValueIdx Idealize.SL.Sem

namespace KArr0Aux

/-- Every row's projection, as one array of the input, the weights and the bias. -/
def projAll (X : S512x1024.Idx → EReal) (W : S1024x256.Idx → EReal) (b : S1x256.Idx → EReal) : S512x256.Idx → EReal :=
  fun i => Cert.Spec.proj (fun d => X (ix2 (⟨(i 0).val, idx2_lt0 i⟩ : Fin 512) d)) (fun d j' => W (ix2 d j'))
    (fun j' => b (ix2 (0 : Fin 1) j')) (⟨(i 1).val, idx2_lt1 i⟩ : Fin 256)

/-- At row `r`, column `j` it is the projection of row `r`. -/
theorem projAll_apply (X : S512x1024.Idx → EReal) (W : S1024x256.Idx → EReal) (b : S1x256.Idx → EReal) (r : Fin 512) (j : Fin 256) :
    projAll X W b (ix2 r j)
      = Cert.Spec.proj (fun d => X (ix2 r d)) (fun d j' => W (ix2 d j')) (fun j' => b (ix2 (0 : Fin 1) j')) j := rfl

/-- The block the projection kernel stores is every row's projection of its three loaded blocks. -/
theorem out_eq_projAll (x0 : Vec Ideal S512x1024 .f32) (x1 : Vec Ideal S1024x256 .f32) (x2 : Vec Ideal S1x256 .f32) :
    out0_3 (F := Ideal) x0 x1 x2 = projAll x0 x1 x2 := by
  funext i
  obtain ⟨r, j, rfl⟩ : ∃ (r : Fin 512) (j : Fin 256), i = ix2 r j := ⟨i 0, i 1, eq_ix2 i⟩
  exact Cert.KernelIdeal.KVal.out0_3_apply x0 x1 x2 r j

section AtEntry

variable (V : (c : Dev nD) → (b : Ref sig .tc) → Buf (Elt Ideal) ((c : Thread nD τ).loc b))

/-- The input's block at the one point is the whole input. -/
theorem block_input (c : Dev nD) (t : Fin cfg0.N) :
    (iblk0 (F := Ideal) V c 0 t : S512x1024.Idx → EReal) = (V c main_v0 : S512x1024.Idx → EReal) := by
  funext y
  show (V c main_v0 : S512x1024.Idx → EReal) (((cfg0.win 0).blk t).view.emb y) = (V c main_v0 : S512x1024.Idx → EReal) y
  refine congrArg _ (funext fun a => Fin.ext ?_)
  match a with
  | ⟨0, _⟩ => show win0_0.index t (0 : Fin 2) * 512 + 1 * (y 0).val = (y 0).val; rw [show win0_0.index t (0 : Fin 2) = 0 from rfl]; omega
  | ⟨1, _⟩ => show win0_0.index t (1 : Fin 2) * 1024 + 1 * (y 1).val = (y 1).val; rw [show win0_0.index t (1 : Fin 2) = 0 from rfl]; omega

/-- The weights' block at the one point is the whole weight array. -/
theorem block_weights (c : Dev nD) (t : Fin cfg0.N) :
    (iblk0 (F := Ideal) V c 1 t : S1024x256.Idx → EReal) = (V c main_arg2 : S1024x256.Idx → EReal) := by
  funext y
  show (V c main_arg2 : S1024x256.Idx → EReal) (((cfg0.win 1).blk t).view.emb y) = (V c main_arg2 : S1024x256.Idx → EReal) y
  refine congrArg _ (funext fun a => Fin.ext ?_)
  match a with
  | ⟨0, _⟩ => show win0_1.index t (0 : Fin 2) * 1024 + 1 * (y 0).val = (y 0).val; rw [show win0_1.index t (0 : Fin 2) = 0 from rfl]; omega
  | ⟨1, _⟩ => show win0_1.index t (1 : Fin 2) * 256 + 1 * (y 1).val = (y 1).val; rw [show win0_1.index t (1 : Fin 2) = 0 from rfl]; omega

/-- The bias' block at the one point is the whole bias row. -/
theorem block_bias (c : Dev nD) (t : Fin cfg0.N) :
    (iblk0 (F := Ideal) V c 2 t : S1x256.Idx → EReal) = (V c main_v1 : S1x256.Idx → EReal) := by
  funext y
  show (V c main_v1 : S1x256.Idx → EReal) (((cfg0.win 2).blk t).view.emb y) = (V c main_v1 : S1x256.Idx → EReal) y
  refine congrArg _ (funext fun a => Fin.ext ?_)
  match a with
  | ⟨0, _⟩ => show win0_2.index t (0 : Fin 2) * 1 + 1 * (y 0).val = (y 0).val; rw [show win0_2.index t (0 : Fin 2) = 0 from rfl]; omega
  | ⟨1, _⟩ => show win0_2.index t (1 : Fin 2) * 256 + 1 * (y 1).val = (y 1).val; rw [show win0_2.index t (1 : Fin 2) = 0 from rfl]; omega

/-- What the one point writes back is the output's block of every row's projection of the three arrays as the
    region found them. -/
theorem written_back (c : Dev nD) (t : Fin cfg0.N) :
    (dat0 (F := Ideal) V c).flushed 3 t
      = ((cfg0.win 3).blk t).view.read (Elt Ideal)
          (projAll (V c main_v0 : S512x1024.Idx → EReal) (V c main_arg2 : S1024x256.Idx → EReal) (V c main_v1 : S1x256.Idx → EReal)) := by
  show (cfg0.win 3).cut (grid0.coords t) ((dat0 (F := Ideal) V c).after 3 t) = _
  rw [after0_3]
  funext y
  show out0_3 (F := Ideal) (iblk0 (F := Ideal) V c 0 t) (iblk0 (F := Ideal) V c 1 t) (iblk0 (F := Ideal) V c 2 t) y
      = projAll (V c main_v0 : S512x1024.Idx → EReal) (V c main_arg2 : S1024x256.Idx → EReal) (V c main_v1 : S1x256.Idx → EReal)
          (((cfg0.win 3).blk t).view.emb y)
  have hy : ((cfg0.win 3).blk t).view.emb y = (y : S512x256.Idx) := by
    refine funext fun a => Fin.ext ?_
    match a with
    | ⟨0, _⟩ => show win0_3.index t (0 : Fin 2) * 512 + 1 * (y 0).val = (y 0).val; rw [show win0_3.index t (0 : Fin 2) = 0 from rfl]; omega
    | ⟨1, _⟩ => show win0_3.index t (1 : Fin 2) * 256 + 1 * (y 1).val = (y 1).val; rw [show win0_3.index t (1 : Fin 2) = 0 from rfl]; omega
  refine (congrFun (out_eq_projAll (iblk0 (F := Ideal) V c 0 t) (iblk0 (F := Ideal) V c 1 t) (iblk0 (F := Ideal) V c 2 t)) y).trans ?_
  rw [block_input V c t, block_weights V c t, block_bias V c t]
  exact congrArg _ hy.symm

/-- Every index of the output array lies in the one point's block, which is written back. -/
theorem covered (i : S512x256.Idx) :
    ∃ t : Fin cfg0.N, (cfg0.win 3).flush t = true ∧ i ∈ ((cfg0.win 3).blk t).view.set := by
  refine ⟨t0_0, flush0_3 t0_0, ?_⟩
  show i ∈ ((View.whole main_v8).slice (win0_3.rect t0_0)).set
  rw [View.set_slice_whole, Rect.mem_set_unit]
  intro a
  have h0 : (i 0).val < 512 := idx2_lt0 i
  have h1 : (i 1).val < 256 := idx2_lt1 i
  match a with
  | ⟨0, _⟩ =>
    show win0_3.index t0_0 (0 : Fin 2) * 512 ≤ (i 0).val ∧ (i 0).val < win0_3.index t0_0 (0 : Fin 2) * 512 + 512
    rw [show win0_3.index t0_0 (0 : Fin 2) = 0 from rfl]; omega
  | ⟨1, _⟩ =>
    show win0_3.index t0_0 (1 : Fin 2) * 256 ≤ (i 1).val ∧ (i 1).val < win0_3.index t0_0 (1 : Fin 2) * 256 + 256
    rw [show win0_3.index t0_0 (1 : Fin 2) = 0 from rfl]; omega

/-- After the region the output array is every row's projection of the three arrays as the region found them. -/
theorem arr_eq_projAll (c : Dev nD) :
    ((dat0 (F := Ideal) V c).arrAt 3 cfg0.N : S512x256.Idx → EReal)
      = projAll (V c main_v0 : S512x1024.Idx → EReal) (V c main_arg2 : S1024x256.Idx → EReal) (V c main_v1 : S1x256.Idx → EReal) :=
  (dat0 (F := Ideal) V c).arrAt_eq_of_cover 3 _ (fun t _ => written_back V c t) covered

end AtEntry

end KArr0Aux

/-- After the projection region its output array holds, at row `r` and column `j`, the projection of row `r` of
    the region's first operand as the region found it. -/
theorem arr0_apply (V : (c : Dev nD) → (b : Ref sig .tc) → Buf (Elt Ideal) ((c : Thread nD τ).loc b)) (c : Dev nD) (r : Fin 512) (j : Fin 256) :
    ((dat0 (F := Ideal) V c).arrAt 3 cfg0.N : S512x256.Idx → EReal) (ix2 r j)
      = Cert.Spec.proj (fun d => (V c main_v0 : S512x1024.Idx → EReal) (ix2 r d))
          (fun d j' => (V c main_arg2 : S1024x256.Idx → EReal) (ix2 d j'))
          (fun j' => (V c main_v1 : S1x256.Idx → EReal) (ix2 (0 : Fin 1) j')) j :=
  (congrFun (KArr0Aux.arr_eq_projAll V c) (ix2 r j)).trans (KArr0Aux.projAll_apply _ _ _ r j)

end Cert.KernelIdeal.KArr

end
-- ==== Proof.LibColumn.lean ====
/-
  Column vectors read at an index given by coordinates.

  A sum or maximum taken with `keepdims` leaves a column `[a, 1]`, which is then spread over the lanes. These three
  readings complete the library's list of small layout forms (leading unit axes, one row spread over many rows)
  with the column ones: a vector `[a]` viewed as a column, a row `[1, a]` viewed as a column, and a column `[a, 1]`
  spread to `[a, b]`. Each is the general lemma for its operation with the coordinate arithmetic done: a shape cast
  keeps the row-major position, and a broadcast reads coordinate 0 on a unit axis.
-/
import Idealize.ShloMosaic.Lib.ValueLayout

namespace Cert.LibColumn

open Idealize.ShloMosaic Idealize.ShloMosaic.ValueIdx

variable {α : Type}

/-- An `[a]` vector cast to an `[a, 1]` column reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, a]` row cast to an `[a, 1]` column reads, at `(i, u)`, the row at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- An `[a, 1]` column broadcast to `[a, b]` reads, at `(p, c)`, the column at `p`: every lane of a row holds the row's one
    entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KVal1.lean ====
/-
  The attention kernel's output block, entry by entry.

  One grid point holds four batches. For each batch the body takes the query block q (8 rows of width 256) and the
  cache slice C (4096 rows of width 256), forms the scores q · Cᵀ, scales them by the word 0.0625, clips them to
  [-20, 20] and exponentiates; the context is the weighted sum of the cache rows divided, row by row, by the sum of
  the weights. The four batches are written by four stores, one slab of the block each, so an entry of the block is
  read from the one slab that holds its batch.
-/
import proofs.«164254_g8143257993987_cont_9to1c4b_560_10_alg».proof.Proof.Gen.KernelIdeal.Frame
import proofs.«164254_g8143257993987_cont_9to1c4b_560_10_alg».proof.Proof.Spec
import proofs.«164254_g8143257993987_cont_9to1c4b_560_10_alg».proof.Proof.LibColumn
import Idealize.ShloMosaic.PureOps.Ideal.Laws
import Idealize.ShloMosaic.Lib.ValueLayout

noncomputable section

open scoped BigOperators

namespace Cert.KernelIdeal.KVal

open Cert.KernelIdeal Cert.KernelIdeal.Gen Idealize.ShloMosaic Idealize.ShloMosaic.TcCoe Idealize.ShloMosaic.ValueIdx Idealize.SL.Sem

namespace KVal1Aux

/-! ## The two products and the lane sum at an index -/

/-- The score product: queries against cache rows, contracting the width, read at (s, m). -/
theorem score_apply (q : FVec Ideal S8x256 .f32) (C : FVec Ideal S4096x256 .f32) (s : Fin 8) (m : Fin 4096) :
    matmul dot_S8x256_S4096x256_S8x4096_1_1_0_0_n_n none q C (constant (F := Ideal) S8x4096 .f32 0x00000000#32) (ix2 s m)
      = ∑ c : Fin 256, q (ix2 s c) * C (ix2 m c) := by
  show FloatOps.matmul _ none q C (constant (F := Ideal) S8x4096 .f32 0x00000000#32) (ix2 s m) = _
  rw [Ideal.matmul_constant_zero_apply,
    ← Equiv.sum_comp (contrEquiv1 dot_S8x256_S4096x256_S8x4096_1_1_0_0_n_n 256 rfl rfl).symm]
  refine Finset.sum_congr rfl fun c _ => ?_
  have c2 := contrEquiv1_symm_val dot_S8x256_S4096x256_S8x4096_1_1_0_0_n_n 256 rfl rfl c
  have l2 : dot_S8x256_S4096x256_S8x4096_1_1_0_0_n_n.lhsIdx (ix2 s m) ((contrEquiv1 _ 256 rfl rfl).symm c) = ix2 s c := by
    funext ax; apply Fin.ext
    match ax with
    | ⟨0, _⟩ => simp [DotDims.lhsIdx, dot_S8x256_S4096x256_S8x4096_1_1_0_0_n_n]; rfl
    | ⟨1, _⟩ => simp [DotDims.lhsIdx, dot_S8x256_S4096x256_S8x4096_1_1_0_0_n_n]; exact c2
  have r2 : dot_S8x256_S4096x256_S8x4096_1_1_0_0_n_n.rhsIdx (ix2 s m) ((contrEquiv1 _ 256 rfl rfl).symm c) = ix2 m c := by
    funext ax; apply Fin.ext
    match ax with
    | ⟨0, _⟩ => simp [DotDims.rhsIdx, dot_S8x256_S4096x256_S8x4096_1_1_0_0_n_n]; rfl
    | ⟨1, _⟩ => simp [DotDims.rhsIdx, dot_S8x256_S4096x256_S8x4096_1_1_0_0_n_n]; exact c2
  rw [l2, r2]

/-- The context product: weights against cache rows, contracting the cache length, read at (s, j). -/
theorem ctx_apply (e : FVec Ideal S8x4096 .f32) (C : FVec Ideal S4096x256 .f32) (s : Fin 8) (j : Fin 256) :
    matmul dot_S8x4096_S4096x256_S8x256_1_0_0_1_n_n none e C (constant (F := Ideal) S8x256 .f32 0x00000000#32) (ix2 s j)
      = ∑ m : Fin 4096, e (ix2 s m) * C (ix2 m j) := by
  show FloatOps.matmul _ none e C (constant (F := Ideal) S8x256 .f32 0x00000000#32) (ix2 s j) = _
  rw [Ideal.matmul_constant_zero_apply,
    ← Equiv.sum_comp (contrEquiv1 dot_S8x4096_S4096x256_S8x256_1_0_0_1_n_n 4096 rfl rfl).symm]
  refine Finset.sum_congr rfl fun m _ => ?_
  have c2 := contrEquiv1_symm_val dot_S8x4096_S4096x256_S8x256_1_0_0_1_n_n 4096 rfl rfl m
  have l2 : dot_S8x4096_S4096x256_S8x256_1_0_0_1_n_n.lhsIdx (ix2 s j) ((contrEquiv1 _ 4096 rfl rfl).symm m) = ix2 s m := by
    funext ax; apply Fin.ext
    match ax with
    | ⟨0, _⟩ => simp [DotDims.lhsIdx, dot_S8x4096_S4096x256_S8x256_1_0_0_1_n_n]; rfl
    | ⟨1, _⟩ => simp [DotDims.lhsIdx, dot_S8x4096_S4096x256_S8x256_1_0_0_1_n_n]; exact c2
  have r2 : dot_S8x4096_S4096x256_S8x256_1_0_0_1_n_n.rhsIdx (ix2 s j) ((contrEquiv1 _ 4096 rfl rfl).symm m) = ix2 m j := by
    funext ax; apply Fin.ext
    match ax with
    | ⟨0, _⟩ => simp [DotDims.rhsIdx, dot_S8x4096_S4096x256_S8x256_1_0_0_1_n_n]; exact c2
    | ⟨1, _⟩ => simp [DotDims.rhsIdx, dot_S8x4096_S4096x256_S8x256_1_0_0_1_n_n]; rfl
  rw [l2, r2]

/-- The lane sum of the weights at row s. -/
theorem lanesum_apply (e : FVec Ideal S8x4096 .f32) (hacc : (0x00000000#32 : BitVec 32) = 0x00000000#32) (s : Fin 8) :
    multiReduction (F := Ideal) .add [1] S8 e 0x00000000#32 reduces_S8x4096_S8 (.inl rfl) hacc (ix1 s)
      = ∑ m : Fin 4096, e (ix2 s m) := by
  refine (Ideal.multiReduction_add_single e 0x00000000#32 reduces_S8x4096_S8 (.inl rfl) hacc (ix1 s)).trans ?_
  refine Finset.sum_congr rfl fun m _ => congrArg e ?_
  funext ax; apply Fin.ext
  match ax with
  | ⟨0, _⟩ => rfl
  | ⟨1, _⟩ => rfl

/-! ## The common computation of one batch -/

/-- The attention weights of a query block against a cache slice: the exponential of the scaled, clipped scores. -/
def wts (q : FVec Ideal S8x256 .f32) (C : FVec Ideal S4096x256 .f32) : FVec Ideal S8x4096 .f32 :=
  exp (minimumf (broadcast S8x4096 (Scalar.ofBits (F := Ideal) .f32 0x41A00000#32))
    (maximumf (broadcast S8x4096 (Scalar.ofBits (F := Ideal) .f32 0xC1A00000#32))
      (mulf (matmul dot_S8x256_S4096x256_S8x4096_1_1_0_0_n_n none q C (constant (F := Ideal) S8x4096 .f32 0x00000000#32))
        (broadcast S8x4096 (Scalar.ofBits (F := Ideal) .f32 0x3D800000#32)))))

/-- The weighted sum of the cache rows over the sum of the weights, as a one-batch block. -/
def ctxOf (e : FVec Ideal S8x4096 .f32) (C : FVec Ideal S4096x256 .f32) : FVec Ideal S1x8x256 .f32 :=
  shapeCast S1x8x256
    (divf (matmul dot_S8x4096_S4096x256_S8x256_1_0_0_1_n_n none e C (constant (F := Ideal) S8x256 .f32 0x00000000#32))
      (broadcastTo S8x256
        (shapeCast S8x1 (multiReduction (F := Ideal) .add [1] S8 e 0x00000000#32 reduces_S8x4096_S8 (.inl rfl) rfl) shapeCasts_S8_S8x1)
        broadcasts_S8x1_S8x256))
    shapeCasts_S8x256_S1x8x256

/-- A weight at (s, m) is the exponential of the clipped exponent of query row s against cache row m. -/
theorem wts_apply (q : FVec Ideal S8x256 .f32) (C : FVec Ideal S4096x256 .f32) (s : Fin 8) (m : Fin 4096) :
    wts q C (ix2 s m) = Ideal.exp (Cert.Spec.expoK (fun cc => q (ix2 s cc)) (fun mm cc => C (ix2 mm cc)) m) := by
  show Ideal.exp (min (Ideal.ofBits .f32 0x41A00000#32) (max (Ideal.ofBits .f32 0xC1A00000#32)
    (matmul dot_S8x256_S4096x256_S8x4096_1_1_0_0_n_n none q C (constant (F := Ideal) S8x4096 .f32 0x00000000#32) (ix2 s m)
      * Ideal.ofBits .f32 0x3D800000#32))) = _
  rw [score_apply]
  rfl

/-- The block at (u, s, j): the weighted sum of column j over the sum of the weights of row s. -/
theorem ctxOf_apply (e : FVec Ideal S8x4096 .f32) (C : FVec Ideal S4096x256 .f32) (u : Fin 1) (s : Fin 8) (j : Fin 256) :
    ctxOf e C (ix3 u s j) = Ideal.div (∑ m : Fin 4096, e (ix2 s m) * C (ix2 m j)) (∑ m : Fin 4096, e (ix2 s m)) := by
  unfold ctxOf
  refine (shapeCast_ab_1ab_apply _ _ u s j).trans ?_
  show Ideal.div (matmul dot_S8x4096_S4096x256_S8x256_1_0_0_1_n_n none e C (constant (F := Ideal) S8x256 .f32 0x00000000#32) (ix2 s j))
    (broadcastTo S8x256 (shapeCast S8x1 (multiReduction (F := Ideal) .add [1] S8 e 0x00000000#32 reduces_S8x4096_S8 (.inl rfl) rfl) shapeCasts_S8_S8x1)
        broadcasts_S8x1_S8x256 (ix2 s j)) = _
  rw [ctx_apply, Cert.LibColumn.broadcastTo_a1_ab_apply, Cert.LibColumn.shapeCast_a_a1_apply, lanesum_apply]

/-- One batch slice: from the loaded query and cache blocks to the attention row. -/
theorem blk_apply (v0 : Vec Ideal S1x8x256 .f32) (v2 : Vec Ideal S1x4096x256 .f32) (u : Fin 1) (s : Fin 8) (j : Fin 256) :
    ctxOf (wts (shapeCast S8x256 v0 shapeCasts_S1x8x256_S8x256) (shapeCast S4096x256 v2 shapeCasts_S1x4096x256_S4096x256))
        (shapeCast S4096x256 v2 shapeCasts_S1x4096x256_S4096x256) (ix3 u s j)
      = Cert.Spec.attnK (fun cc => v0 (ix3 (0 : Fin 1) s cc)) (fun mm cc => v2 (ix3 (0 : Fin 1) mm cc)) j := by
  rw [ctxOf_apply]
  have hq : (fun cc => shapeCast S8x256 v0 shapeCasts_S1x8x256_S8x256 (ix2 s cc)) = fun cc => v0 (ix3 (0 : Fin 1) s cc) :=
    funext fun cc => shapeCast_1ab_ab_apply v0 _ s cc
  have hC : (fun mm cc => shapeCast S4096x256 v2 shapeCasts_S1x4096x256_S4096x256 (ix2 mm cc)) = fun mm cc => v2 (ix3 (0 : Fin 1) mm cc) :=
    funext fun mm => funext fun cc => shapeCast_1ab_ab_apply v2 _ mm cc
  unfold Cert.Spec.attnK
  rw [← hq, ← hC]
  refine congrArg₂ Ideal.div (Finset.sum_congr rfl fun m _ => ?_) (Finset.sum_congr rfl fun m _ => wts_apply _ _ s m)
  rw [wts_apply]

/-! ## The slabs of the two input blocks, and the four stored values -/

/-- The slab of batch k of the query buffer places (0, s, c) at (k, s, c). -/
theorem slabQ_idx (k : Nat) (inb : ∀ a, (![k, 0, 0] : Fin 3 → Nat) a + S1x8x256.size a ≤ S4x8x256.size a)
    (kk : Fin 4) (hk : kk.val = k) (s : Fin 8) (c : Fin 256) :
    (Rect.unit (s := S4x8x256) ![k, 0, 0] S1x8x256.size inb).idx (ix3 (0 : Fin 1) s c) = ix3 kk s c := by
  funext a; apply Fin.ext
  match a with
  | ⟨0, _⟩ => show k + 1 * 0 = kk.val; omega
  | ⟨1, _⟩ => show 0 + 1 * s.val = s.val; omega
  | ⟨2, _⟩ => show 0 + 1 * c.val = c.val; omega

/-- The slab of batch k of the cache buffer places (0, m, c) at (k, m, c). -/
theorem slabC_idx (k : Nat) (inb : ∀ a, (![k, 0, 0] : Fin 3 → Nat) a + S1x4096x256.size a ≤ S4x4096x256.size a)
    (kk : Fin 4) (hk : kk.val = k) (m : Fin 4096) (c : Fin 256) :
    (Rect.unit (s := S4x4096x256) ![k, 0, 0] S1x4096x256.size inb).idx (ix3 (0 : Fin 1) m c) = ix3 kk m c := by
  funext a; apply Fin.ext
  match a with
  | ⟨0, _⟩ => show k + 1 * 0 = kk.val; omega
  | ⟨1, _⟩ => show 0 + 1 * m.val = m.val; omega
  | ⟨2, _⟩ => show 0 + 1 * c.val = c.val; omega

/-- The attention row computed from the slabs of batch kk of the two buffers is the attention row of that batch. -/
theorem slab_attn (x0 : Vec Ideal S4x8x256 .f32) (x1 : Vec Ideal S4x4096x256 .f32) (k : Nat)
    (inbQ : ∀ a, (![k, 0, 0] : Fin 3 → Nat) a + S1x8x256.size a ≤ S4x8x256.size a)
    (inbC : ∀ a, (![k, 0, 0] : Fin 3 → Nat) a + S1x4096x256.size a ≤ S4x4096x256.size a)
    (kk : Fin 4) (hk : kk.val = k) (u : Fin 1) (s : Fin 8) (j : Fin 256) :
    ctxOf (wts (shapeCast S8x256 (View.ld x0 (Rect.unit (s := S4x8x256) ![k, 0, 0] S1x8x256.size inbQ)) shapeCasts_S1x8x256_S8x256)
          (shapeCast S4096x256 (View.ld x1 (Rect.unit (s := S4x4096x256) ![k, 0, 0] S1x4096x256.size inbC)) shapeCasts_S1x4096x256_S4096x256))
        (shapeCast S4096x256 (View.ld x1 (Rect.unit (s := S4x4096x256) ![k, 0, 0] S1x4096x256.size inbC)) shapeCasts_S1x4096x256_S4096x256) (ix3 u s j)
      = Cert.Spec.attnK (fun cc => x0 (ix3 kk s cc)) (fun mm cc => x1 (ix3 kk mm cc)) j := by
  refine (blk_apply _ _ u s j).trans ?_
  exact congrArg₂ (fun q C => Cert.Spec.attnK q C j)
    (funext fun cc => congrArg x0 (slabQ_idx k inbQ kk hk s cc))
    (funext fun mm => funext fun cc => congrArg x1 (slabC_idx k inbC kk hk mm cc))

/-- The payload stored for batch 0 is the common computation on the loaded blocks. -/
theorem pay2_eq (v0 : Vec Ideal S1x8x256 .f32) (v2 : Vec Ideal S1x4096x256 .f32) :
    k1_pay2 (F := Ideal) v0 v2
      = ctxOf (wts (shapeCast S8x256 v0 shapeCasts_S1x8x256_S8x256) (shapeCast S4096x256 v2 shapeCasts_S1x4096x256_S4096x256))
          (shapeCast S4096x256 v2 shapeCasts_S1x4096x256_S4096x256) := rfl

/-- The payload stored for batch 1, its weights and cast cache carried separately, is the common computation. -/
theorem pay5_eq (v20 : Vec Ideal S1x8x256 .f32) (v22 : Vec Ideal S1x4096x256 .f32) :
    k1_pay5 (F := Ideal) (k1_pay3 v22) (k1_pay4 v20 v22) (constant (F := Ideal) S8x256 .f32 0x00000000#32)
      = ctxOf (wts (shapeCast S8x256 v20 shapeCasts_S1x8x256_S8x256) (shapeCast S4096x256 v22 shapeCasts_S1x4096x256_S4096x256))
          (shapeCast S4096x256 v22 shapeCasts_S1x4096x256_S4096x256) := rfl

/-- The payload stored for batch 2 is the common computation on the loaded blocks. -/
theorem pay6_eq (v40 : Vec Ideal S1x8x256 .f32) (v42 : Vec Ideal S1x4096x256 .f32) :
    k1_pay6 (F := Ideal) v40 v42
      = ctxOf (wts (shapeCast S8x256 v40 shapeCasts_S1x8x256_S8x256) (shapeCast S4096x256 v42 shapeCasts_S1x4096x256_S4096x256))
          (shapeCast S4096x256 v42 shapeCasts_S1x4096x256_S4096x256) := rfl

/-- The payload stored for batch 3, its cast blocks and zero accumulator carried separately, is the common computation. -/
theorem pay1_eq (v60 : Vec Ideal S1x8x256 .f32) (v62 : Vec Ideal S1x4096x256 .f32) :
    k1_pay1 (F := Ideal) (k1_pay7 v60) (k1_pay8 v62) (constant (F := Ideal) S8x4096 .f32 0x00000000#32)
      = ctxOf (wts (shapeCast S8x256 v60 shapeCasts_S1x8x256_S8x256) (shapeCast S4096x256 v62 shapeCasts_S1x4096x256_S4096x256))
          (shapeCast S4096x256 v62 shapeCasts_S1x4096x256_S4096x256) := rfl

/-! ## Reading the block under each of the four stores -/

section Canon
variable {Val : EltTy → Type} [∀ e, Nonempty (Val e)] {S : Shape} {e : EltTy}

/-- What the stores leave under the second-to-last rectangle, where the last store misses. -/
theorem canon_at_second (r3 r2 : Rect S) (w3 : r3.shape.Idx → Val e) (w2 : r2.shape.Idx → Val e)
    (L : List (View.Piece Val S e)) (x : r2.shape.Idx) (h3 : r2.emb x ∉ r3.set) :
    View.canon ((⟨r3, w3⟩ : View.Piece Val S e) :: ⟨r2, w2⟩ :: L) (r2.emb x) = w2 x :=
  (View.canon_cons_of_not_mem (⟨r3, w3⟩ : View.Piece Val S e) _ h3).trans (View.canon_cons_emb r2 w2 L x)

/-- What the stores leave under the third-to-last rectangle, where the last two stores miss. -/
theorem canon_at_third (r3 r2 r1 : Rect S) (w3 : r3.shape.Idx → Val e) (w2 : r2.shape.Idx → Val e) (w1 : r1.shape.Idx → Val e)
    (L : List (View.Piece Val S e)) (x : r1.shape.Idx) (h3 : r1.emb x ∉ r3.set) (h2 : r1.emb x ∉ r2.set) :
    View.canon ((⟨r3, w3⟩ : View.Piece Val S e) :: ⟨r2, w2⟩ :: ⟨r1, w1⟩ :: L) (r1.emb x) = w1 x :=
  (View.canon_cons_of_not_mem (⟨r3, w3⟩ : View.Piece Val S e) _ h3).trans (canon_at_second r2 r1 w2 w1 L x h2)

/-- What the stores leave under the fourth-to-last rectangle, where the last three stores miss. -/
theorem canon_at_fourth (r3 r2 r1 r0 : Rect S) (w3 : r3.shape.Idx → Val e) (w2 : r2.shape.Idx → Val e) (w1 : r1.shape.Idx → Val e)
    (w0 : r0.shape.Idx → Val e) (L : List (View.Piece Val S e)) (x : r0.shape.Idx)
    (h3 : r0.emb x ∉ r3.set) (h2 : r0.emb x ∉ r2.set) (h1 : r0.emb x ∉ r1.set) :
    View.canon ((⟨r3, w3⟩ : View.Piece Val S e) :: ⟨r2, w2⟩ :: ⟨r1, w1⟩ :: ⟨r0, w0⟩ :: L) (r0.emb x) = w0 x :=
  (View.canon_cons_of_not_mem (⟨r3, w3⟩ : View.Piece Val S e) _ h3).trans (canon_at_third r2 r1 r0 w2 w1 w0 L x h2 h1)

end Canon

/-- A slab of batch k does not meet the slab of a later batch k'. -/
theorem slab_not_mem (k k' : Nat) (hk : k < k')
    (inb : ∀ a, (![k, 0, 0] : Fin 3 → Nat) a + S1x8x256.size a ≤ S4x8x256.size a)
    (inb' : ∀ a, (![k', 0, 0] : Fin 3 → Nat) a + S1x8x256.size a ≤ S4x8x256.size a) (x : S1x8x256.Idx) :
    (Rect.unit (s := S4x8x256) ![k, 0, 0] S1x8x256.size inb).emb x ∉ (Rect.unit (s := S4x8x256) ![k', 0, 0] S1x8x256.size inb').set := by
  rw [Rect.mem_set_unit]
  intro h
  have h0 : k' ≤ k + 1 * (x 0).val := (h 0).1
  have hx : (x 0).val < 1 := (x 0).isLt
  omega

/-- Batch 3 of the output block: the last store covers it. -/
theorem out_at3 (x0 : Vec Ideal S4x8x256 .f32) (x1 : Vec Ideal S4x4096x256 .f32) (s : Fin 8) (j : Fin 256) :
    out1_2 (F := Ideal) x0 x1 (ix3 (3 : Fin 4) s j)
      = Cert.Spec.attnK (fun cc => x0 (ix3 (3 : Fin 4) s cc)) (fun mm cc => x1 (ix3 (3 : Fin 4) mm cc)) j := by
  have e : (ix3 (3 : Fin 4) s j : S4x8x256.Idx) = r1_6.emb (ix3 (0 : Fin 1) s j) :=
    (slabQ_idx 3 inb_S4x8x256_S1x8x256_3_0_0 3 rfl s j).symm
  unfold out1_2
  rw [e, View.canon_cons_emb, pay1_eq]
  exact slab_attn x0 x1 3 _ _ 3 rfl 0 s j

/-- Batch 2 of the output block: the last store misses it, the one before covers it. -/
theorem out_at2 (x0 : Vec Ideal S4x8x256 .f32) (x1 : Vec Ideal S4x4096x256 .f32) (s : Fin 8) (j : Fin 256) :
    out1_2 (F := Ideal) x0 x1 (ix3 (2 : Fin 4) s j)
      = Cert.Spec.attnK (fun cc => x0 (ix3 (2 : Fin 4) s cc)) (fun mm cc => x1 (ix3 (2 : Fin 4) mm cc)) j := by
  have e : (ix3 (2 : Fin 4) s j : S4x8x256.Idx) = r1_4.emb (ix3 (0 : Fin 1) s j) :=
    (slabQ_idx 2 inb_S4x8x256_S1x8x256_2_0_0 2 rfl s j).symm
  unfold out1_2
  rw [e]
  refine (canon_at_second r1_6 r1_4 _ _ _ (ix3 (0 : Fin 1) s j) (slab_not_mem 2 3 (by omega) _ _ _)).trans ?_
  rw [pay6_eq]
  exact slab_attn x0 x1 2 _ _ 2 rfl 0 s j

/-- Batch 1 of the output block: the last two stores miss it, the second covers it. -/
theorem out_at1 (x0 : Vec Ideal S4x8x256 .f32) (x1 : Vec Ideal S4x4096x256 .f32) (s : Fin 8) (j : Fin 256) :
    out1_2 (F := Ideal) x0 x1 (ix3 (1 : Fin 4) s j)
      = Cert.Spec.attnK (fun cc => x0 (ix3 (1 : Fin 4) s cc)) (fun mm cc => x1 (ix3 (1 : Fin 4) mm cc)) j := by
  have e : (ix3 (1 : Fin 4) s j : S4x8x256.Idx) = r1_2.emb (ix3 (0 : Fin 1) s j) :=
    (slabQ_idx 1 inb_S4x8x256_S1x8x256_1_0_0 1 rfl s j).symm
  unfold out1_2
  rw [e]
  refine (canon_at_third r1_6 r1_4 r1_2 _ _ _ _ (ix3 (0 : Fin 1) s j) (slab_not_mem 1 3 (by omega) _ _ _)
    (slab_not_mem 1 2 (by omega) _ _ _)).trans ?_
  rw [pay5_eq]
  exact slab_attn x0 x1 1 _ _ 1 rfl 0 s j

/-- Batch 0 of the output block: only the first store covers it. -/
theorem out_at0 (x0 : Vec Ideal S4x8x256 .f32) (x1 : Vec Ideal S4x4096x256 .f32) (s : Fin 8) (j : Fin 256) :
    out1_2 (F := Ideal) x0 x1 (ix3 (0 : Fin 4) s j)
      = Cert.Spec.attnK (fun cc => x0 (ix3 (0 : Fin 4) s cc)) (fun mm cc => x1 (ix3 (0 : Fin 4) mm cc)) j := by
  have e : (ix3 (0 : Fin 4) s j : S4x8x256.Idx) = r1_0.emb (ix3 (0 : Fin 1) s j) :=
    (slabQ_idx 0 inb_S4x8x256_S1x8x256_0_0_0 0 rfl s j).symm
  unfold out1_2
  rw [e]
  refine (canon_at_fourth r1_6 r1_4 r1_2 r1_0 _ _ _ _ _ (ix3 (0 : Fin 1) s j) (slab_not_mem 0 3 (by omega) _ _ _)
    (slab_not_mem 0 2 (by omega) _ _ _) (slab_not_mem 0 1 (by omega) _ _ _)).trans ?_
  rw [pay2_eq]
  exact slab_attn x0 x1 0 _ _ 0 rfl 0 s j

end KVal1Aux

/-- The attention kernel's output block at batch-in-block `i`, token `s`, column `j`. -/
theorem out1_2_apply (x0 : Vec Ideal S4x8x256 .f32) (x1 : Vec Ideal S4x4096x256 .f32)
    (i : Fin 4) (s : Fin 8) (j : Fin 256) :
    out1_2 (F := Ideal) x0 x1 (ix3 i s j)
      = Cert.Spec.attnK (fun cc => x0 (ix3 i s cc)) (fun mm cc => x1 (ix3 i mm cc)) j := by
  match i with
  | ⟨0, _⟩ => exact KVal1Aux.out_at0 x0 x1 s j
  | ⟨1, _⟩ => exact KVal1Aux.out_at1 x0 x1 s j
  | ⟨2, _⟩ => exact KVal1Aux.out_at2 x0 x1 s j
  | ⟨3, _⟩ => exact KVal1Aux.out_at3 x0 x1 s j

end Cert.KernelIdeal.KVal

end
-- ==== Proof.KArr1.lean ====
import proofs.«164254_g8143257993987_cont_9to1c4b_560_10_alg».proof.Proof.KVal1
import Idealize.ShloMosaic.Lib.Pipeline.Value

noncomputable section

open scoped BigOperators

namespace Cert.KernelIdeal.KArr

open Cert.KernelIdeal Cert.KernelIdeal.Gen Idealize.ShloMosaic Idealize.ShloMosaic.TcCoe Idealize.ShloMosaic.ValueIdx Idealize.SL.Sem

namespace KArr1Aux

/-- The attention rows of a whole query array against a whole cache array: at batch `b`, token `s`, column `j` the
    attention row of query `(b, s)` against cache slice `b`, read at `j`. -/
def attnArr (Q : S64x8x256.Idx → EReal) (K : S64x4096x256.Idx → EReal) : S64x8x256.Idx → EReal :=
  fun i => Cert.Spec.attnK
    (fun cc => Q (ix3 (⟨(i 0).val, (i 0).isLt⟩ : Fin 64) (⟨(i 1).val, (i 1).isLt⟩ : Fin 8) cc))
    (fun mm cc => K (ix3 (⟨(i 0).val, (i 0).isLt⟩ : Fin 64) mm cc))
    (⟨(i 2).val, (i 2).isLt⟩ : Fin 256)

/-- At explicit coordinates the whole-array function is the attention row of that batch and token. -/
theorem attnArr_apply (Q : S64x8x256.Idx → EReal) (K : S64x4096x256.Idx → EReal) (b : Fin 64) (s : Fin 8) (j : Fin 256) :
    attnArr Q K (ix3 b s j) = Cert.Spec.attnK (fun cc => Q (ix3 b s cc)) (fun mm cc => K (ix3 b mm cc)) j := rfl

/-- The grid has sixteen points. -/
theorem N1 : cfg1.N = 16 := N_1

/-- At grid point `t` every window's block index is `(t, 0, 0)`. -/
theorem idx_facts1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

variable (V : (c : Dev nD) → (b : Ref sig .tc) → Buf (Elt Ideal) ((c : Thread nD τ).loc b))

/-- The query window's block at point `t` is batches `4t … 4t+3` of the query array. -/
theorem qblk_apply (c : Dev nD) (t : Fin cfg1.N) (i : Fin 4) (s : Fin 8) (cc : Fin 256) (b : Fin 64)
    (hb : b.val = 4 * t.val + i.val) :
    (iblk1 (F := Ideal) V c 0 t : Vec Ideal S4x8x256 .f32) (ix3 i s cc)
      = (V c main_v9 : S64x8x256.Idx → EReal) (ix3 b s cc) := by
  obtain ⟨e0, e1, e2, -⟩ := idx_facts1 t
  show V c main_v9 (((cfg1.win 0).blk t).view.emb (ix3 i s cc)) = V c main_v9 (ix3 b s cc)
  refine congrArg _ (funext fun a => Fin.ext ?_)
  match a with
  | ⟨0, _⟩ => show win1_0.index t (0 : Fin 3) * 4 + 1 * i.val = b.val; rw [e0, hb]; omega
  | ⟨1, _⟩ => show win1_0.index t (1 : Fin 3) * 8 + 1 * s.val = s.val; rw [e1]; omega
  | ⟨2, _⟩ => show win1_0.index t (2 : Fin 3) * 256 + 1 * cc.val = cc.val; rw [e2]; omega

/-- The cache window's block at point `t` is batches `4t … 4t+3` of the cache array. -/
theorem cblk_apply (c : Dev nD) (t : Fin cfg1.N) (i : Fin 4) (mm : Fin 4096) (cc : Fin 256) (b : Fin 64)
    (hb : b.val = 4 * t.val + i.val) :
    (iblk1 (F := Ideal) V c 1 t : Vec Ideal S4x4096x256 .f32) (ix3 i mm cc)
      = (V c main_arg1 : S64x4096x256.Idx → EReal) (ix3 b mm cc) := by
  obtain ⟨-, -, -, e0, e1, e2, -⟩ := idx_facts1 t
  show V c main_arg1 (((cfg1.win 1).blk t).view.emb (ix3 i mm cc)) = V c main_arg1 (ix3 b mm cc)
  refine congrArg _ (funext fun a => Fin.ext ?_)
  match a with
  | ⟨0, _⟩ => show win1_1.index t (0 : Fin 3) * 4 + 1 * i.val = b.val; rw [e0, hb]; omega
  | ⟨1, _⟩ => show win1_1.index t (1 : Fin 3) * 4096 + 1 * mm.val = mm.val; rw [e1]; omega
  | ⟨2, _⟩ => show win1_1.index t (2 : Fin 3) * 256 + 1 * cc.val = cc.val; rw [e2]; omega

/-- The body's output block, from blocks that are batches `4t … 4t+3` of two whole arrays, is the same batches of
    the whole-array attention rows. -/
theorem oblk_apply (Q : S64x8x256.Idx → EReal) (K : S64x4096x256.Idx → EReal) (t : Fin cfg1.N)
    (x0 : Vec Ideal S4x8x256 .f32) (x1 : Vec Ideal S4x4096x256 .f32)
    (h0 : ∀ (i : Fin 4) (s : Fin 8) (cc : Fin 256) (b : Fin 64), b.val = 4 * t.val + i.val → x0 (ix3 i s cc) = Q (ix3 b s cc))
    (h1 : ∀ (i : Fin 4) (mm : Fin 4096) (cc : Fin 256) (b : Fin 64), b.val = 4 * t.val + i.val → x1 (ix3 i mm cc) = K (ix3 b mm cc))
    (y : S4x8x256.Idx) (k : S64x8x256.Idx)
    (hk0 : (k 0).val = 4 * t.val + (y 0).val) (hk1 : (k 1).val = (y 1).val) (hk2 : (k 2).val = (y 2).val) :
    out1_2 (F := Ideal) x0 x1 y = attnArr Q K k := by
  obtain ⟨i, s, j, rfl⟩ : ∃ (i : Fin 4) (s : Fin 8) (j : Fin 256), y = ix3 i s j := ⟨y 0, y 1, y 2, eq_ix3 y⟩
  obtain ⟨b, s', j', rfl⟩ : ∃ (b : Fin 64) (s' : Fin 8) (j' : Fin 256), k = ix3 b s' j' := ⟨k 0, k 1, k 2, eq_ix3 k⟩
  have hb : b.val = 4 * t.val + i.val := hk0
  obtain rfl : s' = s := Fin.ext hk1
  obtain rfl : j' = j := Fin.ext hk2
  rw [KVal.out1_2_apply, attnArr_apply]
  congr 1
  · funext cc; exact h0 i s' cc b hb
  · funext mm cc; exact h1 i mm cc b hb

/-- What point `t` writes back is block `t` of the whole-array attention rows of the arrays as the region found them. -/
theorem flushed1_2_eq (c : Dev nD) (t : Fin cfg1.N) :
    (dat1 (F := Ideal) V c).flushed 2 t
      = ((cfg1.win 2).blk t).view.read (Elt Ideal) (attnArr (V c main_v9) (V c main_arg1)) := by
  show (cfg1.win 2).cut (grid1.coords t) ((dat1 (F := Ideal) V c).after 2 t) = _
  rw [after1_2]
  obtain ⟨-, -, -, -, -, -, e0, e1, e2⟩ := idx_facts1 t
  funext y
  show out1_2 (F := Ideal) (iblk1 (F := Ideal) V c 0 t) (iblk1 (F := Ideal) V c 1 t) y
      = attnArr (V c main_v9) (V c main_arg1) (((cfg1.win 2).blk t).view.emb y)
  refine oblk_apply (V c main_v9) (V c main_arg1) t (iblk1 (F := Ideal) V c 0 t) (iblk1 (F := Ideal) V c 1 t)
    (fun i s cc b hb => qblk_apply V c t i s cc b hb) (fun i mm cc b hb => cblk_apply V c t i mm cc b hb)
    y (((cfg1.win 2).blk t).view.emb y) ?_ ?_ ?_
  · show win1_2.index t (0 : Fin 3) * 4 + 1 * (y 0).val = 4 * t.val + (y 0).val; rw [e0]; omega
  · show win1_2.index t (1 : Fin 3) * 8 + 1 * (y 1).val = (y 1).val; rw [e1]; omega
  · show win1_2.index t (2 : Fin 3) * 256 + 1 * (y 2).val = (y 2).val; rw [e2]; omega

/-- An index of the output array is in point `t`'s block exactly when each coordinate is in the block's range. -/
theorem mem_blk1_2 (t : Fin cfg1.N) (i : S64x8x256.Idx) :
    i ∈ ((cfg1.win 2).blk t).view.set
      ↔ ∀ a : Fin 3, win1_2.index t a * S4x8x256.size a ≤ (i a).val ∧ (i a).val < win1_2.index t a * S4x8x256.size a + S4x8x256.size a := by
  show i ∈ ((View.whole main_v10).slice (win1_2.rect t)).set ↔ _
  rw [View.set_slice_whole, Rect.mem_set_unit]
  exact Iff.rfl

/-- Every index of the output array lies in the block of the point its batch falls in, `b / 4`. -/
theorem covered1_2 (i : S64x8x256.Idx) :
    ∃ t : Fin cfg1.N, (cfg1.win 2).flush t = true ∧ i ∈ ((cfg1.win 2).blk t).view.set := by
  have hi0 : (i 0).val < 64 := (i 0).isLt
  have hi1 : (i 1).val < 8 := (i 1).isLt
  have hi2 : (i 2).val < 256 := (i 2).isLt
  have hN : cfg1.N = 16 := N1
  obtain ⟨t, ht⟩ : ∃ t : Fin cfg1.N, t.val = (i 0).val / 4 := ⟨⟨(i 0).val / 4, by rw [hN]; omega⟩, rfl⟩
  obtain ⟨-, -, -, -, -, -, e0, e1, e2⟩ := idx_facts1 t
  refine ⟨t, flush1_2 t, ?_⟩
  rw [mem_blk1_2]
  intro a
  match a with
  | ⟨0, _⟩ => show win1_2.index t (0 : Fin 3) * 4 ≤ (i 0).val ∧ (i 0).val < win1_2.index t (0 : Fin 3) * 4 + 4; rw [e0, ht]; omega
  | ⟨1, _⟩ => show win1_2.index t (1 : Fin 3) * 8 ≤ (i 1).val ∧ (i 1).val < win1_2.index t (1 : Fin 3) * 8 + 8; rw [e1]; omega
  | ⟨2, _⟩ => show win1_2.index t (2 : Fin 3) * 256 ≤ (i 2).val ∧ (i 2).val < win1_2.index t (2 : Fin 3) * 256 + 256; rw [e2]; omega

/-- After the region the output array is the whole-array attention rows of the arrays as the region found them. -/
theorem arr1_eq (c : Dev nD) :
    (dat1 (F := Ideal) V c).arrAt 2 cfg1.N = attnArr (V c main_v9) (V c main_arg1) :=
  (dat1 (F := Ideal) V c).arrAt_eq_of_cover 2 (attnArr (V c main_v9) (V c main_arg1))
    (fun t _ => flushed1_2_eq V c t) covered1_2

end KArr1Aux

/-- After the attention region its output array holds, at batch `b`, token `s`, column `j`, the attention row of
    the query `(b, s)` against cache slice `b`, both as the region found them. -/
theorem arr1_apply (V : (c : Dev nD) → (b : Ref sig .tc) → Buf (Elt Ideal) ((c : Thread nD τ).loc b)) (c : Dev nD) (b : Fin 64) (s : Fin 8) (j : Fin 256) :
    ((dat1 (F := Ideal) V c).arrAt 2 cfg1.N : S64x8x256.Idx → EReal) (ix3 b s j)
      = Cert.Spec.attnK (fun cc => (V c main_v9 : S64x8x256.Idx → EReal) (ix3 b s cc))
          (fun mm cc => (V c main_arg1 : S64x4096x256.Idx → EReal) (ix3 b mm cc)) j := by
  rw [KArr1Aux.arr1_eq V c]
  rfl

end Cert.KernelIdeal.KArr

end
-- ==== Proof.KVal2a.lean ====
import proofs.«164254_g8143257993987_cont_9to1c4b_560_10_alg».proof.Proof.Gen.KernelIdeal.Frame
import proofs.«164254_g8143257993987_cont_9to1c4b_560_10_alg».proof.Proof.Spec
import proofs.«164254_g8143257993987_cont_9to1c4b_560_10_alg».proof.Proof.LibColumn
import Idealize.ShloMosaic.Lib.ValueLayout
import Idealize.ShloMosaic.Lib.Pipeline.Value
import Idealize.ShloMosaic.PureOps.Ideal.Laws

noncomputable section

open scoped BigOperators

namespace Cert.KernelIdeal.KVal

open Cert.KernelIdeal Cert.KernelIdeal.Gen Idealize.ShloMosaic Idealize.ShloMosaic.TcCoe Idealize.ShloMosaic.ValueIdx Idealize.SL.Sem

/-- The two half rows side by side read, at row `r` and lane `k`, the combined row at `k`. -/
theorem concat_apply (x1 x2 : FVec Ideal S512x256 .f32) (r : Fin 512) (k : Fin 512) :
    concatenate S512x512 1 [⟨S512x256, x1⟩, ⟨S512x256, x2⟩] concatenates_S512x256_S512x256_S512x512_d1 (ix2 r k)
      = Cert.Spec.comb (fun j => x1 (ix2 r j)) (fun j => x2 (ix2 r j)) k := by
  unfold Cert.Spec.comb
  by_cases h : k.val < 256
  · rw [dif_pos h]
    exact concatenate_pair_apply_left (t := S512x512) (s₁ := S512x256) (s₂ := S512x256) 1 x1 x2 _ (ix2 r k) rfl
      (ix2 r ⟨k.val, h⟩) (fun b => by match b with | ⟨0, _⟩ => rfl | ⟨1, _⟩ => rfl)
  · rw [dif_neg h]
    exact concatenate_pair_apply_right (t := S512x512) (s₁ := S512x256) (s₂ := S512x256) 1 x1 x2 _ (ix2 r k) rfl rfl
      (ix2 r ⟨k.val - 256, by omega⟩)
      (fun b hb => by match b, hb with | ⟨0, _⟩, _ => rfl | ⟨1, _⟩, hb => exact absurd rfl hb)
      (by show (k.val - 256) + 256 = k.val; omega)

/-- A lane sum of a 512 by 512 block read at row `r`: the sum of that row's entries. -/
theorem rowSum_apply (v : FVec Ideal S512x512 .f32) (r : Fin 512) :
    multiReduction (F := Ideal) .add [1] S512 v 0x00000000#32 reduces_S512x512_S512 (.inl rfl) rfl (ix1 r)
      = ∑ k : Fin 512, v (ix2 r k) := by
  refine (Ideal.multiReduction_add_single v 0x00000000#32 reduces_S512x512_S512 (.inl rfl) rfl (ix1 r)).trans ?_
  refine Finset.sum_congr rfl fun k _ => congrArg v ?_
  funext c; match c with | ⟨0, _⟩ => rfl | ⟨1, _⟩ => rfl

/-- The row index of the hidden layer's left factor, off the contracted axis, is the result's row. -/
theorem hidDot_lhs_0 (j : S512x512.Idx) (q : dot_S512x512_S512x512_S512x512_1_0_0_1_n_n.contr.Idx) :
    (dot_S512x512_S512x512_S512x512_1_0_0_1_n_n.lhsIdx j q 0).val = (j 0).val := rfl
/-- On its contracted axis the left factor's index is the contraction position. -/
theorem hidDot_lhs_1 (j : S512x512.Idx) (q : dot_S512x512_S512x512_S512x512_1_0_0_1_n_n.contr.Idx) :
    (dot_S512x512_S512x512_S512x512_1_0_0_1_n_n.lhsIdx j q 1).val = (q ⟨0, by decide⟩).val := rfl
/-- On its contracted axis the right factor's index is the contraction position. -/
theorem hidDot_rhs_0 (j : S512x512.Idx) (q : dot_S512x512_S512x512_S512x512_1_0_0_1_n_n.contr.Idx) :
    (dot_S512x512_S512x512_S512x512_1_0_0_1_n_n.rhsIdx j q 0).val = (q ⟨0, by decide⟩).val := rfl
/-- The column index of the right factor is the result's column. -/
theorem hidDot_rhs_1 (j : S512x512.Idx) (q : dot_S512x512_S512x512_S512x512_1_0_0_1_n_n.contr.Idx) :
    (dot_S512x512_S512x512_S512x512_1_0_0_1_n_n.rhsIdx j q 1).val = (j 1).val := rfl

/-- The 512 by 512 product into zero read at `(r, n)`: the sum over `k` of `A r k * B k n`. -/
theorem hidDot_apply (A B : FVec Ideal S512x512 .f32) (r n : Fin 512) :
    matmul dot_S512x512_S512x512_S512x512_1_0_0_1_n_n none A B (constant (F := Ideal) S512x512 .f32 0x00000000#32) (ix2 r n)
      = ∑ k : Fin 512, A (ix2 r k) * B (ix2 k n) := by
  refine (Ideal.matmul_constant_zero_apply dot_S512x512_S512x512_S512x512_1_0_0_1_n_n none A B (ix2 r n)).trans ?_
  rw [← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have eL : dot_S512x512_S512x512_S512x512_1_0_0_1_n_n.lhsIdx (ix2 r n)
      ((contrEquiv1 dot_S512x512_S512x512_S512x512_1_0_0_1_n_n 512 rfl rfl).symm k) = ix2 r k := by
    funext a; refine Fin.ext ?_
    match a with
    | ⟨0, _⟩ => exact hidDot_lhs_0 _ _
    | ⟨1, _⟩ => exact (hidDot_lhs_1 _ _).trans hk
  have eR : dot_S512x512_S512x512_S512x512_1_0_0_1_n_n.rhsIdx (ix2 r n)
      ((contrEquiv1 dot_S512x512_S512x512_S512x512_1_0_0_1_n_n 512 rfl rfl).symm k) = ix2 k n := by
    funext a; refine Fin.ext ?_
    match a with
    | ⟨0, _⟩ => exact (hidDot_rhs_0 _ _).trans hk
    | ⟨1, _⟩ => exact hidDot_rhs_1 _ _
  rw [eL, eR]

namespace KVal2aAux

/-- A [1,512] row spread over 512 rows reads, at row `r` and lane `k`, the row's entry `k`. -/
theorem rowSpread_apply (row : FVec Ideal S1x512 .f32) (r k : Fin 512) :
    broadcastTo S512x512 row broadcasts_S1x512_S512x512 (ix2 r k) = row (ix2 (0 : Fin 1) k) := by
  refine broadcastTo_apply row broadcasts_S1x512_S512x512 (ix2 r k) (ix2 (0 : Fin 1) k) fun ax => ?_
  match ax with
  | ⟨0, _⟩ => rfl
  | ⟨1, _⟩ => rfl

/-- A square root at an index is the extended reals' square root of the element. -/
theorem sqrt_apply {s : Shape} (a : FVec Ideal s .f32) (i : s.Idx) : sqrt a i = Ideal.sqrt (a i) := rfl

/-- A logistic at an index is the extended reals' logistic of the element. -/
theorem logistic_apply {s : Shape} (a : FVec Ideal s .f32) (i : s.Idx) : logistic a i = Ideal.logistic (a i) := rfl

/-- The exact sum along the lanes of a 512 by 512 block read at row `r`: the sum of that row's entries. -/
theorem reduceAdd_row_apply (v : FVec Ideal S512x512 .f32) (r : Fin 512) :
    Ideal.reduceAdd reduces_S512x512_S512 v (ix1 r) = ∑ k : Fin 512, v (ix2 r k) :=
  rowSum_apply v r

end KVal2aAux

open KVal2aAux in
/-- The hidden activations `z · σ(z)` of the joined, layer-normalised row, at row `r` and unit `n`. -/
theorem k2_pay3_apply (v0 v2 : Vec Ideal S512x256 .f32) (v16 v27 : Vec Ideal S1x512 .f32) (v31 : Vec Ideal S512x512 .f32)
    (v33 : Vec Ideal S1x512 .f32) (r n : Fin 512) :
    k2_pay3 (F := Ideal) v0 v2 v16 v27 v31 v33 (ix2 r n)
      = Cert.Spec.siluK (Cert.Spec.hid (fun k n' => v31 (ix2 k n')) (fun n' => v33 (ix2 (0 : Fin 1) n'))
          (Cert.Spec.lnorm Cert.Spec.varK (fun k => v16 (ix2 (0 : Fin 1) k)) (fun k => v27 (ix2 (0 : Fin 1) k))
            (Cert.Spec.comb (fun j => v0 (ix2 r j)) (fun j => v2 (ix2 r j)))) n) := by
  -- the value as one term of the six loads, each lane sum as the exact sum over its axis
  unfold k2_pay3 k2_pay2
  delta multiReduction
  dsimp only
  -- read every operation at its index: the pointwise ones elementwise, the joined row as `comb`, a lane sum as
  -- the row's sum, a column spread over the lanes as the row's one entry, the product into zero as the sum over `k`;
  -- on the right the mean, the centred row, the variance, the normalisation and the linear layer by their definitions
  simp only [mulf_apply, addf_apply, subf_apply, divf_apply, sqrt_apply, logistic_apply, broadcast_apply,
    hidDot_apply, rowSpread_apply, Cert.LibColumn.broadcastTo_a1_ab_apply, Cert.LibColumn.shapeCast_a_a1_apply,
    Ideal.reduceAdd_def, reduceAdd_row_apply, shapeCast_self, concat_apply,
    Cert.Spec.siluK, Cert.Spec.hid, Cert.Spec.lnorm, Cert.Spec.cen, Cert.Spec.mean, Cert.Spec.varK]
  -- both sides are now the same expression; the splat words 512.0 and epsilon are the same words on both sides
  rfl

end Cert.KernelIdeal.KVal

end
-- ==== Proof.KVal2.lean ====
import proofs.«164254_g8143257993987_cont_9to1c4b_560_10_alg».proof.Proof.Gen.KernelIdeal.Frame
import proofs.«164254_g8143257993987_cont_9to1c4b_560_10_alg».proof.Proof.Spec
import proofs.«164254_g8143257993987_cont_9to1c4b_560_10_alg».proof.Proof.LibColumn
import proofs.«164254_g8143257993987_cont_9to1c4b_560_10_alg».proof.Proof.KVal2a
import Idealize.ShloMosaic.Lib.ValueLayout
import Idealize.ShloMosaic.Lib.Pipeline.Value
import Idealize.ShloMosaic.PureOps.Ideal.Laws

noncomputable section

open scoped BigOperators

namespace Cert.KernelIdeal.KVal

open Cert.KernelIdeal Cert.KernelIdeal.Gen Idealize.ShloMosaic Idealize.ShloMosaic.TcCoe Idealize.ShloMosaic.ValueIdx Idealize.SL.Sem

namespace KVal2

/-- A lane sum of a 512 by 512 block read at row `r`: the sum of that row's entries. -/
theorem laneSum_apply (v : FVec Ideal S512x512 .f32) (hφ : FKind.Formats .f32)
    (hacc : (0x00000000#32 : BitVec 32) = 0x00000000#32) (r : Fin 512) :
    multiReduction (F := Ideal) .add [1] S512 v 0x00000000#32 reduces_S512x512_S512 hφ hacc (ix1 r)
      = ∑ k : Fin 512, v (ix2 r k) := by
  refine (Ideal.multiReduction_add_single v 0x00000000#32 reduces_S512x512_S512 hφ hacc (ix1 r)).trans ?_
  refine Finset.sum_congr rfl fun k _ => congrArg v ?_
  funext c; match c with | ⟨0, _⟩ => rfl | ⟨1, _⟩ => rfl

/-- Off the contracted axis the context factor's index is the result's row. -/
theorem fuseDot_lhs_0 (j : S512x1024.Idx) (q : dot_S512x256_S256x1024_S512x1024_1_0_0_1_n_n.contr.Idx) :
    (dot_S512x256_S256x1024_S512x1024_1_0_0_1_n_n.lhsIdx j q 0).val = (j 0).val := rfl
/-- On its contracted axis the context factor's index is the contraction position. -/
theorem fuseDot_lhs_1 (j : S512x1024.Idx) (q : dot_S512x256_S256x1024_S512x1024_1_0_0_1_n_n.contr.Idx) :
    (dot_S512x256_S256x1024_S512x1024_1_0_0_1_n_n.lhsIdx j q 1).val = (q ⟨0, by decide⟩).val := rfl
/-- On its contracted axis the weight factor's index is the contraction position. -/
theorem fuseDot_rhs_0 (j : S512x1024.Idx) (q : dot_S512x256_S256x1024_S512x1024_1_0_0_1_n_n.contr.Idx) :
    (dot_S512x256_S256x1024_S512x1024_1_0_0_1_n_n.rhsIdx j q 0).val = (q ⟨0, by decide⟩).val := rfl
/-- The weight factor's column index is the result's column. -/
theorem fuseDot_rhs_1 (j : S512x1024.Idx) (q : dot_S512x256_S256x1024_S512x1024_1_0_0_1_n_n.contr.Idx) :
    (dot_S512x256_S256x1024_S512x1024_1_0_0_1_n_n.rhsIdx j q 1).val = (j 1).val := rfl

/-- The 512 by 256 times 256 by 1024 product into zero read at `(r, d)`: the sum over `j` of `A r j * B j d`. -/
theorem fuseDot_apply (A : FVec Ideal S512x256 .f32) (B : FVec Ideal S256x1024 .f32) (r : Fin 512) (d : Fin 1024) :
    matmul dot_S512x256_S256x1024_S512x1024_1_0_0_1_n_n none A B (constant (F := Ideal) S512x1024 .f32 0x00000000#32) (ix2 r d)
      = ∑ j : Fin 256, A (ix2 r j) * B (ix2 j d) := by
  refine (Ideal.matmul_constant_zero_apply dot_S512x256_S256x1024_S512x1024_1_0_0_1_n_n none A B (ix2 r d)).trans ?_
  rw [← Equiv.sum_comp (contrEquiv1 dot_S512x256_S256x1024_S512x1024_1_0_0_1_n_n 256 rfl rfl).symm]
  refine Finset.sum_congr rfl fun k _ => ?_
  have hk := contrEquiv1_symm_val dot_S512x256_S256x1024_S512x1024_1_0_0_1_n_n 256 rfl rfl k
  have eL : dot_S512x256_S256x1024_S512x1024_1_0_0_1_n_n.lhsIdx (ix2 r d) ((contrEquiv1 dot_S512x256_S256x1024_S512x1024_1_0_0_1_n_n 256 rfl rfl).symm k) = ix2 r k := by
    funext a; refine Fin.ext ?_
    match a with
    | ⟨0, _⟩ => exact fuseDot_lhs_0 _ _
    | ⟨1, _⟩ => exact (fuseDot_lhs_1 _ _).trans hk
  have eR : dot_S512x256_S256x1024_S512x1024_1_0_0_1_n_n.rhsIdx (ix2 r d) ((contrEquiv1 dot_S512x256_S256x1024_S512x1024_1_0_0_1_n_n 256 rfl rfl).symm k) = ix2 k d := by
    funext a; refine Fin.ext ?_
    match a with
    | ⟨0, _⟩ => exact (fuseDot_rhs_0 _ _).trans hk
    | ⟨1, _⟩ => exact fuseDot_rhs_1 _ _
  rw [eL, eR]

/-- The decided bit of "greater than the zero word", widened to a word and converted, is the hard gate:
    one where the logit is positive, zero elsewhere. -/
theorem gate_word (l : EReal) :
    (FloatOps.sitofp (F := Ideal) .f32 ((FloatOps.cmpf (F := Ideal) (φ := .f32) .ogt l (Scalar.ofBits (F := Ideal) .f32 0x00000000#32)).setWidth 32) : EReal)
      = Cert.Spec.gateK l := by
  unfold Cert.Spec.gateK
  show ((((Ideal.cmp .ogt l (Ideal.ofBits .f32 0x00000000#32)).setWidth 32).toInt : ℝ) : EReal) = _
  have hc : Ideal.cmp .ogt l (Ideal.ofBits .f32 0x00000000#32)
      = BitVec.ofBool (decide (Ideal.ofBits .f32 0x00000000#32 < l)) := rfl
  rw [hc]
  by_cases h : Ideal.ofBits .f32 0x00000000#32 < l
  · have e : ((BitVec.ofBool true).setWidth 32).toInt = 1 := by decide
    rw [if_pos h, decide_eq_true h, e]; simp
  · have e : ((BitVec.ofBool false).setWidth 32).toInt = 0 := by decide
    rw [if_neg h, decide_eq_false h, e]; simp

/-- The fused block at row `r`, column `d`: the input entry plus the hard gate of the row's logit times the
    context row through the output weights plus their bias. -/
theorem k2_pay1_apply (v3 : FVec Ideal S512x256 .f32) (v38 : FVec Ideal S512x512 .f32) (v39 : Vec Ideal S1x512 .f32)
    (v45 : Vec Ideal S1x1 .f32) (v53 : Vec Ideal S256x1024 .f32) (v55 : Vec Ideal S512x1024 .f32)
    (v57 : Vec Ideal S1x1024 .f32) (r : Fin 512) (d : Fin 1024) :
    k2_pay1 (F := Ideal) v3 v38 v39 v45 v53 v55 v57 (ix2 r d)
      = v55 (ix2 r d)
        + Cert.Spec.gateK (Cert.Spec.logit (fun n => v39 (ix2 (0 : Fin 1) n)) (v45 (ix2 (0 : Fin 1) (0 : Fin 1)))
            (fun n => v38 (ix2 r n)))
          * ((∑ j : Fin 256, v3 (ix2 r j) * v53 (ix2 j d)) + v57 (ix2 (0 : Fin 1) d)) := by
  unfold k2_pay1
  dsimp only
  simp only [shapeCast_self]
  simp only [addf_apply, mulf_apply, Cert.LibColumn.broadcastTo_a1_ab_apply, fuseDot_apply, broadcastTo_1b_ab_apply,
    sitofp_apply, extui_apply, cmpf_apply, broadcast_apply, Cert.LibColumn.shapeCast_a_a1_apply, laneSum_apply]
  rw [laneSum_apply]
  simp only [mulf_apply, broadcastTo_1b_ab_apply]
  rw [gate_word]
  rfl

/-- The offset of a whole-buffer access: zero on both axes. -/
theorem origin2 : (![0, 0] : Fin 2 → Nat) = fun _ => 0 := funext fun a => by fin_cases a <;> rfl

end KVal2

/-- The gate kernel's output block at row `r`, column `d`. -/
theorem out2_11_apply (x0 : Vec Ideal S512x1024 .f32) (x1 : Vec Ideal S512x256 .f32) (x2 : Vec Ideal S512x256 .f32)
    (x3 : Vec Ideal S1x512 .f32) (x4 : Vec Ideal S1x512 .f32) (x5 : Vec Ideal S512x512 .f32) (x6 : Vec Ideal S1x512 .f32)
    (x7 : Vec Ideal S1x512 .f32) (x8 : Vec Ideal S1x1 .f32) (x9 : Vec Ideal S256x1024 .f32) (x10 : Vec Ideal S1x1024 .f32)
    (r : Fin 512) (d : Fin 1024) :
    out2_11 (F := Ideal) x0 x1 x2 x3 x4 x5 x6 x7 x8 x9 x10 (ix2 r d)
      = Cert.Spec.outRow Cert.Spec.varK Cert.Spec.siluK Cert.Spec.gateK
          (fun d' => x0 (ix2 r d')) (fun j => x1 (ix2 r j)) (fun j => x2 (ix2 r j))
          (fun k => x3 (ix2 (0 : Fin 1) k)) (fun k => x4 (ix2 (0 : Fin 1) k)) (fun k n => x5 (ix2 k n))
          (fun n => x6 (ix2 (0 : Fin 1) n)) (fun n => x7 (ix2 (0 : Fin 1) n)) (x8 (ix2 (0 : Fin 1) (0 : Fin 1)))
          (fun j d' => x9 (ix2 j d')) (fun d' => x10 (ix2 (0 : Fin 1) d')) d := by
  unfold out2_11
  rw [View.canon_unit_zero KVal2.origin2]
  simp only [View.ld_unit_zero (S := S512x1024) KVal2.origin2, View.ld_unit_zero (S := S512x256) KVal2.origin2,
    View.ld_unit_zero (S := S1x512) KVal2.origin2, View.ld_unit_zero (S := S512x512) KVal2.origin2,
    View.ld_unit_zero (S := S1x1) KVal2.origin2, View.ld_unit_zero (S := S256x1024) KVal2.origin2,
    View.ld_unit_zero (S := S1x1024) KVal2.origin2]
  rw [KVal2.k2_pay1_apply]
  unfold k2_pay2
  simp only [shapeCast_self, k2_pay3_apply]
  rfl

end Cert.KernelIdeal.KVal

end
-- ==== Proof.KArr2.lean ====
import proofs.«164254_g8143257993987_cont_9to1c4b_560_10_alg».proof.Proof.KVal2
import Idealize.ShloMosaic.Lib.Pipeline.Value

noncomputable section

open scoped BigOperators

namespace Cert.KernelIdeal.KArr

open Cert.KernelIdeal Cert.KernelIdeal.Gen Idealize.ShloMosaic Idealize.ShloMosaic.TcCoe Idealize.ShloMosaic.ValueIdx Idealize.SL.Sem

/-! The gate region has one grid point and every window stages its whole array, so each block read back is the
    array itself, the one flushed block of the output is the body's result on the whole operands, and it covers the
    output array. -/

section
variable (V : (c : Dev nD) → (b : Ref sig .tc) → Buf (Elt Ideal) ((c : Thread nD τ).loc b))

/-- Window 0 of the region is the whole array at block index 0: its block read back is the array. -/
theorem iblk2_0 (c : Dev nD) (t : Fin cfg2.N) : iblk2 (F := Ideal) V c 0 t = V c main_v0 := by
  funext y
  show V c main_v0 (((cfg2.win 0).blk t).view.emb y) = V c main_v0 y
  refine congrArg _ (funext fun a => Fin.ext ?_)
  match a with
  | ⟨0, _⟩ => show 0 * 512 + 1 * (y 0).val = (y 0).val; omega
  | ⟨1, _⟩ => show 0 * 1024 + 1 * (y 1).val = (y 1).val; omega

/-- Window 1 of the region is the whole array at block index 0: its block read back is the array. -/
theorem iblk2_1 (c : Dev nD) (t : Fin cfg2.N) : iblk2 (F := Ideal) V c 1 t = V c main_v8 := by
  funext y
  show V c main_v8 (((cfg2.win 1).blk t).view.emb y) = V c main_v8 y
  refine congrArg _ (funext fun a => Fin.ext ?_)
  match a with
  | ⟨0, _⟩ => show 0 * 512 + 1 * (y 0).val = (y 0).val; omega
  | ⟨1, _⟩ => show 0 * 256 + 1 * (y 1).val = (y 1).val; omega

/-- Window 2 of the region is the whole array at block index 0: its block read back is the array. -/
theorem iblk2_2 (c : Dev nD) (t : Fin cfg2.N) : iblk2 (F := Ideal) V c 2 t = V c main_v11 := by
  funext y
  show V c main_v11 (((cfg2.win 2).blk t).view.emb y) = V c main_v11 y
  refine congrArg _ (funext fun a => Fin.ext ?_)
  match a with
  | ⟨0, _⟩ => show 0 * 512 + 1 * (y 0).val = (y 0).val; omega
  | ⟨1, _⟩ => show 0 * 256 + 1 * (y 1).val = (y 1).val; omega

/-- Window 3 of the region is the whole array at block index 0: its block read back is the array. -/
theorem iblk2_3 (c : Dev nD) (t : Fin cfg2.N) : iblk2 (F := Ideal) V c 3 t = V c main_v2 := by
  funext y
  show V c main_v2 (((cfg2.win 3).blk t).view.emb y) = V c main_v2 y
  refine congrArg _ (funext fun a => Fin.ext ?_)
  match a with
  | ⟨0, _⟩ => show 0 * 1 + 1 * (y 0).val = (y 0).val; omega
  | ⟨1, _⟩ => show 0 * 512 + 1 * (y 1).val = (y 1).val; omega

/-- Window 4 of the region is the whole array at block index 0: its block read back is the array. -/
theorem iblk2_4 (c : Dev nD) (t : Fin cfg2.N) : iblk2 (F := Ideal) V c 4 t = V c main_v3 := by
  funext y
  show V c main_v3 (((cfg2.win 4).blk t).view.emb y) = V c main_v3 y
  refine congrArg _ (funext fun a => Fin.ext ?_)
  match a with
  | ⟨0, _⟩ => show 0 * 1 + 1 * (y 0).val = (y 0).val; omega
  | ⟨1, _⟩ => show 0 * 512 + 1 * (y 1).val = (y 1).val; omega

/-- Window 5 of the region is the whole array at block index 0: its block read back is the array. -/
theorem iblk2_5 (c : Dev nD) (t : Fin cfg2.N) : iblk2 (F := Ideal) V c 5 t = V c main_arg6 := by
  funext y
  show V c main_arg6 (((cfg2.win 5).blk t).view.emb y) = V c main_arg6 y
  refine congrArg _ (funext fun a => Fin.ext ?_)
  match a with
  | ⟨0, _⟩ => show 0 * 512 + 1 * (y 0).val = (y 0).val; omega
  | ⟨1, _⟩ => show 0 * 512 + 1 * (y 1).val = (y 1).val; omega

/-- Window 6 of the region is the whole array at block index 0: its block read back is the array. -/
theorem iblk2_6 (c : Dev nD) (t : Fin cfg2.N) : iblk2 (F := Ideal) V c 6 t = V c main_v4 := by
  funext y
  show V c main_v4 (((cfg2.win 6).blk t).view.emb y) = V c main_v4 y
  refine congrArg _ (funext fun a => Fin.ext ?_)
  match a with
  | ⟨0, _⟩ => show 0 * 1 + 1 * (y 0).val = (y 0).val; omega
  | ⟨1, _⟩ => show 0 * 512 + 1 * (y 1).val = (y 1).val; omega

/-- Window 7 of the region is the whole array at block index 0: its block read back is the array. -/
theorem iblk2_7 (c : Dev nD) (t : Fin cfg2.N) : iblk2 (F := Ideal) V c 7 t = V c main_v5 := by
  funext y
  show V c main_v5 (((cfg2.win 7).blk t).view.emb y) = V c main_v5 y
  refine congrArg _ (funext fun a => Fin.ext ?_)
  match a with
  | ⟨0, _⟩ => show 0 * 1 + 1 * (y 0).val = (y 0).val; omega
  | ⟨1, _⟩ => show 0 * 512 + 1 * (y 1).val = (y 1).val; omega

/-- Window 8 of the region is the whole array at block index 0: its block read back is the array. -/
theorem iblk2_8 (c : Dev nD) (t : Fin cfg2.N) : iblk2 (F := Ideal) V c 8 t = V c main_v6 := by
  funext y
  show V c main_v6 (((cfg2.win 8).blk t).view.emb y) = V c main_v6 y
  refine congrArg _ (funext fun a => Fin.ext ?_)
  match a with
  | ⟨0, _⟩ => show 0 * 1 + 1 * (y 0).val = (y 0).val; omega
  | ⟨1, _⟩ => show 0 * 1 + 1 * (y 1).val = (y 1).val; omega

/-- Window 9 of the region is the whole array at block index 0: its block read back is the array. -/
theorem iblk2_9 (c : Dev nD) (t : Fin cfg2.N) : iblk2 (F := Ideal) V c 9 t = V c main_arg10 := by
  funext y
  show V c main_arg10 (((cfg2.win 9).blk t).view.emb y) = V c main_arg10 y
  refine congrArg _ (funext fun a => Fin.ext ?_)
  match a with
  | ⟨0, _⟩ => show 0 * 256 + 1 * (y 0).val = (y 0).val; omega
  | ⟨1, _⟩ => show 0 * 1024 + 1 * (y 1).val = (y 1).val; omega

/-- Window 10 of the region is the whole array at block index 0: its block read back is the array. -/
theorem iblk2_10 (c : Dev nD) (t : Fin cfg2.N) : iblk2 (F := Ideal) V c 10 t = V c main_v7 := by
  funext y
  show V c main_v7 (((cfg2.win 10).blk t).view.emb y) = V c main_v7 y
  refine congrArg _ (funext fun a => Fin.ext ?_)
  match a with
  | ⟨0, _⟩ => show 0 * 1 + 1 * (y 0).val = (y 0).val; omega
  | ⟨1, _⟩ => show 0 * 1024 + 1 * (y 1).val = (y 1).val; omega

/-- What the one point writes back is the body's result on the operands as the region found them, read through the
    output's (whole) block. -/
theorem flushed2_11 (c : Dev nD) (t : Fin cfg2.N) :
    (dat2 (F := Ideal) V c).flushed 11 t
      = ((cfg2.win 11).blk t).view.read (Elt Ideal) (out2_11 (F := Ideal) (V c main_v0) (V c main_v8) (V c main_v11) (V c main_v2) (V c main_v3) (V c main_arg6) (V c main_v4) (V c main_v5) (V c main_v6) (V c main_arg10) (V c main_v7)) := by
  show (cfg2.win 11).cut (grid2.coords t) ((dat2 V c).after 11 t) = _
  rw [after2_11, iblk2_0, iblk2_1, iblk2_2, iblk2_3, iblk2_4, iblk2_5, iblk2_6, iblk2_7, iblk2_8, iblk2_9, iblk2_10]
  generalize out2_11 (F := Ideal) (V c main_v0) (V c main_v8) (V c main_v11) (V c main_v2) (V c main_v3) (V c main_arg6) (V c main_v4) (V c main_v5) (V c main_v6) (V c main_arg10) (V c main_v7) = X
  funext y
  show X y = X (((cfg2.win 11).blk t).view.emb y)
  refine congrArg X (funext fun a => Fin.ext ?_)
  match a with
  | ⟨0, _⟩ => show (y 0).val = 0 * 512 + 1 * (y 0).val; omega
  | ⟨1, _⟩ => show (y 1).val = 0 * 1024 + 1 * (y 1).val; omega

/-- An index of the output array is in the point's block iff each coordinate is in the block's range on its axis. -/
theorem mem_blk2_11 (t : Fin cfg2.N) (i : S512x1024.Idx) :
    i ∈ ((cfg2.win 11).blk t).view.set
      ↔ ∀ a : Fin 2, win2_11.index t a * S512x1024.size a ≤ (i a).val ∧ (i a).val < win2_11.index t a * S512x1024.size a + S512x1024.size a := by
  show i ∈ ((View.whole main_v12).slice (win2_11.rect t)).set ↔ _
  rw [View.set_slice_whole, Rect.mem_set_unit]
  exact Iff.rfl

/-- The output array after the region: the body's result on the whole operands. -/
theorem arr2 (c : Dev nD) :
    (dat2 (F := Ideal) V c).arrAt 11 cfg2.N = out2_11 (F := Ideal) (V c main_v0) (V c main_v8) (V c main_v11) (V c main_v2) (V c main_v3) (V c main_arg6) (V c main_v4) (V c main_v5) (V c main_v6) (V c main_arg10) (V c main_v7) :=
  (dat2 (F := Ideal) V c).arrAt_eq_of_cover 11 _ (fun t _ => flushed2_11 V c t) fun i => ⟨t2_0, flush2_11 _, by
    rw [mem_blk2_11]
    intro a
    match a with
    | ⟨0, _⟩ =>
      show 0 * 512 ≤ (i 0).val ∧ (i 0).val < 0 * 512 + 512
      have h : (i 0).val < 512 := (i 0).isLt
      omega
    | ⟨1, _⟩ =>
      show 0 * 1024 ≤ (i 1).val ∧ (i 1).val < 0 * 1024 + 1024
      have h : (i 1).val < 1024 := (i 1).isLt
      omega⟩

end

/-- After the gate region its output array holds, at row `r` and column `d`, the fused row of the operands' rows `r`
    as the region found them. -/
theorem arr2_apply (V : (c : Dev nD) → (b : Ref sig .tc) → Buf (Elt Ideal) ((c : Thread nD τ).loc b)) (c : Dev nD) (r : Fin 512) (d : Fin 1024) :
    ((dat2 (F := Ideal) V c).arrAt 11 cfg2.N : S512x1024.Idx → EReal) (ix2 r d)
      = Cert.Spec.outRow Cert.Spec.varK Cert.Spec.siluK Cert.Spec.gateK
          (fun d' => (V c main_v0 : S512x1024.Idx → EReal) (ix2 r d'))
          (fun j => (V c main_v8 : S512x256.Idx → EReal) (ix2 r j))
          (fun j => (V c main_v11 : S512x256.Idx → EReal) (ix2 r j))
          (fun k => (V c main_v2 : S1x512.Idx → EReal) (ix2 (0 : Fin 1) k))
          (fun k => (V c main_v3 : S1x512.Idx → EReal) (ix2 (0 : Fin 1) k))
          (fun k n => (V c main_arg6 : S512x512.Idx → EReal) (ix2 k n))
          (fun n => (V c main_v4 : S1x512.Idx → EReal) (ix2 (0 : Fin 1) n))
          (fun n => (V c main_v5 : S1x512.Idx → EReal) (ix2 (0 : Fin 1) n))
          ((V c main_v6 : S1x1.Idx → EReal) (ix2 (0 : Fin 1) (0 : Fin 1)))
          (fun j d' => (V c main_arg10 : S256x1024.Idx → EReal) (ix2 j d'))
          (fun d' => (V c main_v7 : S1x1024.Idx → EReal) (ix2 (0 : Fin 1) d')) d :=
  (congrFun (arr2 V c) (ix2 r d)).trans
    (Cert.KernelIdeal.KVal.out2_11_apply (V c main_v0) (V c main_v8) (V c main_v11) (V c main_v2) (V c main_v3)
      (V c main_arg6) (V c main_v4) (V c main_v5) (V c main_v6) (V c main_arg10) (V c main_v7) r d)

end Cert.KernelIdeal.KArr

end
-- ==== Proof.KWalk.lean ====
import proofs.«164254_g8143257993987_cont_9to1c4b_560_10_alg».proof.Proof.KArr0
import proofs.«164254_g8143257993987_cont_9to1c4b_560_10_alg».proof.Proof.KArr1
import proofs.«164254_g8143257993987_cont_9to1c4b_560_10_alg».proof.Proof.KArr2

noncomputable section

open scoped BigOperators

namespace Cert.KernelIdeal.KWalk

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-! The result buffer is followed back through the run, boundary by boundary. Every buffer the three regions read is
    identified, at coordinates, with the launch contents of an argument or with an earlier region's output: a view keeps
    the row-major position, a buffer nobody writes keeps its contents, and a region's output array holds what that region's
    own theorem says. -/

/-! ## Merging and splitting the two leading axes, and rows viewed as vectors -/

/-- Row `8 b + s` of a 512-row array: the place of token `s` of batch `b` when the two leading axes are merged. -/
def row (b : Fin 64) (s : Fin 8) : Fin 512 := ⟨8 * b.val + s.val, by have := b.isLt; have := s.isLt; omega⟩

section Casts
variable {α : Type}

/-- A `[512, n]` array viewed as `[64, 8, n]` reads, at `(b, s, d)`, the array at `(8 b + s, d)`: both have row-major
    position `(8 b + s) n + d`. -/
theorem shapeCast_split_apply {n : ℕ} (x : (⟨2, ![512, n]⟩ : Shape).Idx → α)
    (h : (⟨2, ![512, n]⟩ : Shape).ShapeCasts ⟨3, ![64, 8, n]⟩) (b : Fin 64) (s : Fin 8) (d : Fin n) :
    shapeCast ⟨3, ![64, 8, n]⟩ x h (ix3 b s d) = x (ix2 (row b s) d) :=
  shapeCast_apply x h _ _ (by
    rw [Shape.rowMajor_val_two, Shape.rowMajor_val_three]
    show (8 * b.val + s.val) * n + d.val = (b.val * 8 + s.val) * n + d.val
    rw [Nat.mul_comm 8 b.val])

/-- A `[64, 8, n]` array viewed as `[512, n]` reads, at `(8 b + s, d)`, the array at `(b, s, d)`. -/
theorem shapeCast_merge_apply {n : ℕ} (x : (⟨3, ![64, 8, n]⟩ : Shape).Idx → α)
    (h : (⟨3, ![64, 8, n]⟩ : Shape).ShapeCasts ⟨2, ![512, n]⟩) (b : Fin 64) (s : Fin 8) (d : Fin n) :
    shapeCast ⟨2, ![512, n]⟩ x h (ix2 (row b s) d) = x (ix3 b s d) :=
  shapeCast_apply x h _ _ (by
    rw [Shape.rowMajor_val_two, Shape.rowMajor_val_three]
    show (b.val * 8 + s.val) * n + d.val = (8 * b.val + s.val) * n + d.val
    rw [Nat.mul_comm 8 b.val])

/-- An `[a]` vector viewed as the one row `[1, a]` reads, at `(0, i)`, the vector at `i`. -/
theorem shapeCast_a_1a_apply {a : ℕ} (x : (⟨1, ![a]⟩ : Shape).Idx → α)
    (h : (⟨1, ![a]⟩ : Shape).ShapeCasts ⟨2, ![1, a]⟩) (i : Fin a) :
    shapeCast ⟨2, ![1, a]⟩ x h (ix2 (0 : Fin 1) i) = x (ix1 i) :=
  shapeCast_apply x h _ _ (by
    rw [Shape.rowMajor_val_two, Shape.rowMajor_val_one]
    show i.val = 0 * a + i.val
    rw [Nat.zero_mul, Nat.zero_add])

/-- An `[a, 1]` column viewed as the one row `[1, a]` reads, at `(0, i)`, the column at `(i, 0)`. -/
theorem shapeCast_a1_1a_apply {a : ℕ} (x : (⟨2, ![a, 1]⟩ : Shape).Idx → α)
    (h : (⟨2, ![a, 1]⟩ : Shape).ShapeCasts ⟨2, ![1, a]⟩) (i : Fin a) :
    shapeCast ⟨2, ![1, a]⟩ x h (ix2 (0 : Fin 1) i) = x (ix2 i (0 : Fin 1)) :=
  shapeCast_apply x h _ _ (by
    rw [Shape.rowMajor_val_two, Shape.rowMajor_val_two]
    show i.val * 1 + 0 = 0 * a + i.val
    rw [Nat.zero_mul, Nat.zero_add, Nat.mul_one, Nat.add_zero])

end Casts

/-! ## The eight views taken before the first region, read at coordinates -/

/-- The input viewed as `[512, 1024]`. -/
theorem W1_v0_eq (c : Dev nD) :
    (W1 (F := Ideal) m ρ c (Proc.devRef .tc main_v0) : S512x1024.Idx → EReal)
      = shapeCast S512x1024 (m ((c : Thread nD τ).loc main_arg0) : S64x8x1024.Idx → EReal) shapeCasts_S64x8x1024_S512x1024 := by
  show StableHlo.after hostOps0 _ (Proc.devRef .tc main_v0) = _
  after_results
  rfl

/-- Row `8 b + s` of the merged input is the input's row `(b, s)`. -/
theorem W1_v0_apply (c : Dev nD) (b : Fin 64) (s : Fin 8) (d : Fin 1024) :
    (W1 (F := Ideal) m ρ c (Proc.devRef .tc main_v0) : S512x1024.Idx → EReal) (ix2 (row b s) d)
      = (m ((c : Thread nD τ).loc main_arg0) : S64x8x1024.Idx → EReal) (ix3 b s d) :=
  (congrFun (W1_v0_eq m ρ c) _).trans (shapeCast_merge_apply _ _ b s d)

/-- The projection's bias viewed as one row. -/
theorem W1_v1_eq (c : Dev nD) :
    (W1 (F := Ideal) m ρ c (Proc.devRef .tc main_v1) : S1x256.Idx → EReal)
      = shapeCast S1x256 (m ((c : Thread nD τ).loc main_arg3) : S256.Idx → EReal) shapeCasts_S256_S1x256 := by
  show StableHlo.after hostOps0 _ (Proc.devRef .tc main_v1) = _
  after_results
  rfl

/-- Entry `(0, j)` of that row is the bias at `j`. -/
theorem W1_v1_apply (c : Dev nD) (j : Fin 256) :
    (W1 (F := Ideal) m ρ c (Proc.devRef .tc main_v1) : S1x256.Idx → EReal) (ix2 (0 : Fin 1) j)
      = (m ((c : Thread nD τ).loc main_arg3) : S256.Idx → EReal) (ix1 j) :=
  (congrFun (W1_v1_eq m ρ c) _).trans (shapeCast_a_1a_apply _ _ j)

/-- The normalisation's scale viewed as one row. -/
theorem W1_v2_eq (c : Dev nD) :
    (W1 (F := Ideal) m ρ c (Proc.devRef .tc main_v2) : S1x512.Idx → EReal)
      = shapeCast S1x512 (m ((c : Thread nD τ).loc main_arg4) : S512.Idx → EReal) shapeCasts_S512_S1x512 := by
  show StableHlo.after hostOps0 _ (Proc.devRef .tc main_v2) = _
  after_results
  rfl

/-- Entry `(0, k)` of that row is the scale at `k`. -/
theorem W1_v2_apply (c : Dev nD) (k : Fin 512) :
    (W1 (F := Ideal) m ρ c (Proc.devRef .tc main_v2) : S1x512.Idx → EReal) (ix2 (0 : Fin 1) k)
      = (m ((c : Thread nD τ).loc main_arg4) : S512.Idx → EReal) (ix1 k) :=
  (congrFun (W1_v2_eq m ρ c) _).trans (shapeCast_a_1a_apply _ _ k)

/-- The normalisation's shift viewed as one row. -/
theorem W1_v3_eq (c : Dev nD) :
    (W1 (F := Ideal) m ρ c (Proc.devRef .tc main_v3) : S1x512.Idx → EReal)
      = shapeCast S1x512 (m ((c : Thread nD τ).loc main_arg5) : S512.Idx → EReal) shapeCasts_S512_S1x512 := by
  show StableHlo.after hostOps0 _ (Proc.devRef .tc main_v3) = _
  after_results
  rfl

/-- Entry `(0, k)` of that row is the shift at `k`. -/
theorem W1_v3_apply (c : Dev nD) (k : Fin 512) :
    (W1 (F := Ideal) m ρ c (Proc.devRef .tc main_v3) : S1x512.Idx → EReal) (ix2 (0 : Fin 1) k)
      = (m ((c : Thread nD τ).loc main_arg5) : S512.Idx → EReal) (ix1 k) :=
  (congrFun (W1_v3_eq m ρ c) _).trans (shapeCast_a_1a_apply _ _ k)

/-- The hidden layer's bias viewed as one row. -/
theorem W1_v4_eq (c : Dev nD) :
    (W1 (F := Ideal) m ρ c (Proc.devRef .tc main_v4) : S1x512.Idx → EReal)
      = shapeCast S1x512 (m ((c : Thread nD τ).loc main_arg7) : S512.Idx → EReal) shapeCasts_S512_S1x512 := by
  show StableHlo.after hostOps0 _ (Proc.devRef .tc main_v4) = _
  after_results
  rfl

/-- Entry `(0, n)` of that row is the bias at `n`. -/
theorem W1_v4_apply (c : Dev nD) (n : Fin 512) :
    (W1 (F := Ideal) m ρ c (Proc.devRef .tc main_v4) : S1x512.Idx → EReal) (ix2 (0 : Fin 1) n)
      = (m ((c : Thread nD τ).loc main_arg7) : S512.Idx → EReal) (ix1 n) :=
  (congrFun (W1_v4_eq m ρ c) _).trans (shapeCast_a_1a_apply _ _ n)

/-- The logit's weight column viewed as one row. -/
theorem W1_v5_eq (c : Dev nD) :
    (W1 (F := Ideal) m ρ c (Proc.devRef .tc main_v5) : S1x512.Idx → EReal)
      = shapeCast S1x512 (m ((c : Thread nD τ).loc main_arg8) : S512x1.Idx → EReal) shapeCasts_S512x1_S1x512 := by
  show StableHlo.after hostOps0 _ (Proc.devRef .tc main_v5) = _
  after_results
  rfl

/-- Entry `(0, n)` of that row is the column's entry `(n, 0)`. -/
theorem W1_v5_apply (c : Dev nD) (n : Fin 512) :
    (W1 (F := Ideal) m ρ c (Proc.devRef .tc main_v5) : S1x512.Idx → EReal) (ix2 (0 : Fin 1) n)
      = (m ((c : Thread nD τ).loc main_arg8) : S512x1.Idx → EReal) (ix2 n (0 : Fin 1)) :=
  (congrFun (W1_v5_eq m ρ c) _).trans (shapeCast_a1_1a_apply _ _ n)

/-- The logit's bias viewed as a `[1, 1]` array. -/
theorem W1_v6_eq (c : Dev nD) :
    (W1 (F := Ideal) m ρ c (Proc.devRef .tc main_v6) : S1x1.Idx → EReal)
      = shapeCast S1x1 (m ((c : Thread nD τ).loc main_arg9) : S1.Idx → EReal) shapeCasts_S1_S1x1 := by
  show StableHlo.after hostOps0 _ (Proc.devRef .tc main_v6) = _
  after_results
  rfl

/-- Its one entry is the bias. -/
theorem W1_v6_apply (c : Dev nD) :
    (W1 (F := Ideal) m ρ c (Proc.devRef .tc main_v6) : S1x1.Idx → EReal) (ix2 (0 : Fin 1) (0 : Fin 1))
      = (m ((c : Thread nD τ).loc main_arg9) : S1.Idx → EReal) (ix1 (0 : Fin 1)) :=
  (congrFun (W1_v6_eq m ρ c) _).trans (shapeCast_a_1a_apply _ _ (0 : Fin 1))

/-- The output layer's bias viewed as one row. -/
theorem W1_v7_eq (c : Dev nD) :
    (W1 (F := Ideal) m ρ c (Proc.devRef .tc main_v7) : S1x1024.Idx → EReal)
      = shapeCast S1x1024 (m ((c : Thread nD τ).loc main_arg11) : S1024.Idx → EReal) shapeCasts_S1024_S1x1024 := by
  show StableHlo.after hostOps0 _ (Proc.devRef .tc main_v7) = _
  after_results
  rfl

/-- Entry `(0, d)` of that row is the bias at `d`. -/
theorem W1_v7_apply (c : Dev nD) (d : Fin 1024) :
    (W1 (F := Ideal) m ρ c (Proc.devRef .tc main_v7) : S1x1024.Idx → EReal) (ix2 (0 : Fin 1) d)
      = (m ((c : Thread nD τ).loc main_arg11) : S1024.Idx → EReal) (ix1 d) :=
  (congrFun (W1_v7_eq m ρ c) _).trans (shapeCast_a_1a_apply _ _ d)

/-! ## The three views taken between and after the regions -/

/-- The attention region's query operand is the projection region's output viewed as `[64, 8, 256]`. -/
theorem W3_v9_eq (c : Dev nD) :
    (W3 (F := Ideal) m ρ c (Proc.devRef .tc main_v9) : S64x8x256.Idx → EReal)
      = shapeCast S64x8x256 (W2 (F := Ideal) m ρ c (Proc.devRef .tc main_v8) : S512x256.Idx → EReal) shapeCasts_S512x256_S64x8x256 := by
  show StableHlo.after hostOps1 _ (Proc.devRef .tc main_v9) = _
  after_results
  rfl

/-- The last region's attention operand is the attention region's output viewed as `[512, 256]`. -/
theorem W5_v11_eq (c : Dev nD) :
    (W5 (F := Ideal) m ρ c (Proc.devRef .tc main_v11) : S512x256.Idx → EReal)
      = shapeCast S512x256 (W4 (F := Ideal) m ρ c (Proc.devRef .tc main_v10) : S64x8x256.Idx → EReal) shapeCasts_S64x8x256_S512x256 := by
  show StableHlo.after hostOps2 _ (Proc.devRef .tc main_v11) = _
  after_results
  rfl

/-- The result buffer is the last region's output viewed as `[64, 8, 1024]`. -/
theorem W7_v13_eq (c : Dev nD) :
    (W7 (F := Ideal) m ρ c (Proc.devRef .tc main_v13) : S64x8x1024.Idx → EReal)
      = shapeCast S64x8x1024 (W6 (F := Ideal) m ρ c (Proc.devRef .tc main_v12) : S512x1024.Idx → EReal) shapeCasts_S512x1024_S64x8x1024 := by
  show StableHlo.after hostOps3 _ (Proc.devRef .tc main_v13) = _
  after_results
  rfl

/-! ## Buffers carried unchanged from one boundary to the next -/

/-- A buffer that none of the eight entry views writes holds its launch contents at the first region's entry. -/
theorem W1_of_ne (c : Dev nD) (x : Ref sig .tc) (h0 : x ≠ main_v0) (h1 : x ≠ main_v1) (h2 : x ≠ main_v2) (h3 : x ≠ main_v3)
    (h4 : x ≠ main_v4) (h5 : x ≠ main_v5) (h6 : x ≠ main_v6) (h7 : x ≠ main_v7) :
    W1 (F := Ideal) m ρ c (Proc.devRef .tc x) = m ((c : Thread nD τ).loc x) :=
  (StableHlo.after_of_forall_not_mem (b := Proc.devRef .tc x) _ _ (List.forall_iff_forall_mem.mp (by
      simp only [hostOps0, List.Forall, StableHlo.reshape_writes, Finset.mem_singleton]
      exact ⟨StableHlo.devRef_ne_of_ne h0, StableHlo.devRef_ne_of_ne h1, StableHlo.devRef_ne_of_ne h2,
        StableHlo.devRef_ne_of_ne h3, StableHlo.devRef_ne_of_ne h4, StableHlo.devRef_ne_of_ne h5,
        StableHlo.devRef_ne_of_ne h6, StableHlo.devRef_ne_of_ne h7⟩))).trans rfl

/-- The view taken between the first two regions writes only its own result. -/
theorem W3_of_ne (c : Dev nD) (x : Ref sig .tc) (h : x ≠ main_v9) :
    W3 (F := Ideal) m ρ c (Proc.devRef .tc x) = W2 m ρ c (Proc.devRef .tc x) :=
  StableHlo.reshape_result_ne main_v8 main_v9 _ _ _ _ (W2 m ρ c) h

/-- The view taken between the last two regions writes only its own result. -/
theorem W5_of_ne (c : Dev nD) (x : Ref sig .tc) (h : x ≠ main_v11) :
    W5 (F := Ideal) m ρ c (Proc.devRef .tc x) = W4 m ρ c (Proc.devRef .tc x) :=
  StableHlo.reshape_result_ne main_v10 main_v11 _ _ _ _ (W4 m ρ c) h

/-- A buffer the attention region does not stage, and neither view around it writes, enters the last region as it left the
    first. -/
theorem W5_eq_W2 (c : Dev nD) (x : Ref sig .tc) (h11 : x ≠ main_v11) (h1 : ∀ w, Pipeline.arrRef spec1 w ≠ x) (h9 : x ≠ main_v9) :
    W5 (F := Ideal) m ρ c (Proc.devRef .tc x) = W2 m ρ c (Proc.devRef .tc x) :=
  (W5_of_ne m ρ c x h11).trans ((W4_of_ne m ρ c x h1).trans (W3_of_ne m ρ c x h9))

/-- The merged input, an operand of the first region, leaves it as it entered. -/
theorem W2_v0 (c : Dev nD) :
    W2 (F := Ideal) m ρ c (Proc.devRef .tc main_v0) = W1 m ρ c (Proc.devRef .tc main_v0) :=
  (W2_arr m ρ c 0).trans (((dat0 (V1 m ρ) c).arrAt_in 0 rfl _).trans (A_eq0 (V1 m ρ) c 0))

/-- The projection's weight enters the first region as launched. -/
theorem W1_arg2 (c : Dev nD) : W1 (F := Ideal) m ρ c (Proc.devRef .tc main_arg2) = m ((c : Thread nD τ).loc main_arg2) :=
  W1_of_ne m ρ c main_arg2 (by decide) (by decide) (by decide) (by decide) (by decide) (by decide) (by decide) (by decide)

/-- The cache enters the attention region as launched. -/
theorem W3_arg1 (c : Dev nD) : W3 (F := Ideal) m ρ c (Proc.devRef .tc main_arg1) = m ((c : Thread nD τ).loc main_arg1) :=
  (W3_of_ne m ρ c main_arg1 (by decide)).trans ((W2_of_ne m ρ c main_arg1 (by decide)).trans
    (W1_of_ne m ρ c main_arg1 (by decide) (by decide) (by decide) (by decide) (by decide) (by decide) (by decide) (by decide)))

/-- The merged input enters the last region as the entry view left it. -/
theorem W5_v0 (c : Dev nD) : W5 (F := Ideal) m ρ c (Proc.devRef .tc main_v0) = W1 m ρ c (Proc.devRef .tc main_v0) :=
  (W5_eq_W2 m ρ c main_v0 (by decide) (by decide) (by decide)).trans (W2_v0 m ρ c)

/-- A buffer that no region before the last stages, and no view after the entry writes, enters the last region as the entry
    views left it. -/
theorem W5_eq_W1 (c : Dev nD) (x : Ref sig .tc) (h11 : x ≠ main_v11) (h1 : ∀ w, Pipeline.arrRef spec1 w ≠ x) (h9 : x ≠ main_v9)
    (h0 : ∀ w, Pipeline.arrRef spec0 w ≠ x) :
    W5 (F := Ideal) m ρ c (Proc.devRef .tc x) = W1 m ρ c (Proc.devRef .tc x) :=
  (W5_eq_W2 m ρ c x h11 h1 h9).trans (W2_of_ne m ρ c x h0)

/-- The hidden layer's weight enters the last region as launched. -/
theorem W5_arg6 (c : Dev nD) : W5 (F := Ideal) m ρ c (Proc.devRef .tc main_arg6) = m ((c : Thread nD τ).loc main_arg6) :=
  (W5_eq_W1 m ρ c main_arg6 (by decide) (by decide) (by decide) (by decide)).trans
    (W1_of_ne m ρ c main_arg6 (by decide) (by decide) (by decide) (by decide) (by decide) (by decide) (by decide) (by decide))

/-- The output layer's weight enters the last region as launched. -/
theorem W5_arg10 (c : Dev nD) : W5 (F := Ideal) m ρ c (Proc.devRef .tc main_arg10) = m ((c : Thread nD τ).loc main_arg10) :=
  (W5_eq_W1 m ρ c main_arg10 (by decide) (by decide) (by decide) (by decide)).trans
    (W1_of_ne m ρ c main_arg10 (by decide) (by decide) (by decide) (by decide) (by decide) (by decide) (by decide) (by decide))

/-! ## The three regions' outputs, read back to the launch contents -/

/-- After the projection region, row `8 b + s` of its output is the projection of the input's row `(b, s)`. -/
theorem W2_v8_apply (c : Dev nD) (b : Fin 64) (s : Fin 8) (j : Fin 256) :
    (W2 (F := Ideal) m ρ c (Proc.devRef .tc main_v8) : S512x256.Idx → EReal) (ix2 (row b s) j)
      = Cert.Spec.proj (fun d => (m ((c : Thread nD τ).loc main_arg0) : S64x8x1024.Idx → EReal) (ix3 b s d))
          (fun d j' => (m ((c : Thread nD τ).loc main_arg2) : S1024x256.Idx → EReal) (ix2 d j'))
          (fun j' => (m ((c : Thread nD τ).loc main_arg3) : S256.Idx → EReal) (ix1 j')) j := by
  have e0 : (fun d => (V1 (F := Ideal) m ρ c main_v0 : S512x1024.Idx → EReal) (ix2 (row b s) d))
      = fun d => (m ((c : Thread nD τ).loc main_arg0) : S64x8x1024.Idx → EReal) (ix3 b s d) :=
    funext fun d => W1_v0_apply m ρ c b s d
  have e2 : (fun d j' => (V1 (F := Ideal) m ρ c main_arg2 : S1024x256.Idx → EReal) (ix2 d j'))
      = fun d j' => (m ((c : Thread nD τ).loc main_arg2) : S1024x256.Idx → EReal) (ix2 d j') :=
    funext fun d => funext fun j' => congrFun (W1_arg2 m ρ c) (ix2 d j')
  have e1 : (fun j' => (V1 (F := Ideal) m ρ c main_v1 : S1x256.Idx → EReal) (ix2 (0 : Fin 1) j'))
      = fun j' => (m ((c : Thread nD τ).loc main_arg3) : S256.Idx → EReal) (ix1 j') :=
    funext fun j' => W1_v1_apply m ρ c j'
  refine (congrFun (W2_arr m ρ c 3) (ix2 (row b s) j)).trans ((KArr.arr0_apply (V1 m ρ) c (row b s) j).trans ?_)
  rw [e0, e2, e1]

/-- After the attention region its output at `(b, s)` is the attention row of the projected input row `(b, s)` against cache
    slice `b`. -/
theorem W4_v10_apply (c : Dev nD) (b : Fin 64) (s : Fin 8) (j : Fin 256) :
    (W4 (F := Ideal) m ρ c (Proc.devRef .tc main_v10) : S64x8x256.Idx → EReal) (ix3 b s j)
      = Cert.Spec.attnK
          (Cert.Spec.proj (fun d => (m ((c : Thread nD τ).loc main_arg0) : S64x8x1024.Idx → EReal) (ix3 b s d))
            (fun d j' => (m ((c : Thread nD τ).loc main_arg2) : S1024x256.Idx → EReal) (ix2 d j'))
            (fun j' => (m ((c : Thread nD τ).loc main_arg3) : S256.Idx → EReal) (ix1 j')))
          (fun mm cc => (m ((c : Thread nD τ).loc main_arg1) : S64x4096x256.Idx → EReal) (ix3 b mm cc)) j := by
  have e9 : (fun cc => (V3 (F := Ideal) m ρ c main_v9 : S64x8x256.Idx → EReal) (ix3 b s cc))
      = Cert.Spec.proj (fun d => (m ((c : Thread nD τ).loc main_arg0) : S64x8x1024.Idx → EReal) (ix3 b s d))
          (fun d j' => (m ((c : Thread nD τ).loc main_arg2) : S1024x256.Idx → EReal) (ix2 d j'))
          (fun j' => (m ((c : Thread nD τ).loc main_arg3) : S256.Idx → EReal) (ix1 j')) :=
    funext fun cc => ((congrFun (W3_v9_eq m ρ c) (ix3 b s cc)).trans (shapeCast_split_apply _ _ b s cc)).trans
      (W2_v8_apply m ρ c b s cc)
  have e1 : (fun mm cc => (V3 (F := Ideal) m ρ c main_arg1 : S64x4096x256.Idx → EReal) (ix3 b mm cc))
      = fun mm cc => (m ((c : Thread nD τ).loc main_arg1) : S64x4096x256.Idx → EReal) (ix3 b mm cc) :=
    funext fun mm => funext fun cc => congrFun (W3_arg1 m ρ c) (ix3 b mm cc)
  refine (congrFun (W4_arr m ρ c 2) (ix3 b s j)).trans ((KArr.arr1_apply (V3 m ρ) c b s j).trans ?_)
  rw [e9, e1]

/-! ## The last region's eleven operands as it finds them -/

/-- The input row. -/
theorem V5_v0_row (c : Dev nD) (b : Fin 64) (s : Fin 8) :
    (fun d' => (V5 (F := Ideal) m ρ c main_v0 : S512x1024.Idx → EReal) (ix2 (row b s) d'))
      = fun d' => (m ((c : Thread nD τ).loc main_arg0) : S64x8x1024.Idx → EReal) (ix3 b s d') :=
  funext fun d' => (congrFun (W5_v0 m ρ c) (ix2 (row b s) d')).trans (W1_v0_apply m ρ c b s d')

/-- The projected row. -/
theorem V5_v8_row (c : Dev nD) (b : Fin 64) (s : Fin 8) :
    (fun j => (V5 (F := Ideal) m ρ c main_v8 : S512x256.Idx → EReal) (ix2 (row b s) j))
      = Cert.Spec.proj (fun d => (m ((c : Thread nD τ).loc main_arg0) : S64x8x1024.Idx → EReal) (ix3 b s d))
          (fun d j' => (m ((c : Thread nD τ).loc main_arg2) : S1024x256.Idx → EReal) (ix2 d j'))
          (fun j' => (m ((c : Thread nD τ).loc main_arg3) : S256.Idx → EReal) (ix1 j')) :=
  funext fun j => (congrFun (W5_eq_W2 m ρ c main_v8 (by decide) (by decide) (by decide)) (ix2 (row b s) j)).trans
    (W2_v8_apply m ρ c b s j)

/-- The attention row. -/
theorem V5_v11_row (c : Dev nD) (b : Fin 64) (s : Fin 8) :
    (fun j => (V5 (F := Ideal) m ρ c main_v11 : S512x256.Idx → EReal) (ix2 (row b s) j))
      = Cert.Spec.attnK
          (Cert.Spec.proj (fun d => (m ((c : Thread nD τ).loc main_arg0) : S64x8x1024.Idx → EReal) (ix3 b s d))
          (fun d j' => (m ((c : Thread nD τ).loc main_arg2) : S1024x256.Idx → EReal) (ix2 d j'))
          (fun j' => (m ((c : Thread nD τ).loc main_arg3) : S256.Idx → EReal) (ix1 j')))
          (fun mm cc => (m ((c : Thread nD τ).loc main_arg1) : S64x4096x256.Idx → EReal) (ix3 b mm cc)) :=
  funext fun j => ((congrFun (W5_v11_eq m ρ c) (ix2 (row b s) j)).trans (shapeCast_merge_apply _ _ b s j)).trans
    (W4_v10_apply m ρ c b s j)

/-- The normalisation's scale. -/
theorem V5_v2_row (c : Dev nD) :
    (fun k => (V5 (F := Ideal) m ρ c main_v2 : S1x512.Idx → EReal) (ix2 (0 : Fin 1) k))
      = fun k => (m ((c : Thread nD τ).loc main_arg4) : S512.Idx → EReal) (ix1 k) :=
  funext fun k => (congrFun (W5_eq_W1 m ρ c main_v2 (by decide) (by decide) (by decide) (by decide)) (ix2 (0 : Fin 1) k)).trans (W1_v2_apply m ρ c k)

/-- The normalisation's shift. -/
theorem V5_v3_row (c : Dev nD) :
    (fun k => (V5 (F := Ideal) m ρ c main_v3 : S1x512.Idx → EReal) (ix2 (0 : Fin 1) k))
      = fun k => (m ((c : Thread nD τ).loc main_arg5) : S512.Idx → EReal) (ix1 k) :=
  funext fun k => (congrFun (W5_eq_W1 m ρ c main_v3 (by decide) (by decide) (by decide) (by decide)) (ix2 (0 : Fin 1) k)).trans (W1_v3_apply m ρ c k)

/-- The hidden layer's weight. -/
theorem V5_arg6_mat (c : Dev nD) :
    (fun k n => (V5 (F := Ideal) m ρ c main_arg6 : S512x512.Idx → EReal) (ix2 k n))
      = fun k n => (m ((c : Thread nD τ).loc main_arg6) : S512x512.Idx → EReal) (ix2 k n) :=
  funext fun k => funext fun n => congrFun (W5_arg6 m ρ c) (ix2 k n)

/-- The hidden layer's bias. -/
theorem V5_v4_row (c : Dev nD) :
    (fun n => (V5 (F := Ideal) m ρ c main_v4 : S1x512.Idx → EReal) (ix2 (0 : Fin 1) n))
      = fun n => (m ((c : Thread nD τ).loc main_arg7) : S512.Idx → EReal) (ix1 n) :=
  funext fun n => (congrFun (W5_eq_W1 m ρ c main_v4 (by decide) (by decide) (by decide) (by decide)) (ix2 (0 : Fin 1) n)).trans (W1_v4_apply m ρ c n)

/-- The logit's weight. -/
theorem V5_v5_row (c : Dev nD) :
    (fun n => (V5 (F := Ideal) m ρ c main_v5 : S1x512.Idx → EReal) (ix2 (0 : Fin 1) n))
      = fun n => (m ((c : Thread nD τ).loc main_arg8) : S512x1.Idx → EReal) (ix2 n (0 : Fin 1)) :=
  funext fun n => (congrFun (W5_eq_W1 m ρ c main_v5 (by decide) (by decide) (by decide) (by decide)) (ix2 (0 : Fin 1) n)).trans (W1_v5_apply m ρ c n)

/-- The logit's bias. -/
theorem V5_v6_entry (c : Dev nD) :
    (V5 (F := Ideal) m ρ c main_v6 : S1x1.Idx → EReal) (ix2 (0 : Fin 1) (0 : Fin 1))
      = (m ((c : Thread nD τ).loc main_arg9) : S1.Idx → EReal) (ix1 (0 : Fin 1)) :=
  (congrFun (W5_eq_W1 m ρ c main_v6 (by decide) (by decide) (by decide) (by decide)) (ix2 (0 : Fin 1) (0 : Fin 1))).trans (W1_v6_apply m ρ c)

/-- The output layer's weight. -/
theorem V5_arg10_mat (c : Dev nD) :
    (fun j d' => (V5 (F := Ideal) m ρ c main_arg10 : S256x1024.Idx → EReal) (ix2 j d'))
      = fun j d' => (m ((c : Thread nD τ).loc main_arg10) : S256x1024.Idx → EReal) (ix2 j d') :=
  funext fun j => funext fun d' => congrFun (W5_arg10 m ρ c) (ix2 j d')

/-- The output layer's bias. -/
theorem V5_v7_row (c : Dev nD) :
    (fun d' => (V5 (F := Ideal) m ρ c main_v7 : S1x1024.Idx → EReal) (ix2 (0 : Fin 1) d'))
      = fun d' => (m ((c : Thread nD τ).loc main_arg11) : S1024.Idx → EReal) (ix1 d') :=
  funext fun d' => (congrFun (W5_eq_W1 m ρ c main_v7 (by decide) (by decide) (by decide) (by decide)) (ix2 (0 : Fin 1) d')).trans (W1_v7_apply m ρ c d')

/-! ## The result -/

/-- The result buffer's contents at the last boundary, read back through the three regions and the reshapes between
    them to the launch contents of the arguments: at batch `b`, token `s`, column `d` it is the first arrangement's
    result. -/
theorem ker_value (c : Dev nD) (b : Fin 64) (s : Fin 8) (d : Fin 1024) :
    (W7 (F := Ideal) m ρ c (Proc.devRef .tc main_v13) : S64x8x1024.Idx → EReal) (ix3 b s d)
      = Cert.Spec.outK (Cert.Spec.argsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) b s d := by
  refine (congrFun (W7_v13_eq m ρ c) (ix3 b s d)).trans ((shapeCast_split_apply _ _ b s d).trans ?_)
  refine (congrFun (W6_arr m ρ c 11) (ix2 (row b s) d)).trans ((KArr.arr2_apply (V5 m ρ) c (row b s) d).trans ?_)
  rw [V5_v0_row m ρ c b s, V5_v8_row m ρ c b s, V5_v11_row m ρ c b s, V5_v2_row m ρ c, V5_v3_row m ρ c, V5_arg6_mat m ρ c,
    V5_v4_row m ρ c, V5_v5_row m ρ c, V5_v6_entry m ρ c, V5_arg10_mat m ρ c, V5_v7_row m ρ c]
  rfl

end Cert.KernelIdeal.KWalk

end
-- ==== Proof.RTerm.lean ====
/-
  The reference program's operations composed as pure functions of its twelve arguments, stage by stage, for any float
  values: the projection, the scaled and clipped scores, the softmax weights (row maximum, exponentials, row sum,
  quotient), the context, the joined row, its mean and variance (the variance as the library routine computes it,
  with its `ddof` guard), the normalisation, the hidden layer with `z · 1/(1 + e^{-z})`, the logit, the hard gate
  `1/(1 + e^{-l}) > 1/2`, and the fused result. The reference's run ends with its result buffer at `refOut` of the
  launch contents of its arguments.
-/
import proofs.«164254_g8143257993987_cont_9to1c4b_560_10_alg».proof.Proof.Gen.ReferenceIdeal

noncomputable section

namespace Cert.ReferenceIdeal.RefTerm

open Cert.ReferenceIdeal Cert.ReferenceIdeal.Gen Idealize.ShloMosaic Idealize.ShloMosaic.TcCoe

variable {F : FTy → Type} [FloatOps F]

/-- The contents type of an f32 buffer of shape `s`. -/
abbrev A (F : FTy → Type) (s : Shape) : Type := (⟨s, .f32⟩ : BufTy).Contents (Elt F)

/-- `x · W_to + b_to`. -/
def xc (a0 : A F S64x8x1024) (a2 : A F S1024x256) (a3 : A F S256) : A F S64x8x256 :=
  addf (Host.dotGeneral dot_S64x8x1024_S1024x256_S64x8x256_2_0_01_1_n_n none a0 a2)
    (broadcastInDim S64x8x256 ![0, 1, 2] bcast_S1x1x256_S64x8x256_0_1_2 (broadcastInDim S1x1x256 ![2] bcast_S256_S1x1x256_2 a3))

/-- The scores over 16. -/
def scaled (q : A F S64x8x256) (a1 : A F S64x4096x256) : A F S64x8x4096 :=
  Host.divf (Host.dotGeneral dot_S64x8x256_S64x4096x256_S64x8x4096_2_2_1_1_0_0 none q a1)
    (broadcastInDim S64x8x4096 ![] bcast_S_S64x8x4096 (constant S_ .f32 0x41800000#32))

/-- Clipped to [-20, 20]. -/
def clipped (z : A F S64x8x4096) : A F S64x8x4096 :=
  minimumf (broadcastInDim S64x8x4096 ![] bcast_S_S64x8x4096 (id (constant S_ .f32 0x41A00000#32)))
    (maximumf (broadcastInDim S64x8x4096 ![] bcast_S_S64x8x4096 (id (constant S_ .f32 0xC1A00000#32))) z)

/-- A per-row value laid along the 4096 cache rows. -/
def along4096 (r : A F S64x8) : A F S64x8x4096 :=
  broadcastInDim S64x8x4096 ![0, 1, 2] bcast_S64x8x1_S64x8x4096_0_1_2 (broadcastInDim S64x8x1 ![0, 1] bcast_S64x8_S64x8x1_0_1 r)

/-- The row maximum from -∞, once more against -∞. -/
def rmax (z : A F S64x8x4096) : A F S64x8 :=
  maximumf (broadcastInDim S64x8 ![] bcast_S_S64x8 (constant S_ .f32 0xFF800000#32))
    (Host.reduce FloatOps.maximumf z (constant S_ .f32 0xFF800000#32) reducesTo_S64x8x4096_S64x8_d2 h_S_)

/-- `e^{z - max}`. -/
def expd (z : A F S64x8x4096) : A F S64x8x4096 := Host.exp (subf z (along4096 (rmax z)))

/-- The softmax weights. -/
def wts (e : A F S64x8x4096) : A F S64x8x4096 :=
  Host.divf e (along4096 (Host.reduceAdd e (constant S_ .f32 0x00000000#32) reducesTo_S64x8x4096_S64x8_d2 h_S_))

/-- The context. -/
def ctx (w : A F S64x8x4096) (a1 : A F S64x4096x256) : A F S64x8x256 :=
  Host.dotGeneral dot_S64x8x4096_S64x4096x256_S64x8x256_2_1_1_2_0_0 none w a1

/-- The joined row. -/
def comb (q c : A F S64x8x256) : A F S64x8x512 :=
  concatenate S64x8x512 2 [⟨S64x8x256, q⟩, ⟨S64x8x256, c⟩] concatenates_S64x8x256_S64x8x256_S64x8x512_d2

/-- A per-row value with a unit last axis. -/
def keep1 (r : A F S64x8) : A F S64x8x1 := broadcastInDim S64x8x1 ![0, 1] bcast_S64x8_S64x8x1_0_1 r

/-- A unit-last-axis value laid along 512 columns. -/
def along512 (r : A F S64x8x1) : A F S64x8x512 := broadcastInDim S64x8x512 ![0, 1, 2] bcast_S64x8x1_S64x8x512_0_1_2 r

/-- A scalar laid over the unit-last-axis shape. -/
def splat1 (v : A F S_) : A F S64x8x1 := broadcastInDim S64x8x1 ![] bcast_S_S64x8x1 v

/-- The row sum over 512. -/
def mean (v : A F S64x8x512) : A F S64x8x1 :=
  Host.divf (keep1 (Host.reduceAdd v (constant S_ .f32 0x00000000#32) reducesTo_S64x8x512_S64x8_d2 h_S_))
    (splat1 (constant S_ .f32 0x44000000#32))

/-- The divisor of the variance: 512 minus the integer 0 converted. -/
def nvar : A F S_ := subf (constant S_ .f32 0x44000000#32) (sitofp .f32 (constantI S_ 32 0#32))

/-- The variance as the library routine computes it. -/
def var (v : A F S64x8x512) : A F S64x8x1 :=
  select (broadcastInDim S64x8x1 ![] bcast_S_S64x8x1 (cmpf .ogt (nvar (F := F)) (constant S_ .f32 0x00000000#32)))
    (Host.divf
      (keep1 (Host.reduceAdd (mulf (subf v (along512 (mean v))) (subf v (along512 (mean v))))
        (constant S_ .f32 0x00000000#32) reducesTo_S64x8x512_S64x8_d2 h_S_))
      (splat1 nvar))
    (splat1 (id (constant S_ .f32 0x7FC00000#32)))

/-- A 512-vector parameter laid over every row. -/
def rows512 (a : A F S512) : A F S64x8x512 :=
  broadcastInDim S64x8x512 ![0, 1, 2] bcast_S1x1x512_S64x8x512_0_1_2 (broadcastInDim S1x1x512 ![2] bcast_S512_S1x1x512_2 a)

/-- Layer normalisation. -/
def ln (v : A F S64x8x512) (a4 a5 : A F S512) : A F S64x8x512 :=
  addf
    (Host.divf (mulf (rows512 a4) (subf v (along512 (mean v))))
      (along512 (Host.sqrt (addf (var v) (splat1 (constant S_ .f32 0x3727C5AC#32))))))
    (rows512 a5)

/-- The hidden layer before its nonlinearity. -/
def hidv (u : A F S64x8x512) (a6 : A F S512x512) (a7 : A F S512) : A F S64x8x512 :=
  addf (Host.dotGeneral dot_S64x8x512_S512x512_S64x8x512_2_0_01_1_n_n none u a6) (rows512 a7)

/-- The word 1.0 over the hidden shape. -/
def one512 : A F S64x8x512 := broadcastInDim S64x8x512 ![] bcast_S_S64x8x512 (constant S_ .f32 0x3F800000#32)

/-- `z · (1 / (1 + e^{-z}))`. -/
def silu (z : A F S64x8x512) : A F S64x8x512 :=
  mulf z (Host.divf one512 (addf one512 (Host.exp (Host.negf z))))

/-- The gate logit. -/
def logitv (hs : A F S64x8x512) (a8 : A F S512x1) (a9 : A F S1) : A F S64x8x1 :=
  addf (Host.dotGeneral dot_S64x8x512_S512x1_S64x8x1_2_0_01_1_n_n none hs a8)
    (broadcastInDim S64x8x1 ![0, 1, 2] bcast_S1x1x1_S64x8x1_0_1_2 (broadcastInDim S1x1x1 ![2] bcast_S1_S1x1x1_2 a9))

/-- The hard gate `1 / (1 + e^{-l}) > 1/2` as a float. -/
def gate (l : A F S64x8x1) : A F S64x8x1 :=
  uitofp .f32
    (cmpf .ogt (Host.divf (splat1 (constant S_ .f32 0x3F800000#32))
        (addf (splat1 (constant S_ .f32 0x3F800000#32)) (Host.exp (Host.negf l))))
      (splat1 (constant S_ .f32 0x3F000000#32)))

/-- The fused result. -/
def fused (a0 : A F S64x8x1024) (c : A F S64x8x256) (gt : A F S64x8x1) (a10 : A F S256x1024) (a11 : A F S1024) :
    A F S64x8x1024 :=
  addf a0
    (mulf (broadcastInDim S64x8x1024 ![0, 1, 2] bcast_S64x8x1_S64x8x1024_0_1_2 gt)
      (addf (Host.dotGeneral dot_S64x8x256_S256x1024_S64x8x1024_2_0_01_1_n_n none c a10)
        (broadcastInDim S64x8x1024 ![0, 1, 2] bcast_S1x1x1024_S64x8x1024_0_1_2
          (broadcastInDim S1x1x1024 ![2] bcast_S1024_S1x1x1024_2 a11))))

/-- The reference's result as one function of its arguments. -/
def refOut (a0 : A F S64x8x1024) (a1 : A F S64x4096x256) (a2 : A F S1024x256) (a3 : A F S256) (a4 a5 : A F S512)
    (a6 : A F S512x512) (a7 : A F S512) (a8 : A F S512x1) (a9 : A F S1) (a10 : A F S256x1024) (a11 : A F S1024) :
    A F S64x8x1024 :=
  fused a0 (ctx (wts (expd (clipped (scaled (xc a0 a2 a3) a1)))) a1)
    (gate (logitv (silu (hidv (ln (comb (xc a0 a2 a3) (ctx (wts (expd (clipped (scaled (xc a0 a2 a3) a1)))) a1)) a4 a5) a6 a7)) a8 a9))
    a10 a11

end Cert.ReferenceIdeal.RefTerm

end
-- ==== Proof.RRun.lean ====
import proofs.«164254_g8143257993987_cont_9to1c4b_560_10_alg».proof.Proof.RTerm
import Idealize.ShloMosaic.Lib.StableHlo.Run
import Idealize.ShloMosaic.Lib.ValueIdx

noncomputable section

open scoped BigOperators

namespace Cert.ReferenceIdeal.RefRun

open Cert.ReferenceIdeal Cert.ReferenceIdeal.Gen Cert.ReferenceIdeal.RefTerm Idealize.ShloMosaic Idealize.ShloMosaic.TcCoe Idealize.ShloMosaic.ValueIdx Idealize.SL.Sem Idealize.ShloMosaic.StableHlo

variable {F : FTy → Type} [FloatOps F]

/-! The reference program's run, read back: its @main, with the bodies of `clip`, `_var` and `_where` standing at their
calls, is one straight line of 112 tensor operations; the line is cut into three stretches (before the joined row is
formed, and before the hidden layer), each stretch's fold is read at the buffers the next one takes over — the projection
and the context after the first, the normalised row after the second, the result after the third — as the staged terms of
`RefTerm`, and a buffer a stretch does not write is as it was. Joined, the result buffer ends at `refOut` of the
arguments' launch contents and the twelve arguments end unchanged. -/

namespace RRunAux

/-- The first stretch of @main's operations: the projection, the scores, their clipping, the softmax weights and the context (31). -/
def ops₁ : List (HloOp τ sig (Elt F)) :=
  [ StableHlo.binary main_arg0 main_arg2 main_v0 ((fun l r => Host.dotGeneral dot_S64x8x1024_S1024x256_S64x8x256_2_0_01_1_n_n none l r) : (⟨S64x8x1024, .f32⟩ : BufTy).Contents (Elt F) → (⟨S1024x256, .f32⟩ : BufTy).Contents (Elt F) → (⟨S64x8x256, .f32⟩ : BufTy).Contents (Elt F)),
    StableHlo.unary main_arg3 main_v1 (broadcastInDim S1x1x256 ![2] bcast_S256_S1x1x256_2 : (⟨S256, .f32⟩ : BufTy).Contents (Elt F) → (⟨S1x1x256, .f32⟩ : BufTy).Contents (Elt F)),
    StableHlo.unary main_v1 main_v2 (broadcastInDim S64x8x256 ![0, 1, 2] bcast_S1x1x256_S64x8x256_0_1_2 : (⟨S1x1x256, .f32⟩ : BufTy).Contents (Elt F) → (⟨S64x8x256, .f32⟩ : BufTy).Contents (Elt F)),
    StableHlo.binary main_v0 main_v2 main_v3 (addf : (⟨S64x8x256, .f32⟩ : BufTy).Contents (Elt F) → (⟨S64x8x256, .f32⟩ : BufTy).Contents (Elt F) → (⟨S64x8x256, .f32⟩ : BufTy).Contents (Elt F)),
    StableHlo.binary main_v3 main_arg1 main_v4 ((fun l r => Host.dotGeneral dot_S64x8x256_S64x4096x256_S64x8x4096_2_2_1_1_0_0 none l r) : (⟨S64x8x256, .f32⟩ : BufTy).Contents (Elt F) → (⟨S64x4096x256, .f32⟩ : BufTy).Contents (Elt F) → (⟨S64x8x4096, .f32⟩ : BufTy).Contents (Elt F)),
    StableHlo.nullary main_cst (constant S_ .f32 0x41800000#32),
    StableHlo.unary main_cst main_v5 (broadcastInDim S64x8x4096 ![] bcast_S_S64x8x4096 : (⟨S_, .f32⟩ : BufTy).Contents (Elt F) → (⟨S64x8x4096, .f32⟩ : BufTy).Contents (Elt F)),
    StableHlo.binary main_v4 main_v5 main_v6 (Host.divf : (⟨S64x8x4096, .f32⟩ : BufTy).Contents (Elt F) → (⟨S64x8x4096, .f32⟩ : BufTy).Contents (Elt F) → (⟨S64x8x4096, .f32⟩ : BufTy).Contents (Elt F)),
    StableHlo.nullary main_cst_0 (constant S_ .f32 0xC1A00000#32),
    StableHlo.nullary main_cst_1 (constant S_ .f32 0x41A00000#32),
    StableHlo.TRef.unary (.of main_cst_0 : TRef sig ⟨S_, .f32⟩) main_call0.v0 id,
    StableHlo.TRef.unary main_call0.v0 main_call0.v1 (broadcastInDim S64x8x4096 ![] bcast_S_S64x8x4096),
    StableHlo.TRef.binary main_call0.v1 (.of main_v6 : TRef sig ⟨S64x8x4096, .f32⟩) main_call0.v2 maximumf,
    StableHlo.TRef.unary (.of main_cst_1 : TRef sig ⟨S_, .f32⟩) main_call0.v3 id,
    StableHlo.TRef.unary main_call0.v3 main_call0.v4 (broadcastInDim S64x8x4096 ![] bcast_S_S64x8x4096),
    StableHlo.TRef.binary main_call0.v4 main_call0.v2 main_call0.v5 minimumf,
    StableHlo.nullary main_cst_2 (constant S_ .f32 0xFF800000#32),
    StableHlo.binary main_v7 main_cst_2 main_v8 ((fun x v => Host.reduce FloatOps.maximumf x v reducesTo_S64x8x4096_S64x8_d2 h_S_) : (⟨S64x8x4096, .f32⟩ : BufTy).Contents (Elt F) → (⟨S_, .f32⟩ : BufTy).Contents (Elt F) → (⟨S64x8, .f32⟩ : BufTy).Contents (Elt F)),
    StableHlo.nullary main_cst_3 (constant S_ .f32 0xFF800000#32),
    StableHlo.unary main_cst_3 main_v9 (broadcastInDim S64x8 ![] bcast_S_S64x8 : (⟨S_, .f32⟩ : BufTy).Contents (Elt F) → (⟨S64x8, .f32⟩ : BufTy).Contents (Elt F)),
    StableHlo.binary main_v9 main_v8 main_v10 (maximumf : (⟨S64x8, .f32⟩ : BufTy).Contents (Elt F) → (⟨S64x8, .f32⟩ : BufTy).Contents (Elt F) → (⟨S64x8, .f32⟩ : BufTy).Contents (Elt F)),
    StableHlo.unary main_v10 main_v11 (broadcastInDim S64x8x1 ![0, 1] bcast_S64x8_S64x8x1_0_1 : (⟨S64x8, .f32⟩ : BufTy).Contents (Elt F) → (⟨S64x8x1, .f32⟩ : BufTy).Contents (Elt F)),
    StableHlo.unary main_v11 main_v12 (broadcastInDim S64x8x4096 ![0, 1, 2] bcast_S64x8x1_S64x8x4096_0_1_2 : (⟨S64x8x1, .f32⟩ : BufTy).Contents (Elt F) → (⟨S64x8x4096, .f32⟩ : BufTy).Contents (Elt F)),
    StableHlo.binary main_v7 main_v12 main_v13 (subf : (⟨S64x8x4096, .f32⟩ : BufTy).Contents (Elt F) → (⟨S64x8x4096, .f32⟩ : BufTy).Contents (Elt F) → (⟨S64x8x4096, .f32⟩ : BufTy).Contents (Elt F)),
    StableHlo.unary main_v13 main_v14 (Host.exp : (⟨S64x8x4096, .f32⟩ : BufTy).Contents (Elt F) → (⟨S64x8x4096, .f32⟩ : BufTy).Contents (Elt F)),
    StableHlo.nullary main_cst_4 (constant S_ .f32 0x00000000#32),
    StableHlo.binary main_v14 main_cst_4 main_v15 ((fun x v => Host.reduceAdd x v reducesTo_S64x8x4096_S64x8_d2 h_S_) : (⟨S64x8x4096, .f32⟩ : BufTy).Contents (Elt F) → (⟨S_, .f32⟩ : BufTy).Contents (Elt F) → (⟨S64x8, .f32⟩ : BufTy).Contents (Elt F)),
    StableHlo.unary main_v15 main_v16 (broadcastInDim S64x8x1 ![0, 1] bcast_S64x8_S64x8x1_0_1 : (⟨S64x8, .f32⟩ : BufTy).Contents (Elt F) → (⟨S64x8x1, .f32⟩ : BufTy).Contents (Elt F)),
    StableHlo.unary main_v16 main_v17 (broadcastInDim S64x8x4096 ![0, 1, 2] bcast_S64x8x1_S64x8x4096_0_1_2 : (⟨S64x8x1, .f32⟩ : BufTy).Contents (Elt F) → (⟨S64x8x4096, .f32⟩ : BufTy).Contents (Elt F)),
    StableHlo.binary main_v14 main_v17 main_v18 (Host.divf : (⟨S64x8x4096, .f32⟩ : BufTy).Contents (Elt F) → (⟨S64x8x4096, .f32⟩ : BufTy).Contents (Elt F) → (⟨S64x8x4096, .f32⟩ : BufTy).Contents (Elt F)),
    StableHlo.binary main_v18 main_arg1 main_v19 ((fun l r => Host.dotGeneral dot_S64x8x4096_S64x4096x256_S64x8x256_2_1_1_2_0_0 none l r) : (⟨S64x8x4096, .f32⟩ : BufTy).Contents (Elt F) → (⟨S64x4096x256, .f32⟩ : BufTy).Contents (Elt F) → (⟨S64x8x256, .f32⟩ : BufTy).Contents (Elt F)) ]

/-- The second stretch: the joined row, its mean, its variance as the library routine computes it, and the normalisation (45). -/
def ops₂ : List (HloOp τ sig (Elt F)) :=
  [ StableHlo.binary main_v3 main_v19 main_v20 ((fun a b => concatenate S64x8x512 2 [⟨S64x8x256, a⟩, ⟨S64x8x256, b⟩] concatenates_S64x8x256_S64x8x256_S64x8x512_d2) : (⟨S64x8x256, .f32⟩ : BufTy).Contents (Elt F) → (⟨S64x8x256, .f32⟩ : BufTy).Contents (Elt F) → (⟨S64x8x512, .f32⟩ : BufTy).Contents (Elt F)),
    StableHlo.nullary main_cst_5 (constant S_ .f32 0x00000000#32),
    StableHlo.binary main_v20 main_cst_5 main_v21 ((fun x v => Host.reduceAdd x v reducesTo_S64x8x512_S64x8_d2 h_S_) : (⟨S64x8x512, .f32⟩ : BufTy).Contents (Elt F) → (⟨S_, .f32⟩ : BufTy).Contents (Elt F) → (⟨S64x8, .f32⟩ : BufTy).Contents (Elt F)),
    StableHlo.unary main_v21 main_v22 (broadcastInDim S64x8x1 ![0, 1] bcast_S64x8_S64x8x1_0_1 : (⟨S64x8, .f32⟩ : BufTy).Contents (Elt F) → (⟨S64x8x1, .f32⟩ : BufTy).Contents (Elt F)),
    StableHlo.nullary main_cst_6 (constant S_ .f32 0x44000000#32),
    StableHlo.unary main_cst_6 main_v23 (broadcastInDim S64x8x1 ![] bcast_S_S64x8x1 : (⟨S_, .f32⟩ : BufTy).Contents (Elt F) → (⟨S64x8x1, .f32⟩ : BufTy).Contents (Elt F)),
    StableHlo.binary main_v22 main_v23 main_v24 (Host.divf : (⟨S64x8x1, .f32⟩ : BufTy).Contents (Elt F) → (⟨S64x8x1, .f32⟩ : BufTy).Contents (Elt F) → (⟨S64x8x1, .f32⟩ : BufTy).Contents (Elt F)),
    StableHlo.nullary main_c (constantI S_ 32 0#32),
    StableHlo.TRef.nullary main_call1.cst (constant S_ .f32 0x00000000#32),
    StableHlo.TRef.binary (.of main_v20 : TRef sig ⟨S64x8x512, .f32⟩) main_call1.cst main_call1.v0 (fun x v => Host.reduceAdd x v reducesTo_S64x8x512_S64x8_d2 h_S_),
    StableHlo.TRef.unary main_call1.v0 main_call1.v1 (broadcastInDim S64x8x1 ![0, 1] bcast_S64x8_S64x8x1_0_1),
    StableHlo.TRef.nullary main_call1.cst_0 (constant S_ .f32 0x44000000#32),
    StableHlo.TRef.unary main_call1.cst_0 main_call1.v2 (broadcastInDim S64x8x1 ![] bcast_S_S64x8x1),
    StableHlo.TRef.binary main_call1.v1 main_call1.v2 main_call1.v3 Host.divf,
    StableHlo.TRef.unary main_call1.v3 main_call1.v4 (broadcastInDim S64x8x512 ![0, 1, 2] bcast_S64x8x1_S64x8x512_0_1_2),
    StableHlo.TRef.binary (.of main_v20 : TRef sig ⟨S64x8x512, .f32⟩) main_call1.v4 main_call1.v5 subf,
    StableHlo.TRef.binary main_call1.v5 main_call1.v5 main_call1.v6 mulf,
    StableHlo.TRef.unary (.of main_c : TRef sig ⟨S_, .i32⟩) main_call1.v7 (sitofp .f32),
    StableHlo.TRef.nullary main_call1.cst_1 (constant S_ .f32 0x44000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S64x8x512_S64x8_d2 h_S_),
    StableHlo.TRef.unary main_call1.v9 main_call1.v10 (broadcastInDim S64x8x1 ![0, 1] bcast_S64x8_S64x8x1_0_1),
    StableHlo.TRef.unary main_call1.v8 main_call1.v11 (broadcastInDim S64x8x1 ![] bcast_S_S64x8x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64x8x1 ![] bcast_S_S64x8x1),
    StableHlo.TRef.ternary main_call1.v13 main_call1.v12 main_call1.call0.v1 main_call1.call0.v2 (fun p a b => select (broadcastInDim S64x8x1 ![] bcast_S_S64x8x1 p) a b),
    StableHlo.unary main_v24 main_v26 (broadcastInDim S64x8x512 ![0, 1, 2] bcast_S64x8x1_S64x8x512_0_1_2 : (⟨S64x8x1, .f32⟩ : BufTy).Contents (Elt F) → (⟨S64x8x512, .f32⟩ : BufTy).Contents (Elt F)),
    StableHlo.binary main_v20 main_v26 main_v27 (subf : (⟨S64x8x512, .f32⟩ : BufTy).Contents (Elt F) → (⟨S64x8x512, .f32⟩ : BufTy).Contents (Elt F) → (⟨S64x8x512, .f32⟩ : BufTy).Contents (Elt F)),
    StableHlo.unary main_arg4 main_v28 (broadcastInDim S1x1x512 ![2] bcast_S512_S1x1x512_2 : (⟨S512, .f32⟩ : BufTy).Contents (Elt F) → (⟨S1x1x512, .f32⟩ : BufTy).Contents (Elt F)),
    StableHlo.unary main_v28 main_v29 (broadcastInDim S64x8x512 ![0, 1, 2] bcast_S1x1x512_S64x8x512_0_1_2 : (⟨S1x1x512, .f32⟩ : BufTy).Contents (Elt F) → (⟨S64x8x512, .f32⟩ : BufTy).Contents (Elt F)),
    StableHlo.binary main_v29 main_v27 main_v30 (mulf : (⟨S64x8x512, .f32⟩ : BufTy).Contents (Elt F) → (⟨S64x8x512, .f32⟩ : BufTy).Contents (Elt F) → (⟨S64x8x512, .f32⟩ : BufTy).Contents (Elt F)),
    StableHlo.nullary main_cst_7 (constant S_ .f32 0x3727C5AC#32),
    StableHlo.unary main_cst_7 main_v31 (broadcastInDim S64x8x1 ![] bcast_S_S64x8x1 : (⟨S_, .f32⟩ : BufTy).Contents (Elt F) → (⟨S64x8x1, .f32⟩ : BufTy).Contents (Elt F)),
    StableHlo.binary main_v25 main_v31 main_v32 (addf : (⟨S64x8x1, .f32⟩ : BufTy).Contents (Elt F) → (⟨S64x8x1, .f32⟩ : BufTy).Contents (Elt F) → (⟨S64x8x1, .f32⟩ : BufTy).Contents (Elt F)),
    StableHlo.unary main_v32 main_v33 (Host.sqrt : (⟨S64x8x1, .f32⟩ : BufTy).Contents (Elt F) → (⟨S64x8x1, .f32⟩ : BufTy).Contents (Elt F)),
    StableHlo.unary main_v33 main_v34 (broadcastInDim S64x8x512 ![0, 1, 2] bcast_S64x8x1_S64x8x512_0_1_2 : (⟨S64x8x1, .f32⟩ : BufTy).Contents (Elt F) → (⟨S64x8x512, .f32⟩ : BufTy).Contents (Elt F)),
    StableHlo.binary main_v30 main_v34 main_v35 (Host.divf : (⟨S64x8x512, .f32⟩ : BufTy).Contents (Elt F) → (⟨S64x8x512, .f32⟩ : BufTy).Contents (Elt F) → (⟨S64x8x512, .f32⟩ : BufTy).Contents (Elt F)),
    StableHlo.unary main_arg5 main_v36 (broadcastInDim S1x1x512 ![2] bcast_S512_S1x1x512_2 : (⟨S512, .f32⟩ : BufTy).Contents (Elt F) → (⟨S1x1x512, .f32⟩ : BufTy).Contents (Elt F)),
    StableHlo.unary main_v36 main_v37 (broadcastInDim S64x8x512 ![0, 1, 2] bcast_S1x1x512_S64x8x512_0_1_2 : (⟨S1x1x512, .f32⟩ : BufTy).Contents (Elt F) → (⟨S64x8x512, .f32⟩ : BufTy).Contents (Elt F)),
    StableHlo.binary main_v35 main_v37 main_v38 (addf : (⟨S64x8x512, .f32⟩ : BufTy).Contents (Elt F) → (⟨S64x8x512, .f32⟩ : BufTy).Contents (Elt F) → (⟨S64x8x512, .f32⟩ : BufTy).Contents (Elt F)) ]

/-- The third stretch: the hidden layer, the logit, the hard gate and the fused result (36). -/
def ops₃ : List (HloOp τ sig (Elt F)) :=
  [ StableHlo.binary main_v38 main_arg6 main_v39 ((fun l r => Host.dotGeneral dot_S64x8x512_S512x512_S64x8x512_2_0_01_1_n_n none l r) : (⟨S64x8x512, .f32⟩ : BufTy).Contents (Elt F) → (⟨S512x512, .f32⟩ : BufTy).Contents (Elt F) → (⟨S64x8x512, .f32⟩ : BufTy).Contents (Elt F)),
    StableHlo.unary main_arg7 main_v40 (broadcastInDim S1x1x512 ![2] bcast_S512_S1x1x512_2 : (⟨S512, .f32⟩ : BufTy).Contents (Elt F) → (⟨S1x1x512, .f32⟩ : BufTy).Contents (Elt F)),
    StableHlo.unary main_v40 main_v41 (broadcastInDim S64x8x512 ![0, 1, 2] bcast_S1x1x512_S64x8x512_0_1_2 : (⟨S1x1x512, .f32⟩ : BufTy).Contents (Elt F) → (⟨S64x8x512, .f32⟩ : BufTy).Contents (Elt F)),
    StableHlo.binary main_v39 main_v41 main_v42 (addf : (⟨S64x8x512, .f32⟩ : BufTy).Contents (Elt F) → (⟨S64x8x512, .f32⟩ : BufTy).Contents (Elt F) → (⟨S64x8x512, .f32⟩ : BufTy).Contents (Elt F)),
    StableHlo.unary main_v42 main_v43 (Host.negf : (⟨S64x8x512, .f32⟩ : BufTy).Contents (Elt F) → (⟨S64x8x512, .f32⟩ : BufTy).Contents (Elt F)),
    StableHlo.unary main_v43 main_v44 (Host.exp : (⟨S64x8x512, .f32⟩ : BufTy).Contents (Elt F) → (⟨S64x8x512, .f32⟩ : BufTy).Contents (Elt F)),
    StableHlo.nullary main_cst_8 (constant S_ .f32 0x3F800000#32),
    StableHlo.unary main_cst_8 main_v45 (broadcastInDim S64x8x512 ![] bcast_S_S64x8x512 : (⟨S_, .f32⟩ : BufTy).Contents (Elt F) → (⟨S64x8x512, .f32⟩ : BufTy).Contents (Elt F)),
    StableHlo.binary main_v45 main_v44 main_v46 (addf : (⟨S64x8x512, .f32⟩ : BufTy).Contents (Elt F) → (⟨S64x8x512, .f32⟩ : BufTy).Contents (Elt F) → (⟨S64x8x512, .f32⟩ : BufTy).Contents (Elt F)),
    StableHlo.nullary main_cst_9 (constant S_ .f32 0x3F800000#32),
    StableHlo.unary main_cst_9 main_v47 (broadcastInDim S64x8x512 ![] bcast_S_S64x8x512 : (⟨S_, .f32⟩ : BufTy).Contents (Elt F) → (⟨S64x8x512, .f32⟩ : BufTy).Contents (Elt F)),
    StableHlo.binary main_v47 main_v46 main_v48 (Host.divf : (⟨S64x8x512, .f32⟩ : BufTy).Contents (Elt F) → (⟨S64x8x512, .f32⟩ : BufTy).Contents (Elt F) → (⟨S64x8x512, .f32⟩ : BufTy).Contents (Elt F)),
    StableHlo.binary main_v42 main_v48 main_v49 (mulf : (⟨S64x8x512, .f32⟩ : BufTy).Contents (Elt F) → (⟨S64x8x512, .f32⟩ : BufTy).Contents (Elt F) → (⟨S64x8x512, .f32⟩ : BufTy).Contents (Elt F)),
    StableHlo.binary main_v49 main_arg8 main_v50 ((fun l r => Host.dotGeneral dot_S64x8x512_S512x1_S64x8x1_2_0_01_1_n_n none l r) : (⟨S64x8x512, .f32⟩ : BufTy).Contents (Elt F) → (⟨S512x1, .f32⟩ : BufTy).Contents (Elt F) → (⟨S64x8x1, .f32⟩ : BufTy).Contents (Elt F)),
    StableHlo.unary main_arg9 main_v51 (broadcastInDim S1x1x1 ![2] bcast_S1_S1x1x1_2 : (⟨S1, .f32⟩ : BufTy).Contents (Elt F) → (⟨S1x1x1, .f32⟩ : BufTy).Contents (Elt F)),
    StableHlo.unary main_v51 main_v52 (broadcastInDim S64x8x1 ![0, 1, 2] bcast_S1x1x1_S64x8x1_0_1_2 : (⟨S1x1x1, .f32⟩ : BufTy).Contents (Elt F) → (⟨S64x8x1, .f32⟩ : BufTy).Contents (Elt F)),
    StableHlo.binary main_v50 main_v52 main_v53 (addf : (⟨S64x8x1, .f32⟩ : BufTy).Contents (Elt F) → (⟨S64x8x1, .f32⟩ : BufTy).Contents (Elt F) → (⟨S64x8x1, .f32⟩ : BufTy).Contents (Elt F)),
    StableHlo.unary main_v53 main_v54 (Host.negf : (⟨S64x8x1, .f32⟩ : BufTy).Contents (Elt F) → (⟨S64x8x1, .f32⟩ : BufTy).Contents (Elt F)),
    StableHlo.unary main_v54 main_v55 (Host.exp : (⟨S64x8x1, .f32⟩ : BufTy).Contents (Elt F) → (⟨S64x8x1, .f32⟩ : BufTy).Contents (Elt F)),
    StableHlo.nullary main_cst_10 (constant S_ .f32 0x3F800000#32),
    StableHlo.unary main_cst_10 main_v56 (broadcastInDim S64x8x1 ![] bcast_S_S64x8x1 : (⟨S_, .f32⟩ : BufTy).Contents (Elt F) → (⟨S64x8x1, .f32⟩ : BufTy).Contents (Elt F)),
    StableHlo.binary main_v56 main_v55 main_v57 (addf : (⟨S64x8x1, .f32⟩ : BufTy).Contents (Elt F) → (⟨S64x8x1, .f32⟩ : BufTy).Contents (Elt F) → (⟨S64x8x1, .f32⟩ : BufTy).Contents (Elt F)),
    StableHlo.nullary main_cst_11 (constant S_ .f32 0x3F800000#32),
    StableHlo.unary main_cst_11 main_v58 (broadcastInDim S64x8x1 ![] bcast_S_S64x8x1 : (⟨S_, .f32⟩ : BufTy).Contents (Elt F) → (⟨S64x8x1, .f32⟩ : BufTy).Contents (Elt F)),
    StableHlo.binary main_v58 main_v57 main_v59 (Host.divf : (⟨S64x8x1, .f32⟩ : BufTy).Contents (Elt F) → (⟨S64x8x1, .f32⟩ : BufTy).Contents (Elt F) → (⟨S64x8x1, .f32⟩ : BufTy).Contents (Elt F)),
    StableHlo.nullary main_cst_12 (constant S_ .f32 0x3F000000#32),
    StableHlo.unary main_cst_12 main_v60 (broadcastInDim S64x8x1 ![] bcast_S_S64x8x1 : (⟨S_, .f32⟩ : BufTy).Contents (Elt F) → (⟨S64x8x1, .f32⟩ : BufTy).Contents (Elt F)),
    StableHlo.binary main_v59 main_v60 main_v61 (cmpf .ogt : (⟨S64x8x1, .f32⟩ : BufTy).Contents (Elt F) → (⟨S64x8x1, .f32⟩ : BufTy).Contents (Elt F) → (⟨S64x8x1, .i1⟩ : BufTy).Contents (Elt F)),
    StableHlo.unary main_v61 main_v62 (uitofp .f32 : (⟨S64x8x1, .i1⟩ : BufTy).Contents (Elt F) → (⟨S64x8x1, .f32⟩ : BufTy).Contents (Elt F)),
    StableHlo.binary main_v19 main_arg10 main_v63 ((fun l r => Host.dotGeneral dot_S64x8x256_S256x1024_S64x8x1024_2_0_01_1_n_n none l r) : (⟨S64x8x256, .f32⟩ : BufTy).Contents (Elt F) → (⟨S256x1024, .f32⟩ : BufTy).Contents (Elt F) → (⟨S64x8x1024, .f32⟩ : BufTy).Contents (Elt F)),
    StableHlo.unary main_arg11 main_v64 (broadcastInDim S1x1x1024 ![2] bcast_S1024_S1x1x1024_2 : (⟨S1024, .f32⟩ : BufTy).Contents (Elt F) → (⟨S1x1x1024, .f32⟩ : BufTy).Contents (Elt F)),
    StableHlo.unary main_v64 main_v65 (broadcastInDim S64x8x1024 ![0, 1, 2] bcast_S1x1x1024_S64x8x1024_0_1_2 : (⟨S1x1x1024, .f32⟩ : BufTy).Contents (Elt F) → (⟨S64x8x1024, .f32⟩ : BufTy).Contents (Elt F)),
    StableHlo.binary main_v63 main_v65 main_v66 (addf : (⟨S64x8x1024, .f32⟩ : BufTy).Contents (Elt F) → (⟨S64x8x1024, .f32⟩ : BufTy).Contents (Elt F) → (⟨S64x8x1024, .f32⟩ : BufTy).Contents (Elt F)),
    StableHlo.unary main_v62 main_v67 (broadcastInDim S64x8x1024 ![0, 1, 2] bcast_S64x8x1_S64x8x1024_0_1_2 : (⟨S64x8x1, .f32⟩ : BufTy).Contents (Elt F) → (⟨S64x8x1024, .f32⟩ : BufTy).Contents (Elt F)),
    StableHlo.binary main_v67 main_v66 main_v68 (mulf : (⟨S64x8x1024, .f32⟩ : BufTy).Contents (Elt F) → (⟨S64x8x1024, .f32⟩ : BufTy).Contents (Elt F) → (⟨S64x8x1024, .f32⟩ : BufTy).Contents (Elt F)),
    StableHlo.binary main_arg0 main_v68 main_v69 (addf : (⟨S64x8x1024, .f32⟩ : BufTy).Contents (Elt F) → (⟨S64x8x1024, .f32⟩ : BufTy).Contents (Elt F) → (⟨S64x8x1024, .f32⟩ : BufTy).Contents (Elt F)) ]

/-- @main's 112 operations in order, the three calls unfolded at their sites. -/
def ops : List (HloOp τ sig (Elt F)) := ops₁ ++ (ops₂ ++ ops₃)

-- one hundred and twelve sequenced steps are compared one by one
set_option maxRecDepth 16384 in
set_option maxHeartbeats 4000000 in
/-- The reference's @main is that straight line: with the three functions' bodies at their calls and sequencing
    reassociated, both sides are one chain of operation steps. -/
theorem main_eq (c : Dev nD) : main (F := F) c = seq ops := by exact rfl

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation of the first stretch touches TensorCore references only. -/
theorem ops₁_sub : (ops₁ : List (HloOp τ sig (Elt F))).Forall fun op => op.bufs ⊆ tcRefs τ sig :=
  ⟨binary_bufs_sub .., unary_bufs_sub .., unary_bufs_sub .., binary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩

/-- Every operation of the second stretch touches TensorCore references only. -/
theorem ops₂_sub : (ops₂ : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩

/-- Every operation of the third stretch touches TensorCore references only. -/
theorem ops₃_sub : (ops₃ : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., binary_bufs_sub .., binary_bufs_sub ..⟩

/-- Every operation of the line touches TensorCore references only. -/
theorem ops_sub : (ops : List (HloOp τ sig (Elt F))).Forall fun op => op.bufs ⊆ tcRefs τ sig :=
  List.forall_iff_forall_mem.mpr fun op h => by
    rcases List.mem_append.mp h with h | h
    · exact List.forall_iff_forall_mem.mp ops₁_sub op h
    · rcases List.mem_append.mp h with h | h
      · exact List.forall_iff_forall_mem.mp ops₂_sub op h
      · exact List.forall_iff_forall_mem.mp ops₃_sub op h

/-- Every operation of the first stretch determines its results: none leaves a buffer's contents free. -/
theorem ops₁_fresh : (ops₁ : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of the second stretch determines its results: none leaves a buffer's contents free. -/
theorem ops₂_fresh : (ops₂ : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of the third stretch determines its results: none leaves a buffer's contents free. -/
theorem ops₃_fresh : (ops₃ : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of the line determines its results. -/
theorem ops_fresh : ∀ op ∈ (ops : List (HloOp τ sig (Elt F))), op.fresh = ∅ := fun op h => by
  rcases List.mem_append.mp h with h | h
  · exact List.forall_iff_forall_mem.mp ops₁_fresh op h
  · rcases List.mem_append.mp h with h | h
    · exact List.forall_iff_forall_mem.mp ops₂_fresh op h
    · exact List.forall_iff_forall_mem.mp ops₃_fresh op h

/-- Running one stretch and then another is running their concatenation. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- A reference among a list: its singleton lies inside the list's set of device references. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The buffers the first stretch writes, one per operation, in order. -/
abbrev wr1 : List (Ref sig .tc) := [main_v0, main_v1, main_v2, main_v3, main_v4, main_cst, main_v5, main_v6, main_cst_0, main_cst_1, main_call0_v0, main_call0_v1, main_call0_v2, main_call0_v3, main_call0_v4, main_v7, main_cst_2, main_v8, main_cst_3, main_v9, main_v10, main_v11, main_v12, main_v13, main_v14, main_cst_4, main_v15, main_v16, main_v17, main_v18, main_v19]

/-- Every operation of the first stretch writes a buffer of that list only. -/
theorem ops₁_writes : (ops₁ : List (HloOp τ sig (Elt F))).Forall fun op => op.writes ⊆ (wr1.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- The first stretch leaves every buffer it does not write as it was. -/
theorem frame1 (V : Valuation τ sig (Elt F)) {r : Ref sig .tc} (hr : r ∉ wr1) :
    after ops₁ V (Proc.devRef .tc r) = V (Proc.devRef .tc r) :=
  after_of_writes_sub _ V ops₁_writes hr

/-- The buffers the second stretch writes, one per operation, in order. -/
abbrev wr2 : List (Ref sig .tc) := [main_v20, main_cst_5, main_v21, main_v22, main_cst_6, main_v23, main_v24, main_c, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v25, main_v26, main_v27, main_v28, main_v29, main_v30, main_cst_7, main_v31, main_v32, main_v33, main_v34, main_v35, main_v36, main_v37, main_v38]

/-- Every operation of the second stretch writes a buffer of that list only. -/
theorem ops₂_writes : (ops₂ : List (HloOp τ sig (Elt F))).Forall fun op => op.writes ⊆ (wr2.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- The second stretch leaves every buffer it does not write as it was. -/
theorem frame2 (V : Valuation τ sig (Elt F)) {r : Ref sig .tc} (hr : r ∉ wr2) :
    after ops₂ V (Proc.devRef .tc r) = V (Proc.devRef .tc r) :=
  after_of_writes_sub _ V ops₂_writes hr

/-- The buffers the third stretch writes, one per operation, in order. -/
abbrev wr3 : List (Ref sig .tc) := [main_v39, main_v40, main_v41, main_v42, main_v43, main_v44, main_cst_8, main_v45, main_v46, main_cst_9, main_v47, main_v48, main_v49, main_v50, main_v51, main_v52, main_v53, main_v54, main_v55, main_cst_10, main_v56, main_v57, main_cst_11, main_v58, main_v59, main_cst_12, main_v60, main_v61, main_v62, main_v63, main_v64, main_v65, main_v66, main_v67, main_v68, main_v69]

/-- Every operation of the third stretch writes a buffer of that list only. -/
theorem ops₃_writes : (ops₃ : List (HloOp τ sig (Elt F))).Forall fun op => op.writes ⊆ (wr3.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- The third stretch leaves every buffer it does not write as it was. -/
theorem frame3 (V : Valuation τ sig (Elt F)) {r : Ref sig .tc} (hr : r ∉ wr3) :
    after ops₃ V (Proc.devRef .tc r) = V (Proc.devRef .tc r) :=
  after_of_writes_sub _ V ops₃_writes hr

/-- For any float values, from any memory with zero counters: every weakly fair execution of @main on the TensorCores
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- After the first stretch the projection's buffer holds `x · W_to + b_to`. -/
theorem c1_v3 (V : Valuation τ sig (Elt F)) :
    after ops₁ V (main_v3 : DevRef τ sig) = xc (V (main_arg0 : DevRef τ sig)) (V (main_arg2 : DevRef τ sig)) (V (main_arg3 : DevRef τ sig)) := by
  unfold ops₁
  after_results_simp
  rfl

/-- After the first stretch the context's buffer holds the softmax-weighted sum of the cache rows. -/
theorem c1_v19 (V : Valuation τ sig (Elt F)) :
    after ops₁ V (main_v19 : DevRef τ sig) = ctx (wts (expd (clipped (scaled (xc (V (main_arg0 : DevRef τ sig)) (V (main_arg2 : DevRef τ sig)) (V (main_arg3 : DevRef τ sig))) (V (main_arg1 : DevRef τ sig)))))) (V (main_arg1 : DevRef τ sig)) := by
  unfold ops₁
  after_results_simp
  rfl

/-- After the second stretch the normalised row's buffer holds the layer normalisation of the joined row. -/
theorem c2_v38 (W : Valuation τ sig (Elt F)) :
    after ops₂ W (main_v38 : DevRef τ sig) = ln (comb (W (main_v3 : DevRef τ sig)) (W (main_v19 : DevRef τ sig))) (W (main_arg4 : DevRef τ sig)) (W (main_arg5 : DevRef τ sig)) := by
  unfold ops₂
  after_results_simp
  rfl

/-- After the third stretch the result's buffer holds the fused result of the context, the gate of the normalised row, and the input. -/
theorem c3_v69 (W : Valuation τ sig (Elt F)) :
    after ops₃ W (main_v69 : DevRef τ sig) = fused (W (main_arg0 : DevRef τ sig)) (W (main_v19 : DevRef τ sig))
      (gate (logitv (silu (hidv (W (main_v38 : DevRef τ sig)) (W (main_arg6 : DevRef τ sig)) (W (main_arg7 : DevRef τ sig)))) (W (main_arg8 : DevRef τ sig)) (W (main_arg9 : DevRef τ sig))))
      (W (main_arg10 : DevRef τ sig)) (W (main_arg11 : DevRef τ sig)) := by
  unfold ops₃
  after_results_simp
  rfl

/-- The result's buffer after the whole line: the three stretches' readings joined, each argument read through the
    stretches that leave it as it was. -/
theorem out_eq (V : Valuation τ sig (Elt F)) :
    after ops V (main_v69 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  unfold ops
  rw [after_app, after_app, c3_v69, c2_v38,
    frame2 _ (r := main_arg0) (by decide), frame2 _ (r := main_v19) (by decide), frame2 _ (r := main_arg6) (by decide), frame2 _ (r := main_arg7) (by decide), frame2 _ (r := main_arg8) (by decide), frame2 _ (r := main_arg9) (by decide), frame2 _ (r := main_arg10) (by decide), frame2 _ (r := main_arg11) (by decide),
    c1_v3, c1_v19,
    frame1 _ (r := main_arg0) (by decide), frame1 _ (r := main_arg4) (by decide), frame1 _ (r := main_arg5) (by decide), frame1 _ (r := main_arg6) (by decide), frame1 _ (r := main_arg7) (by decide), frame1 _ (r := main_arg8) (by decide), frame1 _ (r := main_arg9) (by decide), frame1 _ (r := main_arg10) (by decide), frame1 _ (r := main_arg11) (by decide)]
  rfl

/-- A buffer none of the three stretches writes is after the whole line as it was. -/
theorem frame_all (V : Valuation τ sig (Elt F)) {r : Ref sig .tc} (h1 : r ∉ wr1) (h2 : r ∉ wr2) (h3 : r ∉ wr3) :
    after ops V (Proc.devRef .tc r) = V (Proc.devRef .tc r) := by
  unfold ops
  rw [after_app, after_app, frame3 _ h3, frame2 _ h2, frame1 _ h1]

end RRunAux

/-- For any float values, from any memory with zero counters: every weakly fair execution of the reference's @main
    terminates with its result at `refOut` of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69) = refOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v69).trans (RRunAux.out_eq _),
      (h c main_arg0).trans (RRunAux.frame_all _ (by decide) (by decide) (by decide)),
      (h c main_arg1).trans (RRunAux.frame_all _ (by decide) (by decide) (by decide)),
      (h c main_arg2).trans (RRunAux.frame_all _ (by decide) (by decide) (by decide)),
      (h c main_arg3).trans (RRunAux.frame_all _ (by decide) (by decide) (by decide)),
      (h c main_arg4).trans (RRunAux.frame_all _ (by decide) (by decide) (by decide)),
      (h c main_arg5).trans (RRunAux.frame_all _ (by decide) (by decide) (by decide)),
      (h c main_arg6).trans (RRunAux.frame_all _ (by decide) (by decide) (by decide)),
      (h c main_arg7).trans (RRunAux.frame_all _ (by decide) (by decide) (by decide)),
      (h c main_arg8).trans (RRunAux.frame_all _ (by decide) (by decide) (by decide)),
      (h c main_arg9).trans (RRunAux.frame_all _ (by decide) (by decide) (by decide)),
      (h c main_arg10).trans (RRunAux.frame_all _ (by decide) (by decide) (by decide)),
      (h c main_arg11).trans (RRunAux.frame_all _ (by decide) (by decide) (by decide))⟩)
    (RRunAux.run_main m ρ)

end Cert.ReferenceIdeal.RefRun

end
-- ==== Proof.RVal1.lean ====
/-
  The reference's projection and softmax context read at an index.

  At batch `b`, token `s`, column `j` the projection is the sum over the 1024 input columns of the row times the
  weight column, plus the bias. The context is read stage by stage: the score of cache row `m` is the sum over the 256
  columns of the query times the cache row, divided by the word 16.0 and clipped to [-20, 20]; the row maximum is the
  fold of `max` from -∞ over the 4096 scores; each weight is the exponential of the score less the maximum over the
  sum of the row's exponentials; the context is the sum over the cache rows of weight times cache entry. Each product
  is a sum over its one contracted axis, re-indexed by that axis's coordinate; each keep-dims spread reads the row's
  one value; the zero word the row sum starts from is the real zero.
-/
import proofs.«164254_g8143257993987_cont_9to1c4b_560_10_alg».proof.Proof.RTerm
import proofs.«164254_g8143257993987_cont_9to1c4b_560_10_alg».proof.Proof.Spec
import Idealize.ShloMosaic.Lib.IdealHost
import Idealize.ShloMosaic.Lib.Pipeline.Value
import Idealize.ShloMosaic.PureOps.Reduce

noncomputable section

open scoped BigOperators

namespace Cert.ReferenceIdeal.RefVal

open Cert.ReferenceIdeal Cert.ReferenceIdeal.Gen Cert.ReferenceIdeal.RefTerm Idealize.ShloMosaic Idealize.ShloMosaic.TcCoe Idealize.ShloMosaic.ValueIdx Idealize.SL.Sem

namespace ProjAttn

/-! ## The projection -/

/-- In the projection's product the left operand's batch axis reads the result's batch coordinate. -/
theorem lhs_xc_0 (j : S64x8x256.Idx) (k : dot_S64x8x1024_S1024x256_S64x8x256_2_0_01_1_n_n.contr.Idx) :
    (dot_S64x8x1024_S1024x256_S64x8x256_2_0_01_1_n_n.lhsIdx j k 0).val = (j 0).val := rfl

/-- In the projection's product the left operand's token axis reads the result's token coordinate. -/
theorem lhs_xc_1 (j : S64x8x256.Idx) (k : dot_S64x8x1024_S1024x256_S64x8x256_2_0_01_1_n_n.contr.Idx) :
    (dot_S64x8x1024_S1024x256_S64x8x256_2_0_01_1_n_n.lhsIdx j k 1).val = (j 1).val := rfl

/-- In the projection's product the left operand's last axis reads the contraction coordinate. -/
theorem lhs_xc_2 (j : S64x8x256.Idx) (k : dot_S64x8x1024_S1024x256_S64x8x256_2_0_01_1_n_n.contr.Idx) :
    (dot_S64x8x1024_S1024x256_S64x8x256_2_0_01_1_n_n.lhsIdx j k 2).val = (k ⟨0, by decide⟩).val := rfl

/-- In the projection's product the weight's row axis reads the contraction coordinate. -/
theorem rhs_xc_0 (j : S64x8x256.Idx) (k : dot_S64x8x1024_S1024x256_S64x8x256_2_0_01_1_n_n.contr.Idx) :
    (dot_S64x8x1024_S1024x256_S64x8x256_2_0_01_1_n_n.rhsIdx j k 0).val = (k ⟨0, by decide⟩).val := rfl

/-- In the projection's product the weight's column axis reads the result's column coordinate. -/
theorem rhs_xc_1 (j : S64x8x256.Idx) (k : dot_S64x8x1024_S1024x256_S64x8x256_2_0_01_1_n_n.contr.Idx) :
    (dot_S64x8x1024_S1024x256_S64x8x256_2_0_01_1_n_n.rhsIdx j k 1).val = (j 2).val := rfl

/-- The projection's product at batch `b`, token `s`, column `j` is the sum over the 1024 input columns. -/
theorem dot_xc_apply (a0 : A Ideal S64x8x1024) (a2 : A Ideal S1024x256) (b : Fin 64) (s : Fin 8) (j : Fin 256) :
    Host.dotGeneral (F := Ideal) (φ₁ := .f32) (φ₂ := .f32) dot_S64x8x1024_S1024x256_S64x8x256_2_0_01_1_n_n none a0 a2 (ix3 b s j)
      = ∑ d : Fin 1024, a0 (ix3 b s d) * a2 (ix2 d j) := by
  simp only [Host.dotGeneral]
  rw [Ideal.dotGeneral_apply]
  rw [← Equiv.sum_comp (contrEquiv1 dot_S64x8x1024_S1024x256_S64x8x256_2_0_01_1_n_n 1024 rfl rfl).symm]
  refine Finset.sum_congr rfl fun d _ => ?_
  have hk := contrEquiv1_symm_val dot_S64x8x1024_S1024x256_S64x8x256_2_0_01_1_n_n 1024 rfl rfl d
  congr 1
  · refine congrArg a0 (funext fun a => Fin.ext ?_)
    match a with
    | ⟨0, _⟩ => exact lhs_xc_0 _ _
    | ⟨1, _⟩ => exact lhs_xc_1 _ _
    | ⟨2, _⟩ => exact (lhs_xc_2 _ _).trans hk
  · refine congrArg a2 (funext fun a => Fin.ext ?_)
    match a with
    | ⟨0, _⟩ => exact (rhs_xc_0 _ _).trans hk
    | ⟨1, _⟩ => exact rhs_xc_1 _ _

/-- A 256-vector laid over every batch and token reads, at `(b, s, j)`, the vector at `j`. -/
theorem rows256_apply (a3 : A Ideal S256) (b : Fin 64) (s : Fin 8) (j : Fin 256) :
    broadcastInDim S64x8x256 ![0, 1, 2] bcast_S1x1x256_S64x8x256_0_1_2 (broadcastInDim S1x1x256 ![2] bcast_S256_S1x1x256_2 a3) (ix3 b s j)
      = a3 (ix1 j) := by
  refine (broadcastInDim_apply _ _ _ (ix3 b s j) (ix3 (0 : Fin 1) (0 : Fin 1) j) fun a => ?_).trans ?_
  · match a with
    | ⟨0, _⟩ => rfl
    | ⟨1, _⟩ => rfl
    | ⟨2, _⟩ => rfl
  · refine broadcastInDim_apply _ _ _ _ (ix1 j) fun a => ?_
    match a with
    | ⟨0, _⟩ => rfl

/-! ## The scores -/

/-- In the score product the query's batch axis reads the result's batch coordinate. -/
theorem lhs_sc_0 (j : S64x8x4096.Idx) (k : dot_S64x8x256_S64x4096x256_S64x8x4096_2_2_1_1_0_0.contr.Idx) :
    (dot_S64x8x256_S64x4096x256_S64x8x4096_2_2_1_1_0_0.lhsIdx j k 0).val = (j 0).val := rfl
/-- In the score product the query's token axis reads the result's token coordinate. -/
theorem lhs_sc_1 (j : S64x8x4096.Idx) (k : dot_S64x8x256_S64x4096x256_S64x8x4096_2_2_1_1_0_0.contr.Idx) :
    (dot_S64x8x256_S64x4096x256_S64x8x4096_2_2_1_1_0_0.lhsIdx j k 1).val = (j 1).val := rfl
/-- In the score product the query's column axis reads the contraction coordinate. -/
theorem lhs_sc_2 (j : S64x8x4096.Idx) (k : dot_S64x8x256_S64x4096x256_S64x8x4096_2_2_1_1_0_0.contr.Idx) :
    (dot_S64x8x256_S64x4096x256_S64x8x4096_2_2_1_1_0_0.lhsIdx j k 2).val = (k ⟨0, by decide⟩).val := rfl
/-- In the score product the cache's batch axis reads the result's batch coordinate. -/
theorem rhs_sc_0 (j : S64x8x4096.Idx) (k : dot_S64x8x256_S64x4096x256_S64x8x4096_2_2_1_1_0_0.contr.Idx) :
    (dot_S64x8x256_S64x4096x256_S64x8x4096_2_2_1_1_0_0.rhsIdx j k 0).val = (j 0).val := rfl
/-- In the score product the cache's row axis reads the result's last coordinate. -/
theorem rhs_sc_1 (j : S64x8x4096.Idx) (k : dot_S64x8x256_S64x4096x256_S64x8x4096_2_2_1_1_0_0.contr.Idx) :
    (dot_S64x8x256_S64x4096x256_S64x8x4096_2_2_1_1_0_0.rhsIdx j k 1).val = (j 2).val := rfl
/-- In the score product the cache's column axis reads the contraction coordinate. -/
theorem rhs_sc_2 (j : S64x8x4096.Idx) (k : dot_S64x8x256_S64x4096x256_S64x8x4096_2_2_1_1_0_0.contr.Idx) :
    (dot_S64x8x256_S64x4096x256_S64x8x4096_2_2_1_1_0_0.rhsIdx j k 2).val = (k ⟨0, by decide⟩).val := rfl

/-- The batched product of the queries with the cache rows at `(b, s, m)` is the sum over the 256 columns. -/
theorem dot_sc_apply (q : A Ideal S64x8x256) (a1 : A Ideal S64x4096x256) (b : Fin 64) (s : Fin 8) (m : Fin 4096) :
    Host.dotGeneral (F := Ideal) (φ₁ := .f32) (φ₂ := .f32) dot_S64x8x256_S64x4096x256_S64x8x4096_2_2_1_1_0_0 none q a1 (ix3 b s m)
      = ∑ c : Fin 256, q (ix3 b s c) * a1 (ix3 b m c) := by
  simp only [Host.dotGeneral]
  rw [Ideal.dotGeneral_apply]
  rw [← Equiv.sum_comp (contrEquiv1 dot_S64x8x256_S64x4096x256_S64x8x4096_2_2_1_1_0_0 256 rfl rfl).symm]
  refine Finset.sum_congr rfl fun c _ => ?_
  have hk := contrEquiv1_symm_val dot_S64x8x256_S64x4096x256_S64x8x4096_2_2_1_1_0_0 256 rfl rfl c
  congr 1
  · refine congrArg q (funext fun a => Fin.ext ?_)
    match a with
    | ⟨0, _⟩ => exact lhs_sc_0 _ _
    | ⟨1, _⟩ => exact lhs_sc_1 _ _
    | ⟨2, _⟩ => exact (lhs_sc_2 _ _).trans hk
  · refine congrArg a1 (funext fun a => Fin.ext ?_)
    match a with
    | ⟨0, _⟩ => exact rhs_sc_0 _ _
    | ⟨1, _⟩ => exact rhs_sc_1 _ _
    | ⟨2, _⟩ => exact (rhs_sc_2 _ _).trans hk

/-- The scaled score at `(b, s, m)`: the sum over the columns, divided by the word 16.0. -/
theorem scaled_apply (q : A Ideal S64x8x256) (a1 : A Ideal S64x4096x256) (b : Fin 64) (s : Fin 8) (m : Fin 4096) :
    scaled (F := Ideal) q a1 (ix3 b s m)
      = Ideal.div (∑ c : Fin 256, q (ix3 b s c) * a1 (ix3 b m c)) (Cert.Spec.lit 0x41800000#32) := by
  unfold scaled
  refine (hostDivf_apply _ _ _).trans ?_
  rw [dot_sc_apply, broadcastInDim_scalar_apply]
  rfl

/-- Clipping at an index is the clip of the entry. -/
theorem clipped_apply (z : A Ideal S64x8x4096) (b : Fin 64) (s : Fin 8) (m : Fin 4096) :
    clipped (F := Ideal) z (ix3 b s m) = Cert.Spec.clip (z (ix3 b s m)) := by
  unfold clipped Cert.Spec.clip
  refine (minimumf_apply _ _ _).trans ?_
  rw [broadcastInDim_scalar_apply, maximumf_apply, broadcastInDim_scalar_apply]
  rfl

/-! ## The row maximum, the exponentials, the weights -/

/-- The cache axis of a `[64, 8, 4096]` array reduces onto `[64, 8]`. -/
theorem red4096 : S64x8x4096.Reduces [2] S64x8 := by decide

/-- The index `(b, s)` with `m` inserted on the cache axis is `(b, s, m)`. -/
theorem lift4096 (b : Fin 64) (s : Fin 8) (m : Fin 4096) : red4096.lift (ix2 b s) m = ix3 b s m :=
  funext fun c => Fin.ext (by match c with | ⟨0, _⟩ => rfl | ⟨1, _⟩ => rfl | ⟨2, _⟩ => rfl)

/-- A per-row value laid along the 4096 cache rows reads, at `(b, s, m)`, the row's value. -/
theorem along4096_apply (r : A Ideal S64x8) (b : Fin 64) (s : Fin 8) (m : Fin 4096) :
    along4096 (F := Ideal) r (ix3 b s m) = r (ix2 b s) := by
  unfold along4096
  refine (broadcastInDim_apply _ _ _ (ix3 b s m) (ix3 b s (0 : Fin 1)) fun a => ?_).trans ?_
  · match a with
    | ⟨0, _⟩ => rfl
    | ⟨1, _⟩ => rfl
    | ⟨2, _⟩ => rfl
  · refine broadcastInDim_apply _ _ _ _ (ix2 b s) fun a => ?_
    match a with
    | ⟨0, _⟩ => rfl
    | ⟨1, _⟩ => rfl

/-- The row maximum at `(b, s)` is the fold of `max` from -∞ over the row's 4096 entries, once more against -∞. -/
theorem rmax_apply (z : A Ideal S64x8x4096) (b : Fin 64) (s : Fin 8) :
    rmax (F := Ideal) z (ix2 b s) = Cert.Spec.rowMax (fun m => z (ix3 b s m)) := by
  unfold rmax Cert.Spec.rowMax
  refine (maximumf_apply _ _ _).trans ?_
  rw [broadcastInDim_scalar_apply]
  refine congrArg (max (Cert.Spec.lit 0xFF800000#32)) ?_
  refine (Host.reduce_eq_fold_single (FloatOps.maximumf (F := Ideal) (φ := .f32)) z _ reducesTo_S64x8x4096_S64x8_d2 red4096 h_S_ (ix2 b s)).trans ?_
  rw [show (z ∘ red4096.lift (ix2 b s)) = fun m => z (ix3 b s m) from funext fun m => congrArg z (lift4096 b s m)]
  rfl

/-- The shifted exponential at `(b, s, m)`. -/
theorem expd_apply (z : A Ideal S64x8x4096) (b : Fin 64) (s : Fin 8) (m : Fin 4096) :
    expd (F := Ideal) z (ix3 b s m) = Ideal.exp (z (ix3 b s m) - Cert.Spec.rowMax (fun m' => z (ix3 b s m'))) := by
  unfold expd
  show Ideal.exp (subf z (along4096 (rmax z)) (ix3 b s m)) = _
  rw [subf_apply, along4096_apply, rmax_apply]

/-- The host's row sum at `(b, s)` is the sum of the row's 4096 entries. -/
theorem rowsum4096_apply (e : A Ideal S64x8x4096) (b : Fin 64) (s : Fin 8) :
    Host.reduceAdd (F := Ideal) (φ := .f32) e (constant S_ .f32 0x00000000#32) reducesTo_S64x8x4096_S64x8_d2 h_S_ (ix2 b s)
      = ∑ k : Fin 4096, e (ix3 b s k) := by
  refine (hostReduceAdd_apply _ _ _ _ _).trans ?_
  refine (Ideal.hostReduceAdd_single reducesTo_S64x8x4096_S64x8_d2 red4096 e _ (ix2 b s)).trans ?_
  rw [constant_apply, Ideal.ofBits_zero_f32, zero_add]
  exact Finset.sum_congr rfl fun k _ => congrArg e (lift4096 b s k)

/-- The softmax weight at `(b, s, m)`: the entry over its row's sum. -/
theorem wts_apply (e : A Ideal S64x8x4096) (b : Fin 64) (s : Fin 8) (m : Fin 4096) :
    wts (F := Ideal) e (ix3 b s m) = Ideal.div (e (ix3 b s m)) (∑ k : Fin 4096, e (ix3 b s k)) := by
  unfold wts
  refine (hostDivf_apply _ _ _).trans ?_
  rw [along4096_apply, rowsum4096_apply]

/-! ## The context -/

/-- In the context product the weights' batch axis reads the result's batch coordinate. -/
theorem lhs_cx_0 (j : S64x8x256.Idx) (k : dot_S64x8x4096_S64x4096x256_S64x8x256_2_1_1_2_0_0.contr.Idx) :
    (dot_S64x8x4096_S64x4096x256_S64x8x256_2_1_1_2_0_0.lhsIdx j k 0).val = (j 0).val := rfl
/-- In the context product the weights' token axis reads the result's token coordinate. -/
theorem lhs_cx_1 (j : S64x8x256.Idx) (k : dot_S64x8x4096_S64x4096x256_S64x8x256_2_1_1_2_0_0.contr.Idx) :
    (dot_S64x8x4096_S64x4096x256_S64x8x256_2_1_1_2_0_0.lhsIdx j k 1).val = (j 1).val := rfl
/-- In the context product the weights' cache-row axis reads the contraction coordinate. -/
theorem lhs_cx_2 (j : S64x8x256.Idx) (k : dot_S64x8x4096_S64x4096x256_S64x8x256_2_1_1_2_0_0.contr.Idx) :
    (dot_S64x8x4096_S64x4096x256_S64x8x256_2_1_1_2_0_0.lhsIdx j k 2).val = (k ⟨0, by decide⟩).val := rfl
/-- In the context product the cache's batch axis reads the result's batch coordinate. -/
theorem rhs_cx_0 (j : S64x8x256.Idx) (k : dot_S64x8x4096_S64x4096x256_S64x8x256_2_1_1_2_0_0.contr.Idx) :
    (dot_S64x8x4096_S64x4096x256_S64x8x256_2_1_1_2_0_0.rhsIdx j k 0).val = (j 0).val := rfl
/-- In the context product the cache's row axis reads the contraction coordinate. -/
theorem rhs_cx_1 (j : S64x8x256.Idx) (k : dot_S64x8x4096_S64x4096x256_S64x8x256_2_1_1_2_0_0.contr.Idx) :
    (dot_S64x8x4096_S64x4096x256_S64x8x256_2_1_1_2_0_0.rhsIdx j k 1).val = (k ⟨0, by decide⟩).val := rfl
/-- In the context product the cache's column axis reads the result's column coordinate. -/
theorem rhs_cx_2 (j : S64x8x256.Idx) (k : dot_S64x8x4096_S64x4096x256_S64x8x256_2_1_1_2_0_0.contr.Idx) :
    (dot_S64x8x4096_S64x4096x256_S64x8x256_2_1_1_2_0_0.rhsIdx j k 2).val = (j 2).val := rfl

/-- The batched product of the weights with the cache at `(b, s, j)` is the sum over the 4096 cache rows. -/
theorem ctx_dot_apply (w : A Ideal S64x8x4096) (a1 : A Ideal S64x4096x256) (b : Fin 64) (s : Fin 8) (j : Fin 256) :
    ctx (F := Ideal) w a1 (ix3 b s j) = ∑ m : Fin 4096, w (ix3 b s m) * a1 (ix3 b m j) := by
  unfold ctx
  simp only [Host.dotGeneral]
  rw [Ideal.dotGeneral_apply]
  rw [← Equiv.sum_comp (contrEquiv1 dot_S64x8x4096_S64x4096x256_S64x8x256_2_1_1_2_0_0 4096 rfl rfl).symm]
  refine Finset.sum_congr rfl fun m _ => ?_
  have hk := contrEquiv1_symm_val dot_S64x8x4096_S64x4096x256_S64x8x256_2_1_1_2_0_0 4096 rfl rfl m
  congr 1
  · refine congrArg w (funext fun a => Fin.ext ?_)
    match a with
    | ⟨0, _⟩ => exact lhs_cx_0 _ _
    | ⟨1, _⟩ => exact lhs_cx_1 _ _
    | ⟨2, _⟩ => exact (lhs_cx_2 _ _).trans hk
  · refine congrArg a1 (funext fun a => Fin.ext ?_)
    match a with
    | ⟨0, _⟩ => exact rhs_cx_0 _ _
    | ⟨1, _⟩ => exact (rhs_cx_1 _ _).trans hk
    | ⟨2, _⟩ => exact rhs_cx_2 _ _

/-- The clipped scaled score at `(b, s, m)` is the specification's clipped exponent. -/
theorem expo_apply (q : A Ideal S64x8x256) (a1 : A Ideal S64x4096x256) (b : Fin 64) (s : Fin 8) (m : Fin 4096) :
    clipped (F := Ideal) (scaled q a1) (ix3 b s m)
      = Cert.Spec.expoR (fun cc => q (ix3 b s cc)) (fun mm cc => a1 (ix3 b mm cc)) m := by
  rw [clipped_apply, scaled_apply]
  rfl

end ProjAttn

open ProjAttn

/-- The reference's projection at batch `b`, token `s`, column `j`. -/
theorem xc_apply (a0 : A Ideal S64x8x1024) (a2 : A Ideal S1024x256) (a3 : A Ideal S256) (b : Fin 64) (s : Fin 8) (j : Fin 256) :
    xc (F := Ideal) a0 a2 a3 (ix3 b s j)
      = Cert.Spec.proj (fun d => a0 (ix3 b s d)) (fun d j' => a2 (ix2 d j')) (fun j' => a3 (ix1 j')) j := by
  unfold xc Cert.Spec.proj
  refine (addf_apply _ _ _).trans ?_
  rw [dot_xc_apply, rows256_apply]

/-- The reference's context (softmax weights times the cache) at batch `b`, token `s`, column `j`, from any query array. -/
theorem ctx_apply (q : A Ideal S64x8x256) (a1 : A Ideal S64x4096x256) (b : Fin 64) (s : Fin 8) (j : Fin 256) :
    ctx (F := Ideal) (wts (expd (clipped (scaled q a1)))) a1 (ix3 b s j)
      = Cert.Spec.attnR (fun cc => q (ix3 b s cc)) (fun mm cc => a1 (ix3 b mm cc)) j := by
  rw [ctx_dot_apply]
  unfold Cert.Spec.attnR
  refine Finset.sum_congr rfl fun m _ => ?_
  rw [wts_apply, expd_apply]
  simp only [expd_apply, expo_apply]

end Cert.ReferenceIdeal.RefVal

end
-- ==== Proof.RVal2.lean ====
import proofs.«164254_g8143257993987_cont_9to1c4b_560_10_alg».proof.Proof.RTerm
import proofs.«164254_g8143257993987_cont_9to1c4b_560_10_alg».proof.Proof.Spec
import Idealize.ShloMosaic.Lib.IdealHost
import Idealize.ShloMosaic.Lib.Pipeline.Value
import Idealize.ShloMosaic.PureOps.Ideal.Laws

noncomputable section

open scoped BigOperators

namespace Cert.ReferenceIdeal.RefVal

open Cert.ReferenceIdeal Cert.ReferenceIdeal.Gen Cert.ReferenceIdeal.RefTerm Idealize.ShloMosaic Idealize.ShloMosaic.TcCoe Idealize.ShloMosaic.ValueIdx Idealize.SL.Sem

namespace RVal2Aux

/-! ## Host operations read at an index, at the ideal values -/

/-- The host's square root at an index. -/
theorem hostSqrt_apply {s : Shape} {φ : FTy} (x : FVec Ideal s φ) (i : s.Idx) : Host.sqrt x i = Ideal.sqrt (x i) := rfl

/-- The host's exponential at an index. -/
theorem hostExp_apply {s : Shape} {φ : FTy} (x : FVec Ideal s φ) (i : s.Idx) : Host.exp x i = Ideal.exp (x i) := rfl

/-- The host's negation at an index. -/
theorem hostNegf_apply {s : Shape} {φ : FTy} (x : FVec Ideal s φ) (i : s.Idx) : Host.negf x i = -(x i) := rfl

/-- An unsigned word converted to a float at an index is the word's natural number. -/
theorem uitofp_apply {s : Shape} {w : Nat} (x : IVec s w) (i : s.Idx) :
    (uitofp .f32 x : FVec Ideal s .f32) i = (((x i).toNat : ℝ) : EReal) := rfl

/-! ## Broadcasts at coordinates -/

/-- A per-row value given a unit last axis reads the row's value. -/
theorem keep1_apply (r : A Ideal S64x8) (b : Fin 64) (s : Fin 8) (u : Fin 1) :
    keep1 (F := Ideal) r (ix3 b s u) = r (ix2 b s) := by
  unfold keep1
  exact broadcastInDim_apply _ _ r (ix3 b s u) (ix2 b s) (fun a => match a with | ⟨0, _⟩ => rfl | ⟨1, _⟩ => rfl)

/-- A unit-last-axis value laid along 512 columns reads the row's one entry. -/
theorem along512_apply (r : A Ideal S64x8x1) (b : Fin 64) (s : Fin 8) (k : Fin 512) :
    along512 (F := Ideal) r (ix3 b s k) = r (ix3 b s (0 : Fin 1)) := by
  unfold along512
  exact broadcastInDim_apply _ _ r (ix3 b s k) (ix3 b s (0 : Fin 1))
    (fun a => match a with | ⟨0, _⟩ => rfl | ⟨1, _⟩ => rfl | ⟨2, _⟩ => rfl)

/-- A scalar laid over the unit-last-axis shape reads the scalar. -/
theorem splat1_apply (v : A Ideal S_) (j : S64x8x1.Idx) : splat1 (F := Ideal) v j = v ix0 := by
  unfold splat1
  exact broadcastInDim_scalar_apply _ v j

/-- A 512-vector laid over every row reads the vector at the column. -/
theorem rows512_apply (a : A Ideal S512) (b : Fin 64) (s : Fin 8) (k : Fin 512) :
    rows512 (F := Ideal) a (ix3 b s k) = a (ix1 k) := by
  unfold rows512
  refine (broadcastInDim_apply _ _ _ (ix3 b s k) (ix3 (0 : Fin 1) (0 : Fin 1) k)
    (fun a => match a with | ⟨0, _⟩ => rfl | ⟨1, _⟩ => rfl | ⟨2, _⟩ => rfl)).trans ?_
  exact broadcastInDim_apply _ _ a (ix3 (0 : Fin 1) (0 : Fin 1) k) (ix1 k) (fun a => match a with | ⟨0, _⟩ => rfl)

/-- The word 1.0 over the hidden shape reads that word. -/
theorem one512_apply (j : S64x8x512.Idx) : one512 (F := Ideal) j = Cert.Spec.lit 0x3F800000#32 := by
  unfold one512
  exact broadcastInDim_scalar_apply _ _ j

/-! ## Row sums at coordinates -/

/-- The host's sum over the last axis of a [64, 8, 512] array from the zero word is the sum of the row. -/
theorem sum512_apply (x : A Ideal S64x8x512) (b : Fin 64) (s : Fin 8) :
    Host.reduceAdd (F := Ideal) x (constant S_ .f32 0x00000000#32) reducesTo_S64x8x512_S64x8_d2 h_S_ (ix2 b s)
      = ∑ k : Fin 512, x (ix3 b s k) := by
  have h : S64x8x512.Reduces [2] S64x8 := by decide
  refine (hostReduceAdd_apply x _ _ _ (ix2 b s)).trans ?_
  refine (Ideal.hostReduceAdd_single reducesTo_S64x8x512_S64x8_d2 h x _ (ix2 b s)).trans ?_
  have h0 : (constant (F := Ideal) S_ .f32 0x00000000#32) (Shape.Idx.first h_S_) = 0 := Ideal.ofBits_zero_f32
  rw [h0, zero_add]
  refine Finset.sum_congr rfl fun k _ => congrArg x ?_
  funext a
  match a with
  | ⟨0, _⟩ => rfl
  | ⟨1, _⟩ => rfl
  | ⟨2, _⟩ => rfl

/-! ## A row-by-matrix product at coordinates -/

/-- A product of a [B, S, K] array with a [K, N] matrix over the K axis, read at (b, s, n), is the sum over the
    contracted coordinate of the row's entries times the matrix's column entries. -/
theorem dotRows_apply {B S K N : Nat} {φ₁ φ₂ : FTy}
    (w : DotDims.WF ⟨3, ![B, S, K]⟩ ⟨2, ![K, N]⟩ ⟨3, ![B, S, N]⟩ [2] [0] [0, 1] [1] [] [])
    (prec : Option ContractPrecision) (X : FVec Ideal ⟨3, ![B, S, K]⟩ φ₁) (W : FVec Ideal ⟨2, ![K, N]⟩ φ₂)
    (b : Fin B) (s : Fin S) (n : Fin N) :
    Host.dotGeneral (⟨[2], [0], [0, 1], [1], [], [], w⟩ : DotDims _ _ _) prec X W (ix3 b s n)
      = ∑ k : Fin K, X (ix3 b s k) * W (ix2 k n) := by
  show FloatOps.dotGeneral _ prec _ X W (ix3 b s n) = _
  rw [Ideal.dotGeneral_apply,
    ← Equiv.sum_comp (contrEquiv1 (⟨[2], [0], [0, 1], [1], [], [], w⟩ : DotDims _ _ _) K rfl rfl).symm]
  refine Finset.sum_congr rfl fun c _ => ?_
  have hc := contrEquiv1_symm_val
    (⟨[2], [0], [0, 1], [1], [], [], w⟩ : DotDims ⟨3, ![B, S, K]⟩ ⟨2, ![K, N]⟩ ⟨3, ![B, S, N]⟩) K rfl rfl c
  have el : (⟨[2], [0], [0, 1], [1], [], [], w⟩ : DotDims ⟨3, ![B, S, K]⟩ ⟨2, ![K, N]⟩ ⟨3, ![B, S, N]⟩).lhsIdx (ix3 b s n)
      ((contrEquiv1 _ K rfl rfl).symm c) = ix3 b s c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact hc
  have er : (⟨[2], [0], [0, 1], [1], [], [], w⟩ : DotDims ⟨3, ![B, S, K]⟩ ⟨2, ![K, N]⟩ ⟨3, ![B, S, N]⟩).rhsIdx (ix3 b s n)
      ((contrEquiv1 _ K rfl rfl).symm c) = ix2 c n := by
    funext ax; apply Fin.ext
    match ax with
    | ⟨0, _⟩ => simp [DotDims.rhsIdx]; exact hc
    | ⟨1, _⟩ => simp [DotDims.rhsIdx]; rfl
  rw [el, er]

/-! ## The joined row at coordinates -/

/-- The joined row at (b, s, k) is the left piece at k below 256 and the right piece at k - 256 from there on. -/
theorem comb_apply (q c : A Ideal S64x8x256) (b : Fin 64) (s : Fin 8) (k : Fin 512) :
    comb (F := Ideal) q c (ix3 b s k)
      = Cert.Spec.comb (fun j => q (ix3 b s j)) (fun j => c (ix3 b s j)) k := by
  unfold comb Cert.Spec.comb
  by_cases h : k.val < 256
  · rw [dif_pos h]
    exact concatenate_pair_apply_left (t := S64x8x512) (s₁ := S64x8x256) (s₂ := S64x8x256) (2 : Fin 3) q c _
      (ix3 b s k) rfl (ix3 b s (⟨k.val, h⟩ : Fin 256))
      (fun a => match a with | ⟨0, _⟩ => rfl | ⟨1, _⟩ => rfl | ⟨2, _⟩ => rfl)
  · rw [dif_neg h]
    exact concatenate_pair_apply_right (t := S64x8x512) (s₁ := S64x8x256) (s₂ := S64x8x256) (2 : Fin 3) q c _
      (ix3 b s k) rfl rfl (ix3 b s (⟨k.val - 256, by omega⟩ : Fin 256))
      (fun a => match a with
        | ⟨0, _⟩ => fun _ => rfl
        | ⟨1, _⟩ => fun _ => rfl
        | ⟨2, _⟩ => fun hne => absurd rfl hne)
      (by show k.val - 256 + 256 = k.val; omega)

/-! ## The mean, the centred row and the variance at coordinates -/

/-- The mean of the row (b, s): the row's sum over the word 512.0. -/
theorem mean_apply (v : A Ideal S64x8x512) (b : Fin 64) (s : Fin 8) (u : Fin 1) :
    mean (F := Ideal) v (ix3 b s u) = Cert.Spec.mean (fun k => v (ix3 b s k)) := by
  unfold mean Cert.Spec.mean
  refine (hostDivf_apply _ _ _).trans ?_
  rw [keep1_apply, sum512_apply, splat1_apply]
  rfl

/-- The row (b, s) less its mean, at column k. -/
theorem cen_apply (v : A Ideal S64x8x512) (b : Fin 64) (s : Fin 8) (k : Fin 512) :
    subf v (along512 (mean v)) (ix3 b s k) = Cert.Spec.cen (fun k => v (ix3 b s k)) k := by
  unfold Cert.Spec.cen
  rw [subf_apply, along512_apply, mean_apply]

/-- The divisor of the variance: the word 512.0 less the integer 0 converted. -/
theorem nvar_apply :
    nvar (F := Ideal) ix0 = Cert.Spec.lit 0x44000000#32 - (((0#32 : BitVec 32).toInt : ℝ) : EReal) := rfl

/-- The variance of the row (b, s) as the routine guards it. -/
theorem var_apply (v : A Ideal S64x8x512) (b : Fin 64) (s : Fin 8) (u : Fin 1) :
    var (F := Ideal) v (ix3 b s u) = Cert.Spec.varR (fun k => v (ix3 b s k)) := by
  unfold var Cert.Spec.varR
  have hc : broadcastInDim S64x8x1 ![] bcast_S_S64x8x1
        (cmpf (F := Ideal) .ogt (nvar (F := Ideal)) (constant S_ .f32 0x00000000#32)) (ix3 b s u)
      = Ideal.cmp .ogt (Cert.Spec.lit 0x44000000#32 - (((0#32 : BitVec 32).toInt : ℝ) : EReal))
          (Cert.Spec.lit 0x00000000#32) :=
by
    refine (broadcastInDim_scalar_apply _ _ _).trans ?_
    rfl
  have hq : Host.divf (F := Ideal) (s := S64x8x1) (φ := .f32)
        (keep1 (Host.reduceAdd (mulf (subf v (along512 (mean v))) (subf v (along512 (mean v))))
          (constant S_ .f32 0x00000000#32) reducesTo_S64x8x512_S64x8_d2 h_S_))
        (splat1 (nvar (F := Ideal))) (ix3 b s u)
      = Ideal.div (∑ k : Fin 512, Cert.Spec.cen (fun k => v (ix3 b s k)) k * Cert.Spec.cen (fun k => v (ix3 b s k)) k)
          (Cert.Spec.lit 0x44000000#32 - (((0#32 : BitVec 32).toInt : ℝ) : EReal)) := by
    refine (hostDivf_apply _ _ _).trans ?_
    rw [keep1_apply, sum512_apply, splat1_apply, nvar_apply]
    refine congrArg (fun t => Ideal.div t _) (Finset.sum_congr rfl fun k _ => ?_)
    rw [mulf_apply, cen_apply]
  have hn : splat1 (F := Ideal) (id (constant (F := Ideal) S_ .f32 0x7FC00000#32)) (ix3 b s u) = Cert.Spec.lit 0x7FC00000#32 :=
by
    refine (splat1_apply _ _).trans ?_
    rfl
  rw [select_apply, hc, hq, hn]
  rfl

/-! ## The normalisation, the hidden layer and the logit at coordinates -/

/-- The normalised row (b, s) at column k. -/
theorem ln_apply (v : A Ideal S64x8x512) (a4 a5 : A Ideal S512) (b : Fin 64) (s : Fin 8) (k : Fin 512) :
    ln (F := Ideal) v a4 a5 (ix3 b s k)
      = Cert.Spec.lnorm Cert.Spec.varR (fun k => a4 (ix1 k)) (fun k => a5 (ix1 k)) (fun k => v (ix3 b s k)) k := by
  unfold ln Cert.Spec.lnorm
  rw [addf_apply, hostDivf_apply, mulf_apply, rows512_apply, rows512_apply, cen_apply, along512_apply, hostSqrt_apply,
    addf_apply, var_apply, splat1_apply]
  rfl

/-- The hidden layer before its nonlinearity, at (b, s, n). -/
theorem hidv_apply (u : A Ideal S64x8x512) (a6 : A Ideal S512x512) (a7 : A Ideal S512) (b : Fin 64) (s : Fin 8)
    (n : Fin 512) :
    hidv (F := Ideal) u a6 a7 (ix3 b s n)
      = Cert.Spec.hid (fun k n => a6 (ix2 k n)) (fun n => a7 (ix1 n)) (fun k => u (ix3 b s k)) n := by
  unfold hidv Cert.Spec.hid
  rw [addf_apply, rows512_apply]
  exact congrArg (fun t => t + a7 (ix1 n))
    (dotRows_apply dot_S64x8x512_S512x512_S64x8x512_2_0_01_1_n_n_wf none u a6 b s n)

/-- The nonlinearity is pointwise. -/
theorem silu_apply (z : A Ideal S64x8x512) (j : S64x8x512.Idx) :
    silu (F := Ideal) z j = Cert.Spec.siluR (z j) := by
  unfold silu Cert.Spec.siluR
  rw [mulf_apply, hostDivf_apply, addf_apply, one512_apply, hostExp_apply, hostNegf_apply]

/-- The gate logit of the row (b, s). -/
theorem logitv_apply (hs : A Ideal S64x8x512) (a8 : A Ideal S512x1) (a9 : A Ideal S1) (b : Fin 64) (s : Fin 8) :
    logitv (F := Ideal) hs a8 a9 (ix3 b s (0 : Fin 1))
      = Cert.Spec.logit (fun n => a8 (ix2 n (0 : Fin 1))) (a9 (ix1 (0 : Fin 1))) (fun n => hs (ix3 b s n)) := by
  unfold logitv Cert.Spec.logit
  have hb : broadcastInDim S64x8x1 ![0, 1, 2] bcast_S1x1x1_S64x8x1_0_1_2
      (broadcastInDim S1x1x1 ![2] bcast_S1_S1x1x1_2 a9) (ix3 b s (0 : Fin 1)) = a9 (ix1 (0 : Fin 1)) := by
    refine (broadcastInDim_apply _ _ _ (ix3 b s (0 : Fin 1)) (ix3 (0 : Fin 1) (0 : Fin 1) (0 : Fin 1))
      (fun a => match a with | ⟨0, _⟩ => rfl | ⟨1, _⟩ => rfl | ⟨2, _⟩ => rfl)).trans ?_
    exact broadcastInDim_apply _ _ a9 (ix3 (0 : Fin 1) (0 : Fin 1) (0 : Fin 1)) (ix1 (0 : Fin 1))
      (fun a => match a with | ⟨0, _⟩ => rfl)
  rw [addf_apply, hb]
  exact congrArg (fun t => t + a9 (ix1 (0 : Fin 1)))
    (dotRows_apply dot_S64x8x512_S512x1_S64x8x1_2_0_01_1_n_n_wf none hs a8 b s (0 : Fin 1))

/-! ## The gate and the fused result at coordinates -/

/-- The hard gate is pointwise: 1 where the spelt-out logistic of the logit exceeds the word 0.5, else 0. -/
theorem gate_apply (l : A Ideal S64x8x1) (j : S64x8x1.Idx) :
    gate (F := Ideal) l j = Cert.Spec.gateR (l j) := by
  unfold gate Cert.Spec.gateR
  rw [uitofp_apply, cmpf_apply, hostDivf_apply, addf_apply, hostExp_apply, hostNegf_apply, splat1_apply, splat1_apply]
  show (((Ideal.cmp .ogt
      (Ideal.div (Cert.Spec.lit 0x3F800000#32) (Cert.Spec.lit 0x3F800000#32 + Ideal.exp (-(l j))))
      (Cert.Spec.lit 0x3F000000#32)).toNat : ℝ) : EReal) = _
  show (((BitVec.ofBool (decide (Cert.Spec.lit 0x3F000000#32
      < Ideal.div (Cert.Spec.lit 0x3F800000#32) (Cert.Spec.lit 0x3F800000#32 + Ideal.exp (-(l j)))))).toNat : ℝ) : EReal) = _
  by_cases h : Cert.Spec.lit 0x3F000000#32
      < Ideal.div (Cert.Spec.lit 0x3F800000#32) (Cert.Spec.lit 0x3F800000#32 + Ideal.exp (-(l j)))
  · rw [if_pos h, decide_eq_true h]
    simp
  · rw [if_neg h, decide_eq_false h]
    simp

/-- The fused result at (b, s, d): the input entry plus the row's gate times the context row through the output
    matrix plus the output bias. -/
theorem fused_apply (a0 : A Ideal S64x8x1024) (c : A Ideal S64x8x256) (gt : A Ideal S64x8x1) (a10 : A Ideal S256x1024)
    (a11 : A Ideal S1024) (b : Fin 64) (s : Fin 8) (d : Fin 1024) :
    fused (F := Ideal) a0 c gt a10 a11 (ix3 b s d)
      = a0 (ix3 b s d) + gt (ix3 b s (0 : Fin 1))
          * ((∑ j : Fin 256, c (ix3 b s j) * a10 (ix2 j d)) + a11 (ix1 d)) := by
  unfold fused
  have hg : broadcastInDim S64x8x1024 ![0, 1, 2] bcast_S64x8x1_S64x8x1024_0_1_2 gt (ix3 b s d)
      = gt (ix3 b s (0 : Fin 1)) :=
    broadcastInDim_apply _ _ gt (ix3 b s d) (ix3 b s (0 : Fin 1))
      (fun a => match a with | ⟨0, _⟩ => rfl | ⟨1, _⟩ => rfl | ⟨2, _⟩ => rfl)
  have hb : broadcastInDim S64x8x1024 ![0, 1, 2] bcast_S1x1x1024_S64x8x1024_0_1_2
      (broadcastInDim S1x1x1024 ![2] bcast_S1024_S1x1x1024_2 a11) (ix3 b s d) = a11 (ix1 d) := by
    refine (broadcastInDim_apply _ _ _ (ix3 b s d) (ix3 (0 : Fin 1) (0 : Fin 1) d)
      (fun a => match a with | ⟨0, _⟩ => rfl | ⟨1, _⟩ => rfl | ⟨2, _⟩ => rfl)).trans ?_
    exact broadcastInDim_apply _ _ a11 (ix3 (0 : Fin 1) (0 : Fin 1) d) (ix1 d) (fun a => match a with | ⟨0, _⟩ => rfl)
  have hd := dotRows_apply (φ₁ := .f32) (φ₂ := .f32) dot_S64x8x256_S256x1024_S64x8x1024_2_0_01_1_n_n_wf none c a10 b s d
  rw [addf_apply, mulf_apply, addf_apply, hg, hb]
  exact congrArg (fun t => a0 (ix3 b s d) + gt (ix3 b s (0 : Fin 1)) * (t + a11 (ix1 d))) hd

end RVal2Aux

open RVal2Aux

/-! ## The whole tail -/

/-- The reference's fused result from any query and context arrays, at batch `b`, token `s`, column `d`: the second
    arrangement's row of the rows `(b, s)`. -/
theorem tail_apply (a0 : A Ideal S64x8x1024) (q c : A Ideal S64x8x256) (a4 a5 : A Ideal S512) (a6 : A Ideal S512x512)
    (a7 : A Ideal S512) (a8 : A Ideal S512x1) (a9 : A Ideal S1) (a10 : A Ideal S256x1024) (a11 : A Ideal S1024)
    (b : Fin 64) (s : Fin 8) (d : Fin 1024) :
    fused (F := Ideal) a0 c (gate (logitv (silu (hidv (ln (comb q c) a4 a5) a6 a7)) a8 a9)) a10 a11 (ix3 b s d)
      = Cert.Spec.outRow Cert.Spec.varR Cert.Spec.siluR Cert.Spec.gateR
          (fun d' => a0 (ix3 b s d')) (fun j => q (ix3 b s j)) (fun j => c (ix3 b s j))
          (fun k => a4 (ix1 k)) (fun k => a5 (ix1 k)) (fun k n => a6 (ix2 k n)) (fun n => a7 (ix1 n))
          (fun n => a8 (ix2 n (0 : Fin 1))) (a9 (ix1 (0 : Fin 1))) (fun j d' => a10 (ix2 j d')) (fun d' => a11 (ix1 d')) d := by
  have hcomb : (fun k => comb (F := Ideal) q c (ix3 b s k))
      = Cert.Spec.comb (fun j => q (ix3 b s j)) (fun j => c (ix3 b s j)) :=
    funext fun k => comb_apply q c b s k
  have hln : (fun k => ln (F := Ideal) (comb q c) a4 a5 (ix3 b s k))
      = Cert.Spec.lnorm Cert.Spec.varR (fun k => a4 (ix1 k)) (fun k => a5 (ix1 k))
          (Cert.Spec.comb (fun j => q (ix3 b s j)) (fun j => c (ix3 b s j))) := by
    funext k
    rw [ln_apply, hcomb]
  have hsilu : (fun n => silu (F := Ideal) (hidv (ln (comb q c) a4 a5) a6 a7) (ix3 b s n))
      = fun n => Cert.Spec.siluR (Cert.Spec.hid (fun k n => a6 (ix2 k n)) (fun n => a7 (ix1 n))
          (Cert.Spec.lnorm Cert.Spec.varR (fun k => a4 (ix1 k)) (fun k => a5 (ix1 k))
            (Cert.Spec.comb (fun j => q (ix3 b s j)) (fun j => c (ix3 b s j)))) n) := by
    funext n
    rw [silu_apply, hidv_apply, hln]
  unfold Cert.Spec.outRow
  rw [fused_apply, gate_apply, logitv_apply, hsilu]

end Cert.ReferenceIdeal.RefVal

end
-- ==== Proof.RVal.lean ====
import proofs.«164254_g8143257993987_cont_9to1c4b_560_10_alg».proof.Proof.RVal1
import proofs.«164254_g8143257993987_cont_9to1c4b_560_10_alg».proof.Proof.RVal2

noncomputable section

open scoped BigOperators

namespace Cert.ReferenceIdeal.RefVal

open Cert.ReferenceIdeal Cert.ReferenceIdeal.Gen Cert.ReferenceIdeal.RefTerm Idealize.ShloMosaic Idealize.ShloMosaic.TcCoe Idealize.ShloMosaic.ValueIdx Idealize.SL.Sem

/-- The reference's result at batch `b`, token `s`, column `d` is the second arrangement's: the fused row of the
    rows `(b, s)` of the input, of its projection and of its softmax context. -/
theorem ref_value (a0 : A Ideal S64x8x1024) (a1 : A Ideal S64x4096x256) (a2 : A Ideal S1024x256) (a3 : A Ideal S256)
    (a4 a5 : A Ideal S512) (a6 : A Ideal S512x512) (a7 : A Ideal S512) (a8 : A Ideal S512x1) (a9 : A Ideal S1)
    (a10 : A Ideal S256x1024) (a11 : A Ideal S1024) (b : Fin 64) (s : Fin 8) (d : Fin 1024) :
    refOut (F := Ideal) a0 a1 a2 a3 a4 a5 a6 a7 a8 a9 a10 a11 (ix3 b s d)
      = Cert.Spec.outR (Cert.Spec.argsOf a0 a1 a2 a3 a4 a5 a6 a7 a8 a9 a10 a11) b s d := by
  have hq : (fun j => xc (F := Ideal) a0 a2 a3 (ix3 b s j))
      = Cert.Spec.proj (fun d' => a0 (ix3 b s d')) (fun d' j' => a2 (ix2 d' j')) (fun j' => a3 (ix1 j')) :=
    funext fun j => xc_apply a0 a2 a3 b s j
  have hc : (fun j => ctx (F := Ideal) (wts (expd (clipped (scaled (xc a0 a2 a3) a1)))) a1 (ix3 b s j))
      = Cert.Spec.attnR (Cert.Spec.proj (fun d' => a0 (ix3 b s d')) (fun d' j' => a2 (ix2 d' j')) (fun j' => a3 (ix1 j')))
          (fun mm cc => a1 (ix3 b mm cc)) :=
    funext fun j => (ctx_apply (xc a0 a2 a3) a1 b s j).trans (by rw [hq])
  unfold refOut
  rw [tail_apply, hq, hc]
  rfl

end Cert.ReferenceIdeal.RefVal

end
-- ==== Proof.PreReal.lean ====
import proofs.«164254_g8143257993987_cont_9to1c4b_560_10_alg».proof.Proof.Gen.KernelIdeal
import proofs.«164254_g8143257993987_cont_9to1c4b_560_10_alg».proof.Proof.Gen.Pre_finite_inputs
import proofs.«164254_g8143257993987_cont_9to1c4b_560_10_alg».proof.Defs
import Idealize.ShloMosaic.Lib.ValueIdx
import Idealize.ShloMosaic.Lib.ReduceAll

noncomputable section

open scoped BigOperators

namespace Cert.PreReal

open Idealize.ShloMosaic Idealize.ShloMosaic.TcCoe Idealize.ShloMosaic.ValueIdx Idealize.SL.Sem

namespace PreRealAux

/-- The f32 word with every exponent bit set and no fraction bit denotes +∞. -/
theorem inf_word : Ideal.ofBits .f32 0x7F800000#32 = (⊤ : EReal) := by
  simp [Ideal.ofBits, Ideal.ieee]

/-- An extended real whose absolute value max x (-x) is strictly below the +∞ word is a real number:
    at ⊤ the maximum is ⊤, at ⊥ it is -⊥ = ⊤, and ⊤ < ⊤ is false. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- The rank-0 shape has exactly one index. -/
theorem subsingleton_scalar_idx : Subsingleton Cert.Pre_finite_inputs.S_.Idx := ⟨fun a b => funext fun d => d.elim0⟩

end PreRealAux

open PreRealAux in
/-- Under the precondition (every float input finite) every entry of the cache argument is a real number. -/
theorem cache_real (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S64x4096x256.Idx) :
    ∃ r : ℝ, (m ((c.tc : Thread Cert.KernelIdeal.nD Cert.KernelIdeal.τ).loc Cert.KernelIdeal.main_arg1) : Cert.KernelIdeal.S64x4096x256.Idx → EReal) i = (r : EReal) := by
  -- the precondition at the one rank-0 index: a twelvefold conjunction of "all entries finite", equal to 1
  have h := congrFun (hpre c) ValueIdx.ix0
  dsimp only [Cert.Pre_finite_inputs.fn, Cert.Pre_finite_inputs.fn_part1, Cert.Pre_finite_inputs.fn_part2,
    Cert.Pre_finite_inputs.fn_part3, andi] at h
  -- a conjunction that is 1 has both conjuncts 1: ten steps to the left, then the right conjunct is the cache's
  have h1 := (IntOp.andi_eq_one.1 (IntOp.andi_eq_one.1 (IntOp.andi_eq_one.1 (IntOp.andi_eq_one.1 (IntOp.andi_eq_one.1
    (IntOp.andi_eq_one.1 (IntOp.andi_eq_one.1 (IntOp.andi_eq_one.1 (IntOp.andi_eq_one.1 (IntOp.andi_eq_one.1
    (IntOp.andi_eq_one.1 h).1).1).1).1).1).1).1).1).1).1).2
  -- a reduction by "and" over all axes that is 1 met a 1 at every index: |x i| < +∞ at i, so x i is real
  haveI := subsingleton_scalar_idx
  exact real_of_abs_lt _ (Host.reduce_andi_all _ _ _ _ _ h1 i)

end Cert.PreReal

end
-- ==== Proof.lean ====
/-
  The certificate of the memory-router read: the query projection, the clipped exponential attention over the cache and
  the gated fuse, as three kernels against the plain array program.

  Each program's run ends with its result array named: the kernel program's at the contents its last region leaves,
  read back through the three regions to the arguments as the first arrangement of the row mathematics (weights
  normalised after the product; the gate on the logit's sign); the array program's at its operations' composed term,
  read at an index as the second arrangement (softmax weights normalised before the product; the gate on
  `σ(l) > 1/2`). The two arrangements are one function where the cache entries are real numbers, which the
  precondition gives. The frames are the generated ones, the array program's its run with the result dropped; the
  idealization rewrote nothing.
-/
import proofs.«164254_g8143257993987_cont_9to1c4b_560_10_alg».proof.Defs
import proofs.«164254_g8143257993987_cont_9to1c4b_560_10_alg».proof.Proof.Gen.Kernel
import proofs.«164254_g8143257993987_cont_9to1c4b_560_10_alg».proof.Proof.Gen.Kernel.Skeleton
import proofs.«164254_g8143257993987_cont_9to1c4b_560_10_alg».proof.Proof.Gen.Kernel.Launch
import proofs.«164254_g8143257993987_cont_9to1c4b_560_10_alg».proof.Proof.Gen.Kernel.Points
import proofs.«164254_g8143257993987_cont_9to1c4b_560_10_alg».proof.Proof.Gen.Kernel.Frame
import proofs.«164254_g8143257993987_cont_9to1c4b_560_10_alg».proof.Proof.Gen.KernelIdeal
import proofs.«164254_g8143257993987_cont_9to1c4b_560_10_alg».proof.Proof.Gen.KernelIdeal.Skeleton
import proofs.«164254_g8143257993987_cont_9to1c4b_560_10_alg».proof.Proof.Gen.KernelIdeal.Launch
import proofs.«164254_g8143257993987_cont_9to1c4b_560_10_alg».proof.Proof.Gen.KernelIdeal.Points
import proofs.«164254_g8143257993987_cont_9to1c4b_560_10_alg».proof.Proof.Gen.KernelIdeal.Frame
import proofs.«164254_g8143257993987_cont_9to1c4b_560_10_alg».proof.Proof.Gen.ReferenceIdeal
import proofs.«164254_g8143257993987_cont_9to1c4b_560_10_alg».proof.Proof.Gen.Pre_finite_inputs
import proofs.«164254_g8143257993987_cont_9to1c4b_560_10_alg».proof.Proof.SpecLaws
import proofs.«164254_g8143257993987_cont_9to1c4b_560_10_alg».proof.Proof.KRun
import proofs.«164254_g8143257993987_cont_9to1c4b_560_10_alg».proof.Proof.KWalk
import proofs.«164254_g8143257993987_cont_9to1c4b_560_10_alg».proof.Proof.RRun
import proofs.«164254_g8143257993987_cont_9to1c4b_560_10_alg».proof.Proof.RVal
import proofs.«164254_g8143257993987_cont_9to1c4b_560_10_alg».proof.Proof.PreReal
import Idealize.ShloMosaic.Adequacy
import Idealize.ShloMosaic.Init

noncomputable section

namespace Cert.Proof

open Idealize.ShloMosaic Idealize.ShloMosaic.TcCoe Idealize.ShloMosaic.ValueIdx Idealize.SL.Sem

/-- The array program's frame: its run with the result dropped. -/
theorem frame_ref : Cert.frame_ReferenceIdeal := fun m ρ _ =>
  (θ_run Cert.ReferenceIdeal.defs _ _).mono (fun _ h c => (h c).2) (Cert.ReferenceIdeal.RefRun.run (F := Ideal) m ρ)

/-- Both programs end with the same result array: the kernel program's last boundary contents at the result buffer.
    At each index the array program's term is the second arrangement and the kernel program's contents the first, of
    arguments that agree; the arrangements agree since the cache is real. -/
theorem algebraic : Cert.algebraic_KernelIdeal_ReferenceIdeal := by
  intro m ρ m' ρ' hpre hagree
  refine ⟨fun c => Cert.KernelIdeal.Gen.W7 m ρ c (Proc.devRef .tc Cert.KernelIdeal.main_v13),
    Cert.KernelIdeal.KRun.run_value m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9, h10, h11⟩ := hagree c
  rw [h0, h1, h2, h3, h4, h5, h6, h7, h8, h9, h10, h11]
  funext i
  obtain ⟨b, s, d, rfl⟩ : ∃ (b : Fin 64) (s : Fin 8) (d : Fin 1024), i = ix3 b s d := ⟨i 0, i 1, i 2, eq_ix3 i⟩
  refine (Cert.ReferenceIdeal.RefVal.ref_value _ _ _ _ _ _ _ _ _ _ _ _ b s d).trans ?_
  refine Eq.trans ?_ (Cert.KernelIdeal.KWalk.ker_value m ρ c b s d).symm
  exact (congrFun (congrFun (congrFun (Cert.Spec.outK_eq_outR _ fun b' mm cc =>
    Cert.PreReal.cache_real m hpre c (ix3 b' mm cc)) b) s) d).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
